-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x4096 : Shape := ⟨2, ![8192, 4096]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x4096 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S8192x4096 : Shape := ⟨2, ![8192, 4096]⟩
abbrev S256x256 : Shape := ⟨2, ![256, 256]⟩
abbrev S256 : Shape := ⟨1, ![256]⟩
abbrev S8192x1 : Shape := ⟨2, ![8192, 1]⟩
abbrev S1x4096 : Shape := ⟨2, ![1, 4096]⟩
abbrev S512x4096 : Shape := ⟨2, ![512, 4096]⟩
abbrev S512x1 : Shape := ⟨2, ![512, 1]⟩
abbrev S512 : Shape := ⟨1, ![512]⟩
abbrev S4096 : Shape := ⟨1, ![4096]⟩
abbrev S4096x1 : Shape := ⟨2, ![4096, 1]⟩
abbrev S_ : Shape := ⟨0, ![]⟩
abbrev S4096x256 : Shape := ⟨2, ![4096, 256]⟩
abbrev S2048x1024 : Shape := ⟨2, ![2048, 1024]⟩
abbrev S2048x256 : Shape := ⟨2, ![2048, 256]⟩
abbrev S2048x1 : Shape := ⟨2, ![2048, 1]⟩
abbrev S1024x1 : Shape := ⟨2, ![1024, 1]⟩
abbrev S1024x256 : Shape := ⟨2, ![1024, 256]⟩
abbrev S1x256 : Shape := ⟨2, ![1, 256]⟩

abbrev nBuf : Space → Nat
  | .hbm => 34
  | .vmem => 27
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S1x4096, .f32⟩
  | .hbm, ⟨6, _⟩ => ⟨S4096x1, .f32⟩
  | .hbm, ⟨7, _⟩ => ⟨S_, .f32⟩
  | .hbm, ⟨8, _⟩ => ⟨S8192x1, .f32⟩
  | .hbm, ⟨9, _⟩ => ⟨S8192x1, .i1⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S4096x1, .f32⟩
  | .hbm, ⟨20, _⟩ => ⟨S4096x1, .i1⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x256, .f32⟩
  | .hbm, ⟨32, _⟩ => ⟨S1x256, .f32⟩
  | .hbm, ⟨33, _⟩ => ⟨S8192x256, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S1x4096, .f32⟩
  | .local _ .vmem, ⟨5, _⟩ => ⟨S2048x1024, .f32⟩
  | .local _ .vmem, ⟨6, _⟩ => ⟨S2048x1024, .f32⟩
  | .local _ .vmem, ⟨7, _⟩ => ⟨S2048x256, .f32⟩
  | .local _ .vmem, ⟨8, _⟩ => ⟨S2048x256, .f32⟩
  | .local _ .vmem, ⟨9, _⟩ => ⟨S2048x1, .f32⟩
  | .local _ .vmem, ⟨10, _⟩ => ⟨S2048x1, .f32⟩
  | .local _ .vmem, ⟨11, _⟩ => ⟨S1024x1, .f32⟩
  | .local _ .vmem, ⟨12, _⟩ => ⟨S1024x1, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S2048x1024, .f32⟩
  | .local _ .vmem, ⟨17, _⟩ => ⟨S2048x1024, .f32⟩
  | .local _ .vmem, ⟨18, _⟩ => ⟨S1024x256, .f32⟩
  | .local _ .vmem, ⟨19, _⟩ => ⟨S1024x256, .f32⟩
  | .local _ .vmem, ⟨20, _⟩ => ⟨S2048x1, .f32⟩
  | .local _ .vmem, ⟨21, _⟩ => ⟨S2048x1, .f32⟩
  | .local _ .vmem, ⟨22, _⟩ => ⟨S256x256, .f32⟩
  | .local _ .vmem, ⟨23, _⟩ => ⟨S1x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S512x4096_S4096 : S512x4096.Reduces [0] S4096
  shapeCasts_S4096_S1x4096 : S4096.ShapeCasts S1x4096
  shapeCasts_S1x4096_S4096x1 : S1x4096.ShapeCasts S4096x1
  bcast_S_S8192x1 : S_.BroadcastsInDim S8192x1 (![] : Fin 0 → Fin S8192x1.rank)
  bcast_S_S4096x1 : S_.BroadcastsInDim S4096x1 (![] : Fin 0 → Fin S4096x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  shapeCasts_S256_S1x256 : S256.ShapeCasts S1x256
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x1024_S2048x256_S1024x256_0_0_1_1_n_n_wf : DotDims.WF S2048x1024 S2048x256 S1024x256 [0] [0] [1] [1] [] []
  dot_S2048x1024_S1024x256_S2048x256_1_0_0_1_n_n_wf : DotDims.WF S2048x1024 S1024x256 S2048x256 [1] [0] [0] [1] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .f32 = 32 ∨ (Rect.block (s := S8192x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S4096x256.size a
  hwx1_4 : ∀ i : grid1.Coords, EltTy.bits .f32 = 32 ∨ (Rect.block (s := S4096x256) S1024x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .f32 = 32 ∨ (Rect.block (s := S8192x4096) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x256.size a ≤ S8192x256.size a
  hwx2_5 : ∀ i : grid2.Coords, EltTy.bits .f32 = 32 ∨ (Rect.block (s := S8192x256) S2048x256.size (cc2_transform_5 i) (hinb2_5 i)).WholeWords (EltTy.packing .f32)

variable [Facts₀]

def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S2048x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x4096 : Shape := ⟨2, ![8192, 4096]⟩
abbrev S256x256 : Shape := ⟨2, ![256, 256]⟩
abbrev S256 : Shape := ⟨1, ![256]⟩
abbrev S_ : Shape := ⟨0, ![]⟩
abbrev S8192 : Shape := ⟨1, ![8192]⟩
abbrev S4096 : Shape := ⟨1, ![4096]⟩
abbrev S8192x1 : Shape := ⟨2, ![8192, 1]⟩
abbrev S4096x8192 : Shape := ⟨2, ![4096, 8192]⟩
abbrev S4096x256 : Shape := ⟨2, ![4096, 256]⟩
abbrev S4096x1 : Shape := ⟨2, ![4096, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S8192, .f32⟩
  | .hbm, ⟨10, _⟩ => ⟨S8192, .i1⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S4096, .f32⟩
  | .hbm, ⟨21, _⟩ => ⟨S4096, .i1⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S8192x1, .f32⟩
  | .hbm, ⟨33, _⟩ => ⟨S8192x256, .f32⟩
  | .hbm, ⟨34, _⟩ => ⟨S8192x256, .f32⟩
  | .hbm, ⟨35, _⟩ => ⟨S4096x8192, .f32⟩
  | .hbm, ⟨36, _⟩ => ⟨S4096x256, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S8192x256, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S256x256, .f32⟩
  | .hbm, ⟨45, _⟩ => ⟨S8192x256, .f32⟩
  | .hbm, ⟨46, _⟩ => ⟨S1x256, .f32⟩
  | .hbm, ⟨47, _⟩ => ⟨S8192x256, .f32⟩
  | .hbm, ⟨48, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_v11 : Ref sig .tc := ⟨.hbm, 24, rfl⟩
abbrev main_cst_6 : Ref sig .tc := ⟨.hbm, 25, rfl⟩
abbrev main_v12 : Ref sig .tc := ⟨.hbm, 26, rfl⟩
abbrev main_v13 : Ref sig .tc := ⟨.hbm, 27, rfl⟩
abbrev main_cst_7 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  reducesTo_S8192x4096_S4096_d0 : S8192x4096.ReducesTo [0] S4096
  bcast_S_S8192 : S_.BroadcastsInDim S8192 (![] : Fin 0 → Fin S8192.rank)
  bcast_S_S4096 : S_.BroadcastsInDim S4096 (![] : Fin 0 → Fin S4096.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x4096_S4096x8192_1_0 : S8192x4096.Transposes [1, 0] S4096x8192
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S4096x8192_S8192x256_S4096x256_1_0_0_1_n_n_wf : DotDims.WF S4096x8192 S8192x256 S4096x256 [1] [0] [0] [1] [] []
  dot_S8192x4096_S4096x256_S8192x256_1_0_0_1_n_n_wf : DotDims.WF S8192x4096 S4096x256 S8192x256 [1] [0] [0] [1] [] []
  dot_S8192x256_S256x256_S8192x256_1_0_0_1_n_n_wf : DotDims.WF S8192x256 S256x256 S8192x256 [1] [0] [0] [1] [] []

variable [Facts₀]

def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf
def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.K.R0Data.lean ====
/-
  The first pallas_call (grid of 16 row tiles of H): the proof data of its pipeline, over the buffer contents `V` the
  region is entered from.

  At point t the body sums the H tile's rows (one number per node: the node degrees of the tile, stored to the first
  result, written back at every point) and its columns (one number per edge), which it adds to the second result's
  single staging buffer: cleared at the first point, carried from point to point, written back once at the last.
  `rowAt` is the first result's tile at a point; `colAt` the second result's buffer after point n, by recursion on n.
-/
import proofs.«125814_j23089744183324_1_alg».proof.Proof.Gen.Kernel.Launch
import proofs.«125814_j23089744183324_1_alg».proof.Proof.Gen.Kernel.Skeleton
import proofs.«125814_j23089744183324_1_alg».proof.Proof.Gen.Kernel.Points
import Idealize.ShloMosaic.Lib.Pipeline.FrameBody
import Idealize.ShloMosaic.Lib.Pipeline.Regions
import Idealize.ShloMosaic.Lib.Pipeline.Kit
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The H tile (512 node rows, every edge column) of point `t`. -/
abbrev hblk (c : Dev nD) (t : Fin cfg0.N) : Vec F S512x4096 .f32 := iblk V c 0 t

/-! ## What the two results' buffers hold, point by point -/

/-- The node-degree tile of point `t`: the H tile's row sums. -/
def rowAt (c : Dev nD) (t : Fin cfg0.N) : Vec F S512x1 .f32 := k0_pay1 (hblk V c t)

/-- The edge-degree buffer after the body at point `n`: the tile's column sums added to zero at the first point, to
    what the point before left otherwise. -/
def colAt (c : Dev nD) : (n : ℕ) → n < cfg0.N → Vec F S1x4096 .f32
  | 0, hn => k0_pay3 (hblk V c ⟨0, hn⟩) k0_pay2
  | n + 1, hn => k0_pay3 (hblk V c ⟨n + 1, hn⟩) (colAt c n (Nat.lt_of_succ_lt hn))

theorem colAt_first (c : Dev nD) (t : Fin cfg0.N) (h : t.val = 0) :
    colAt V c t.val t.isLt = k0_pay3 (hblk V c t) k0_pay2 := by
  obtain ⟨n, hn⟩ := t
  cases n with
  | zero => rfl
  | succ n => exact absurd h (Nat.succ_ne_zero n)

theorem colAt_next (c : Dev nD) (t : Fin cfg0.N) (h : ¬ t.val = 0) :
    colAt V c t.val t.isLt = k0_pay3 (hblk V c t) (colAt V c (t.val - 1) (Nat.lt_of_le_of_lt (Nat.sub_le _ _) t.isLt)) := by
  obtain ⟨n, hn⟩ := t
  cases n with
  | zero => exact absurd rfl h
  | succ n => rfl

/-! ## The body's branch condition over the grid, in closed form -/

/-- "first point": the edge-degree buffer is cleared. -/
abbrev condA (i : grid0.Coords) : Prop :=
  (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

/-! ## No window is idle anywhere -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096 .f32 := win0_2.stage (cfg0.slots t 2)
abbrev hs2 (t : Fin cfg0.N) : (ms2 t).IsWhole := hstage0_2 ((cfg0.slots t 2).cast nbuf0_2)

/-! ## The proof data -/

/-- The pipeline's proof data on core `c`: the arrays as the region finds them; after the body the input's buffer at
    its block, the results' at `rowAt` and `colAt`; the invariant the scoped buffers that are no staging buffer of
    this call, at anything (the body names none of them); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => rowAt V c t
    | ⟨2, _⟩ => colAt V c t.val t.isLt
  Φ _ := Pipeline.scopedRest (Ix := Unit) (Name := ℕ) (U := UR sig nD τ) (Lvl := ℕ) (Val := Elt F) spec0 c
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = rowAt V c t := by dsimp only [dat]
theorem after2 (c : Dev nD) (t : Fin cfg0.N) : (dat V c).after 2 t = colAt V c t.val t.isLt := by dsimp only [dat]

/-- The input's current staging buffer holds its block at every point. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

end Cert.Kernel.R0

end
-- ==== Proof.K.R1Data.lean ====
/-
  The second pallas_call (grid 4 × 4: edge tile, then node tile): the proof data of its pipeline, over the buffer
  contents `V` the region is entered from.

  At point t = 4·(edge tile) + (node tile) the body multiplies the node tile's rows of x by the node scale, contracts
  them with the H tile over the node axis, and adds the product to a scratch accumulator that it clears at the first node
  tile of each edge tile; at the last node tile it scales the accumulator's rows by the edge scale and stores the result
  tile. `accAt` is the accumulator after point n, by recursion on n; `outAt` the result tile a point would store.
-/
import proofs.«125814_j23089744183324_1_alg».proof.Proof.Gen.Kernel.Launch
import proofs.«125814_j23089744183324_1_alg».proof.Proof.Gen.Kernel.Skeleton
import proofs.«125814_j23089744183324_1_alg».proof.Proof.Gen.Kernel.Points
import Idealize.ShloMosaic.Lib.Pipeline.FrameBody
import Idealize.ShloMosaic.Lib.Pipeline.Regions
import Idealize.ShloMosaic.Lib.Pipeline.Kit
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The H tile (node rows × edge columns), the x tile, the node-scale tile and the edge-scale tile of point `t`. -/
abbrev hblk (c : Dev nD) (t : Fin cfg1.N) : Vec F S2048x1024 .f32 := iblk V c 0 t
abbrev xblk (c : Dev nD) (t : Fin cfg1.N) : Vec F S2048x256 .f32 := iblk V c 1 t
abbrev dnblk (c : Dev nD) (t : Fin cfg1.N) : Vec F S2048x1 .f32 := iblk V c 2 t
abbrev deblk (c : Dev nD) (t : Fin cfg1.N) : Vec F S1024x1 .f32 := iblk V c 3 t

/-! ## The accumulator, point by point -/

/-- The scratch accumulator after the body at point `n`: the point's product added to zero at the first node tile of
    an edge tile (n ≡ 0 mod 4), to what the point before left otherwise. -/
def accAt (c : Dev nD) : (n : ℕ) → n < cfg1.N → Vec F S1024x256 .f32
  | 0, hn => k1_pay2 (hblk V c ⟨0, hn⟩) (xblk V c ⟨0, hn⟩) (dnblk V c ⟨0, hn⟩) k1_pay1
  | n + 1, hn => k1_pay2 (hblk V c ⟨n + 1, hn⟩) (xblk V c ⟨n + 1, hn⟩) (dnblk V c ⟨n + 1, hn⟩)
      (if (n + 1) % 4 = 0 then k1_pay1 else accAt c n (Nat.lt_of_succ_lt hn))

theorem accAt_first (c : Dev nD) (t : Fin cfg1.N) (h : t.val % 4 = 0) :
    accAt V c t.val t.isLt = k1_pay2 (hblk V c t) (xblk V c t) (dnblk V c t) k1_pay1 := by
  obtain ⟨n, hn⟩ := t
  cases n with
  | zero => rfl
  | succ n => simp only [accAt]; rw [if_pos h]

theorem accAt_next (c : Dev nD) (t : Fin cfg1.N) (h : ¬ t.val % 4 = 0) :
    accAt V c t.val t.isLt = k1_pay2 (hblk V c t) (xblk V c t) (dnblk V c t)
      (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-- The result tile the body stores at a last node tile: the accumulator's rows scaled by the edge scale. -/
def outAt (c : Dev nD) (t : Fin cfg1.N) : Vec F S1024x256 .f32 :=
  k1_pay3 (accAt V c t.val t.isLt) (deblk V c t)

/-! ## The body's two branch conditions over the grid, in closed form -/

/-- "first node tile": the accumulator is cleared. -/
abbrev condA (i : grid1.Coords) : Prop :=
  (Scalar.cmpi .ne (Scalar.extui (Scalar.cmpi .eq (BitVec.ofNat 32 (i 1).val) 0#32)) 0#32) = 1#1
theorem hcondA : ∀ t : Fin cfg1.N, condA (grid1.coords t) ↔ t.val % 4 = 0 :=
  (by decide +kernel : ∀ t : Fin grid1.N, condA (grid1.coords t) ↔ t.val % 4 = 0)
/-- "last node tile": the result tile is stored. -/
abbrev condC (i : grid1.Coords) : Prop := k1_cond2 i = 1#1
theorem hcondC : ∀ t : Fin cfg1.N, condC (grid1.coords t) ↔ t.val % 4 = 3 :=
  (by decide +kernel : ∀ t : Fin grid1.N, condC (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- The result window is idle, and not written back, away from the last node tile; live at it. -/
theorem idle4 : ∀ t : Fin cfg1.N, ¬ t.val % 4 = 3 → cfg1.idle 4 (grid1.coords t) = true := by decide +kernel
theorem noFlush4 : ∀ t : Fin cfg1.N, ¬ t.val % 4 = 3 → (cfg1.win 4).flush t = false := by decide +kernel
theorem live4 : ∀ t : Fin cfg1.N, t.val % 4 = 3 → cfg1.idle 4 (grid1.coords t) = false := by decide +kernel

/-! ## The memrefs the body is called with -/

abbrev ms0 (t : Fin cfg1.N) : Memref sig .tc .vmem S2048x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x256 .f32 := win1_4.stage (cfg1.slots t 4)
abbrev hs4 (t : Fin cfg1.N) : (ms4 t).IsWhole := hstage1_4 ((cfg1.slots t 4).cast nbuf1_4)
/-- The scratch accumulator: a whole scoped buffer of the kernel's own. -/
abbrev scM : Memref sig .tc .vmem S1024x256 .f32 := Memref.whole cc1_scratch0

/-! ## The invariant between points -/

/-- The scoped buffers that are neither a staging buffer of this call nor its accumulator. -/
abbrev otherRefs : List (Ref sig .tc) :=
  [cc0_stg0_0, cc0_stg0_1, cc0_stg1_0, cc0_stg1_1, cc0_stg2_0, cc2_stg0_0, cc2_stg0_1, cc2_stg1_0, cc2_stg1_1,
   cc2_stg2_0, cc2_stg2_1, cc2_stg3_0, cc2_stg4_0, cc2_stg5_0, cc2_stg5_1, cc2_scratch0]
/-- Each of them whole at some contents. -/
def others (c : Dev nD) : sProp 𝕄 :=
  bigSepL otherRefs fun b => iprop(∃ f : Buf (Elt F) ((c : Thread nD τ).loc b), ((c : Thread nD τ).loc b) ↦{fullShare} f)

/-- The call's scoped rest is the accumulator at some contents beside the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ others c) := by
  rw [Pipeline.scopedRest_eq_of_list spec1 c (cc1_scratch0 :: otherRefs) (by decide) (by decide)]
  simp only [scM, owns_whole]; rfl

/-- Before point `n`: at the first point the scoped rest as the region boundary leaves it; afterwards the accumulator
    at what the point before left, the others at anything. -/
def Phi (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM fullShare (accAt V c n hn) ∗ others c)

theorem Phi_zero (c : Dev nD) (n : ℕ) (h : n ≤ cfg1.N) (hz : n = 0) :
    Phi V c n h = iprop((∃ d, owns (c : Thread nD τ) scM fullShare d) ∗ others c) := by
  subst hz; exact scopedRest_split c
theorem Phi_succ (c : Dev nD) (n : ℕ) (hn : n < cfg1.N) :
    Phi V c (n + 1) hn = iprop(owns (c : Thread nD τ) scM fullShare (accAt V c n hn) ∗ others c) := rfl
theorem Phi_pos (c : Dev nD) (n : ℕ) (h : n ≤ cfg1.N) (hz : n ≠ 0) :
    Phi V c n h = iprop(owns (c : Thread nD τ) scM fullShare (accAt V c (n - 1) (by omega)) ∗ others c) := by
  cases n with
  | zero => exact absurd rfl hz
  | succ n => rfl

/-! ## The proof data -/

/-- The pipeline's proof data on core `c`: the arrays as the region finds them; after the body each input's buffer at
    its block, the result's at `outAt`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = Phi V c t.val (Nat.le_of_lt t.isLt) := by
  dsimp only [dat]; simp only [Fin.coe_castSucc]
theorem Phi_at_succ (c : Dev nD) (t : Fin cfg1.N) : (dat V c).Φ t.succ = Phi V c (t.val + 1) t.isLt := rfl
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outAt V c t := by dsimp only [dat]

/-- Each input's current staging buffer holds its block at every point, fetched there or not (an unfetched window's
    block index has not moved since its last fetch). -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.R1

end
-- ==== Proof.K.R2Data.lean ====
/-
  The third pallas_call (grid 4 × 4: node tile, then edge tile): the proof data of its pipeline, over the buffer
  contents `V` the region is entered from.

  At point t = 4·(node tile) + (edge tile) the body contracts the H tile with the edge-feature tile over the edge axis
  and adds the product to a scratch accumulator that it clears at the first edge tile of each node tile; at the last edge
  tile it scales the accumulator's rows by the node scale, applies the dense layer (contracting with W over the feature
  axis, adding the bias row) and stores the result tile. `accAt` is the accumulator after point n, by recursion on n;
  `outAt` the result tile a point would store.
-/
import proofs.«125814_j23089744183324_1_alg».proof.Proof.Gen.Kernel.Launch
import proofs.«125814_j23089744183324_1_alg».proof.Proof.Gen.Kernel.Skeleton
import proofs.«125814_j23089744183324_1_alg».proof.Proof.Gen.Kernel.Points
import Idealize.ShloMosaic.Lib.Pipeline.FrameBody
import Idealize.ShloMosaic.Lib.Pipeline.Regions
import Idealize.ShloMosaic.Lib.Pipeline.Kit
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The H tile (node rows × edge columns), the edge-feature tile, the node-scale tile, the weight matrix and the bias
    row of point `t`. -/
abbrev hblk (c : Dev nD) (t : Fin cfg2.N) : Vec F S2048x1024 .f32 := iblk V c 0 t
abbrev eblk (c : Dev nD) (t : Fin cfg2.N) : Vec F S1024x256 .f32 := iblk V c 1 t
abbrev dnblk (c : Dev nD) (t : Fin cfg2.N) : Vec F S2048x1 .f32 := iblk V c 2 t
abbrev wblk (c : Dev nD) (t : Fin cfg2.N) : Vec F S256x256 .f32 := iblk V c 3 t
abbrev bblk (c : Dev nD) (t : Fin cfg2.N) : Vec F S1x256 .f32 := iblk V c 4 t

/-! ## The accumulator, point by point -/

/-- The scratch accumulator after the body at point `n`: the point's product added to zero at the first edge tile of
    a node tile (n ≡ 0 mod 4), to what the point before left otherwise. -/
def accAt (c : Dev nD) : (n : ℕ) → n < cfg2.N → Vec F S2048x256 .f32
  | 0, hn => k2_pay2 (hblk V c ⟨0, hn⟩) (eblk V c ⟨0, hn⟩) k2_pay1
  | n + 1, hn => k2_pay2 (hblk V c ⟨n + 1, hn⟩) (eblk V c ⟨n + 1, hn⟩)
      (if (n + 1) % 4 = 0 then k2_pay1 else accAt c n (Nat.lt_of_succ_lt hn))

theorem accAt_first (c : Dev nD) (t : Fin cfg2.N) (h : t.val % 4 = 0) :
    accAt V c t.val t.isLt = k2_pay2 (hblk V c t) (eblk V c t) k2_pay1 := by
  obtain ⟨n, hn⟩ := t
  cases n with
  | zero => rfl
  | succ n => simp only [accAt]; rw [if_pos h]

theorem accAt_next (c : Dev nD) (t : Fin cfg2.N) (h : ¬ t.val % 4 = 0) :
    accAt V c t.val t.isLt = k2_pay2 (hblk V c t) (eblk V c t)
      (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-- The result tile the body stores at a last edge tile: the accumulator's rows scaled by the node scale, through the
    dense layer. -/
def outAt (c : Dev nD) (t : Fin cfg2.N) : Vec F S2048x256 .f32 :=
  k2_pay3 (accAt V c t.val t.isLt) (dnblk V c t) (wblk V c t) (bblk V c t)

/-! ## The body's two branch conditions over the grid, in closed form -/

/-- "first edge tile": the accumulator is cleared. -/
abbrev condA (i : grid2.Coords) : Prop :=
  (Scalar.cmpi .ne (Scalar.extui (Scalar.cmpi .eq (BitVec.ofNat 32 (i 1).val) 0#32)) 0#32) = 1#1
theorem hcondA : ∀ t : Fin cfg2.N, condA (grid2.coords t) ↔ t.val % 4 = 0 :=
  (by decide +kernel : ∀ t : Fin grid2.N, condA (grid2.coords t) ↔ t.val % 4 = 0)
/-- "last edge tile": the result tile is stored. -/
abbrev condC (i : grid2.Coords) : Prop := k2_cond2 i = 1#1
theorem hcondC : ∀ t : Fin cfg2.N, condC (grid2.coords t) ↔ t.val % 4 = 3 :=
  (by decide +kernel : ∀ t : Fin grid2.N, condC (grid2.coords t) ↔ t.val % 4 = 3)

/-! ## Where the windows are idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem live4 : ∀ t : Fin cfg2.N, cfg2.idle 4 (grid2.coords t) = false := by decide +kernel
/-- The result window is idle, and not written back, away from the last edge tile; live at it. -/
theorem idle5 : ∀ t : Fin cfg2.N, ¬ t.val % 4 = 3 → cfg2.idle 5 (grid2.coords t) = true := by decide +kernel
theorem noFlush5 : ∀ t : Fin cfg2.N, ¬ t.val % 4 = 3 → (cfg2.win 5).flush t = false := by decide +kernel
theorem live5 : ∀ t : Fin cfg2.N, t.val % 4 = 3 → cfg2.idle 5 (grid2.coords t) = false := by decide +kernel

/-! ## The memrefs the body is called with -/

abbrev ms0 (t : Fin cfg2.N) : Memref sig .tc .vmem S2048x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2048x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S256x256 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x256 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S2048x256 .f32 := win2_5.stage (cfg2.slots t 5)
abbrev hs5 (t : Fin cfg2.N) : (ms5 t).IsWhole := hstage2_5 ((cfg2.slots t 5).cast nbuf2_5)
/-- The scratch accumulator: a whole scoped buffer of the kernel's own. -/
abbrev scM : Memref sig .tc .vmem S2048x256 .f32 := Memref.whole cc2_scratch0

/-! ## The invariant between points -/

/-- The scoped buffers that are neither a staging buffer of this call nor its accumulator. -/
abbrev otherRefs : List (Ref sig .tc) :=
  [cc0_stg0_0, cc0_stg0_1, cc0_stg1_0, cc0_stg1_1, cc0_stg2_0, cc1_stg0_0, cc1_stg0_1, cc1_stg1_0, cc1_stg1_1,
   cc1_stg2_0, cc1_stg2_1, cc1_stg3_0, cc1_stg3_1, cc1_stg4_0, cc1_stg4_1, cc1_scratch0]
/-- Each of them whole at some contents. -/
def others (c : Dev nD) : sProp 𝕄 :=
  bigSepL otherRefs fun b => iprop(∃ f : Buf (Elt F) ((c : Thread nD τ).loc b), ((c : Thread nD τ).loc b) ↦{fullShare} f)

/-- The call's scoped rest is the accumulator at some contents beside the others. -/
theorem scopedRest_split (c : Dev nD) :
    (Pipeline.scopedRest (Ix := Unit) (Name := ℕ) (U := UR sig nD τ) (Lvl := ℕ) (Val := Elt F) spec2 c : sProp 𝕄)
      = iprop((∃ d, owns (c : Thread nD τ) scM fullShare d) ∗ others c) := by
  rw [Pipeline.scopedRest_eq_of_list spec2 c (cc2_scratch0 :: otherRefs) (by decide) (by decide)]
  simp only [scM, owns_whole]; rfl

/-- Before point `n`: at the first point the scoped rest as the region boundary leaves it; afterwards the accumulator
    at what the point before left, the others at anything. -/
def Phi (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) scM fullShare (accAt V c n hn) ∗ others c)

theorem Phi_zero (c : Dev nD) (n : ℕ) (h : n ≤ cfg2.N) (hz : n = 0) :
    Phi V c n h = iprop((∃ d, owns (c : Thread nD τ) scM fullShare d) ∗ others c) := by
  subst hz; exact scopedRest_split c
theorem Phi_succ (c : Dev nD) (n : ℕ) (hn : n < cfg2.N) :
    Phi V c (n + 1) hn = iprop(owns (c : Thread nD τ) scM fullShare (accAt V c n hn) ∗ others c) := rfl
theorem Phi_pos (c : Dev nD) (n : ℕ) (h : n ≤ cfg2.N) (hz : n ≠ 0) :
    Phi V c n h = iprop(owns (c : Thread nD τ) scM fullShare (accAt V c (n - 1) (by omega)) ∗ others c) := by
  cases n with
  | zero => exact absurd rfl hz
  | succ n => rfl

/-! ## The proof data -/

/-- The pipeline's proof data on core `c`: the arrays as the region finds them; after the body each input's buffer at
    its block, the result's at `outAt`; the invariant `Phi`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := Phi V c t.val (Nat.le_of_lt_succ t.isLt)
  q _ := fullShare
  owed _ := 0

theorem A_eq (c : Dev nD) (w : Fin cfg2.W) : (dat V c).A w = V c (Pipeline.arrRef spec2 w) := by dsimp only [dat]
theorem Phi_castSucc (c : Dev nD) (t : Fin cfg2.N) : (dat V c).Φ t.castSucc = Phi V c t.val (Nat.le_of_lt t.isLt) := by
  dsimp only [dat]; simp only [Fin.coe_castSucc]
theorem Phi_at_succ (c : Dev nD) (t : Fin cfg2.N) : (dat V c).Φ t.succ = Phi V c (t.val + 1) t.isLt := rfl
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) : (dat V c).after 5 t = outAt V c t := by dsimp only [dat]

/-- Each input's current staging buffer holds its block at every point, fetched there or not (an unfetched window's
    block index has not moved since its last fetch). -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg2.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg2.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.Kernel.R2

end
-- ==== Proof.K.Family.lean ====
/-
  The three pallas_calls together: what each leaves in the buffers it may change, staged in program order; the proof
  data of the three pipelines, each at the contents its region is entered from; and each region as a segment of @main
  between two thread states "every unscoped buffer at the boundary's contents, the generator register at some state,
  nothing owed".
-/
import proofs.«125814_j23089744183324_1_alg».proof.Proof.K.R0Data
import proofs.«125814_j23089744183324_1_alg».proof.Proof.K.R1Data
import proofs.«125814_j23089744183324_1_alg».proof.Proof.K.R2Data
import proofs.«125814_j23089744183324_1_alg».proof.Proof.Gen.Kernel.Regions
import Idealize.ShloMosaic.Lib.Pipeline.RegionsLoop
import Idealize.ShloMosaic.Lib.Pipeline.FrameSuffix

set_option maxRecDepth 16384

noncomputable section

namespace Cert.Kernel.Fam

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references. -/
abbrev rd (W : Dev nD → Valuation τ sig (Elt F)) (c : Dev nD) (b : Ref sig .tc) : Buf (Elt F) ((c : Thread nD τ).loc b) := W c b

/-! ## What the regions leave, in program order -/

/-- The first pipeline's proof data, at the launch contents. -/
def dat0 (c : Dev nD) : Dat τ (Elt F) Unit ℕ (UR sig nD τ) ℕ cfg0 c := R0.dat (rd (Gen.V0 m)) c
/-- After the first region: its arrays at what its write-backs leave. -/
def outs1 : Gen.Outs (F := F) := fun _ r c =>
  Pipeline.withArrays spec0 c (Gen.V0 m c) (fun w => (dat0 m c).arrAt w cfg0.N) r
/-- The second pipeline's proof data, at the contents after the host lines that follow the first region. -/
def dat1 (c : Dev nD) : Dat τ (Elt F) Unit ℕ (UR sig nD τ) ℕ cfg1 c := R1.dat (rd (Gen.V5 m (outs1 m))) c
/-- After the second region. -/
def outs2 : Gen.Outs (F := F) := fun j r c =>
  match j with
  | 1 => outs1 m 1 r c
  | _ => Pipeline.withArrays spec1 c (Gen.V5 m (outs1 m) c) (fun w => (dat1 m c).arrAt w cfg1.N) r
/-- The third pipeline's proof data, at the contents after the bias row's reshape. -/
def dat2 (c : Dev nD) : Dat τ (Elt F) Unit ℕ (UR sig nD τ) ℕ cfg2 c := R2.dat (rd (Gen.V7 m (outs2 m))) c
/-- After the third region: what every region leaves, by the item it is read at. -/
def outs : Gen.Outs (F := F) := fun j r c =>
  match j with
  | 1 => outs1 m 1 r c
  | 6 => outs2 m 6 r c
  | _ => Pipeline.withArrays spec2 c (Gen.V7 m (outs2 m) c) (fun w => (dat2 m c).arrAt w cfg2.N) r

/-- The boundary contents do not depend on the later stages. -/
theorem V1_eq (c : Dev nD) : Gen.V1 m (outs m) c = Gen.V1 m (outs1 m) c := rfl
theorem V5_eq (c : Dev nD) : Gen.V5 m (outs m) c = Gen.V5 m (outs1 m) c := rfl
theorem V5_eq2 (c : Dev nD) : Gen.V5 m (outs2 m) c = Gen.V5 m (outs1 m) c := rfl
theorem V6_eq (c : Dev nD) : Gen.V6 m (outs m) c = Gen.V6 m (outs2 m) c := rfl
theorem V7_eq (c : Dev nD) : Gen.V7 m (outs m) c = Gen.V7 m (outs2 m) c := rfl

/-- Every pipeline's proof data, each at its region's entry contents: a literal match on the pipeline. -/
def pdats : (p : Fin 3) → (c : Dev nD) → Dat τ (Elt F) Unit ℕ (UR sig nD τ) ℕ (cfgs p) c
  | ⟨0, _⟩ => fun c => dat0 m c
  | ⟨1, _⟩ => fun c => dat1 m c
  | ⟨2, _⟩ => fun c => dat2 m c

/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)

/-! ## Each region's arrays at its exit are the next boundary's contents; every other buffer is as entered -/

theorem hF0 (c : Dev nD) (w : Fin cfg0.W) : (pdats m 0 c).arrAt w cfg0.N = rd (Gen.V1 m (outs1 m)) c (Pipeline.arrRef spec0 w) := by
  match w with
  | ⟨0, _⟩ => exact ((dat0 m c).arrAt_in 0 rfl _).trans (Gen.V1_of m (outs1 m) c main_arg1 (by decide)).symm
  | ⟨1, _⟩ =>
    show _ = Function.update (Function.update (Gen.V0 m c) main_v0_0 (outs1 m 1 main_v0_0 c)) main_v0_1 (outs1 m 1 main_v0_1 c) main_v0_0
    rw [Function.update_of_ne (StableHlo.devRef_ne_of_ne (by decide) : (Proc.devRef .tc main_v0_0 : DevRef τ sig) ≠ Proc.devRef .tc main_v0_1), Function.update_self]
    show (dat0 m c).arrAt 1 cfg0.N = Pipeline.withArrays spec0 c (Gen.V0 m c) (fun w => (dat0 m c).arrAt w cfg0.N) (Proc.devRef .tc (Pipeline.arrRef spec0 1))
    exact (Pipeline.withArrays_arr spec0 launch0.win.arr_inj c (Gen.V0 m c) (fun w => (dat0 m c).arrAt w cfg0.N) 1).symm
  | ⟨2, _⟩ =>
    show _ = Function.update (Function.update (Gen.V0 m c) main_v0_0 (outs1 m 1 main_v0_0 c)) main_v0_1 (outs1 m 1 main_v0_1 c) main_v0_1
    rw [Function.update_self]
    show (dat0 m c).arrAt 2 cfg0.N = Pipeline.withArrays spec0 c (Gen.V0 m c) (fun w => (dat0 m c).arrAt w cfg0.N) (Proc.devRef .tc (Pipeline.arrRef spec0 2))
    exact (Pipeline.withArrays_arr spec0 launch0.win.arr_inj c (Gen.V0 m c) (fun w => (dat0 m c).arrAt w cfg0.N) 2).symm

theorem hrest0 (c : Dev nD) : ∀ b, b ∉ Finset.univ.image (Pipeline.arrRef spec0) → rd (Gen.V1 m (outs1 m)) c b = rd (Gen.V0 m) c b :=
  fun b hb => Gen.V1_of m (outs1 m) c b (by
    intro h
    simp only [List.mem_cons, List.not_mem_nil, or_false] at h
    rcases h with rfl | rfl
    · exact hb (Finset.mem_image.mpr ⟨1, Finset.mem_univ _, rfl⟩)
    · exact hb (Finset.mem_image.mpr ⟨2, Finset.mem_univ _, rfl⟩))

theorem hF1 (c : Dev nD) (w : Fin cfg1.W) : (pdats m 1 c).arrAt w cfg1.N = rd (Gen.V6 m (outs2 m)) c (Pipeline.arrRef spec1 w) := by
  match w with
  | ⟨0, _⟩ => exact ((dat1 m c).arrAt_in 0 rfl _).trans (Gen.V6_of m (outs2 m) c main_arg1 (by decide)).symm
  | ⟨1, _⟩ => exact ((dat1 m c).arrAt_in 1 rfl _).trans (Gen.V6_of m (outs2 m) c main_arg0 (by decide)).symm
  | ⟨2, _⟩ => exact ((dat1 m c).arrAt_in 2 rfl _).trans (Gen.V6_of m (outs2 m) c main_v7 (by decide)).symm
  | ⟨3, _⟩ => exact ((dat1 m c).arrAt_in 3 rfl _).trans (Gen.V6_of m (outs2 m) c main_v14 (by decide)).symm
  | ⟨4, _⟩ =>
    show _ = Function.update (Gen.V5 m (outs2 m) c) main_v15 (outs2 m 6 main_v15 c) main_v15
    rw [Function.update_self]
    show (dat1 m c).arrAt 4 cfg1.N = Pipeline.withArrays spec1 c (Gen.V5 m (outs1 m) c) (fun w => (dat1 m c).arrAt w cfg1.N) (Proc.devRef .tc (Pipeline.arrRef spec1 4))
    exact (Pipeline.withArrays_arr spec1 launch1.win.arr_inj c (Gen.V5 m (outs1 m) c) (fun w => (dat1 m c).arrAt w cfg1.N) 4).symm

theorem hrest1 (c : Dev nD) : ∀ b, b ∉ Finset.univ.image (Pipeline.arrRef spec1) → rd (Gen.V6 m (outs2 m)) c b = rd (Gen.V5 m (outs1 m)) c b :=
  fun b hb => Gen.V6_of m (outs2 m) c b (by
    intro h
    simp only [List.mem_cons, List.not_mem_nil, or_false] at h
    subst h
    exact hb (Finset.mem_image.mpr ⟨4, Finset.mem_univ _, rfl⟩))

theorem hF2 (c : Dev nD) (w : Fin cfg2.W) : (pdats m 2 c).arrAt w cfg2.N = rd (Gen.V8 m (outs m)) c (Pipeline.arrRef spec2 w) := by
  match w with
  | ⟨0, _⟩ => exact ((dat2 m c).arrAt_in 0 rfl _).trans (Gen.V8_of m (outs m) c main_arg1 (by decide)).symm
  | ⟨1, _⟩ => exact ((dat2 m c).arrAt_in 1 rfl _).trans (Gen.V8_of m (outs m) c main_v15 (by decide)).symm
  | ⟨2, _⟩ => exact ((dat2 m c).arrAt_in 2 rfl _).trans (Gen.V8_of m (outs m) c main_v7 (by decide)).symm
  | ⟨3, _⟩ => exact ((dat2 m c).arrAt_in 3 rfl _).trans (Gen.V8_of m (outs m) c main_arg2 (by decide)).symm
  | ⟨4, _⟩ => exact ((dat2 m c).arrAt_in 4 rfl _).trans (Gen.V8_of m (outs m) c main_v16 (by decide)).symm
  | ⟨5, _⟩ =>
    show _ = Function.update (Gen.V7 m (outs m) c) main_v17 (outs m 8 main_v17 c) main_v17
    rw [Function.update_self]
    show (dat2 m c).arrAt 5 cfg2.N = Pipeline.withArrays spec2 c (Gen.V7 m (outs2 m) c) (fun w => (dat2 m c).arrAt w cfg2.N) (Proc.devRef .tc (Pipeline.arrRef spec2 5))
    exact (Pipeline.withArrays_arr spec2 launch2.win.arr_inj c (Gen.V7 m (outs2 m) c) (fun w => (dat2 m c).arrAt w cfg2.N) 5).symm

theorem hrest2 (c : Dev nD) : ∀ b, b ∉ Finset.univ.image (Pipeline.arrRef spec2) → rd (Gen.V8 m (outs m)) c b = rd (Gen.V7 m (outs2 m)) c b :=
  fun b hb => Gen.V8_of m (outs m) c b (by
    intro h
    simp only [List.mem_cons, List.not_mem_nil, or_false] at h
    subst h
    exact hb (Finset.mem_image.mpr ⟨5, Finset.mem_univ _, rfl⟩))

/-! ## After its last point each invariant gives the call's scoped rest back -/

theorem Phi_last0 (c : Dev nD) : (pdats m 0 c).Φ (Fin.last cfg0.N)
    ⊢ (Pipeline.scopedRest (Ix := Unit) (Name := ℕ) (U := UR sig nD τ) (Lvl := ℕ) (Val := Elt F) spec0 c : sProp 𝕄) := .rfl

theorem Phi_last1 (c : Dev nD) : (pdats m 1 c).Φ (Fin.last cfg1.N)
    ⊢ (Pipeline.scopedRest (Ix := Unit) (Name := ℕ) (U := UR sig nD τ) (Lvl := ℕ) (Val := Elt F) spec1 c : sProp 𝕄) := by
  rw [show (pdats m 1 c).Φ (Fin.last cfg1.N) = R1.Phi (rd (Gen.V5 m (outs1 m))) c (Fin.last cfg1.N).val (Nat.le_of_lt_succ (Fin.last cfg1.N).isLt) from rfl,
    R1.Phi_pos _ c _ _ (by rw [Fin.val_last]; have : cfg1.N = 16 := N_1; omega), R1.scopedRest_split]
  iintro ⟨Hs, Ho⟩
  isplitl [Hs]; · iexists _; iexact Hs
  iexact Ho

theorem Phi_last2 (c : Dev nD) : (pdats m 2 c).Φ (Fin.last cfg2.N)
    ⊢ (Pipeline.scopedRest (Ix := Unit) (Name := ℕ) (U := UR sig nD τ) (Lvl := ℕ) (Val := Elt F) spec2 c : sProp 𝕄) := by
  rw [show (pdats m 2 c).Φ (Fin.last cfg2.N) = R2.Phi (rd (Gen.V7 m (outs2 m))) c (Fin.last cfg2.N).val (Nat.le_of_lt_succ (Fin.last cfg2.N).isLt) from rfl,
    R2.Phi_pos _ c _ _ (by rw [Fin.val_last]; have : cfg2.N = 16 := N_2; omega), R2.scopedRest_split]
  iintro ⟨Hs, Ho⟩
  isplitl [Hs]; · iexists _; iexact Hs
  iexact Ho

/-! ## The regions as segments -/

-- a library lemma stated over the pinned configuration unifies with the printed one only when unification may unfold
-- plain definitions in a metavariable's type
set_option backward.isDefEq.respectTransparency.types false in
/-- Pallas_call 0 as a segment: entered from every unscoped buffer at `Gen.V0 m`, left at `Gen.V1 m (outs1 m)`. Its arrays are split
    out of the unscoped buffers and put back at what the write-backs leave; the generator register and the other
    unscoped buffers pass by; the scoped rest is the invariant's; nothing is owed; the kernel has no semaphore of its own.
    The body obligation is a hypothesis here. -/
def reg0 (hb : ∀ c : Dev nD, BodyObligation (dat0 m c) (defs₀ (F := F)) Variants.none () Set.univ) :
    Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V0 m c) ∗ Rst c)
  post c := iprop(StableHlo.held (c : Thread nD τ) (Pipeline.ucRefs τ sig) (Gen.V1 m (outs1 m) c) ∗ Rst c)
  X c := iprop(emp)
  Y c := iprop(emp)
  Z c := iprop(Pipeline.unscopedRest (Ix := Unit) (Name := ℕ) (U := UR sig nD τ) (Lvl := ℕ) spec0 c (rd (Gen.V0 m) c) ∗ ∃ r, prngReg c r)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (rd (Gen.V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none]
    refine (Phi_last0 m c).trans ?_
    iintro Hr
    isplitr; · iempintro
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (rd (Gen.V0 m) c) (rd (Gen.V1 m (outs1 m)) c) ((pdats m 0 c).arrAt · cfg0.N) (hF0 m c) (hrest0 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 1 as a segment: entered from every unscoped buffer at `Gen.V5 m (outs1 m)`, left at `Gen.V6 m (outs2 m)`. Its arrays are split
    out of the unscoped buffers and put back at what the write-backs leave; the generator register and the other
    unscoped buffers pass by; the scoped rest is the invariant's; nothing is owed; the kernel has no semaphore of its own. -/
def reg1 (hb : ∀ c : Dev nD, BodyObligation (dat1 m c) (defs₀ (F := F)) Variants.none () Set.univ) :
    Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V5 m (outs1 m) c) ∗ Rst c)
  post c := iprop(StableHlo.held (c : Thread nD τ) (Pipeline.ucRefs τ sig) (Gen.V6 m (outs2 m) c) ∗ Rst c)
  X c := iprop(emp)
  Y c := iprop(emp)
  Z c := iprop(Pipeline.unscopedRest (Ix := Unit) (Name := ℕ) (U := UR sig nD τ) (Lvl := ℕ) spec1 c (rd (Gen.V5 m (outs1 m)) c) ∗ ∃ r, prngReg c r)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (rd (Gen.V5 m (outs1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Pipeline.scopedRest (Ix := Unit) (Name := ℕ) (U := UR sig nD τ) (Lvl := ℕ) (Val := Elt F) spec1 c from rfl]
    iintro ⟨-, -, Hr⟩
    iexact Hr
  hout c := by
    rw [Pipeline.ownSems0_none]
    refine (Phi_last1 m c).trans ?_
    iintro Hr
    isplitr; · iempintro
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (rd (Gen.V5 m (outs1 m)) c) (rd (Gen.V6 m (outs2 m)) c) ((pdats m 1 c).arrAt · cfg1.N) (hF1 m c) (hrest1 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 2 as a segment: entered from every unscoped buffer at `Gen.V7 m (outs2 m)`, left at `Gen.V8 m (outs m)`. Its arrays are split
    out of the unscoped buffers and put back at what the write-backs leave; the generator register and the other
    unscoped buffers pass by; the scoped rest is the invariant's; nothing is owed; the kernel has no semaphore of its own. -/
def reg2 (hb : ∀ c : Dev nD, BodyObligation (dat2 m c) (defs₀ (F := F)) Variants.none () Set.univ) :
    Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (Gen.V7 m (outs2 m) c) ∗ Rst c)
  post c := iprop(StableHlo.held (c : Thread nD τ) (Pipeline.ucRefs τ sig) (Gen.V8 m (outs m) c) ∗ Rst c)
  X c := iprop(emp)
  Y c := iprop(emp)
  Z c := iprop(Pipeline.unscopedRest (Ix := Unit) (Name := ℕ) (U := UR sig nD τ) (Lvl := ℕ) spec2 c (rd (Gen.V7 m (outs2 m)) c) ∗ ∃ r, prngReg c r)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (rd (Gen.V7 m (outs2 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = Pipeline.scopedRest (Ix := Unit) (Name := ℕ) (U := UR sig nD τ) (Lvl := ℕ) (Val := Elt F) spec2 c from rfl]
    iintro ⟨-, -, Hr⟩
    iexact Hr
  hout c := by
    rw [Pipeline.ownSems0_none]
    refine (Phi_last2 m c).trans ?_
    iintro Hr
    isplitr; · iempintro
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (rd (Gen.V7 m (outs2 m)) c) (rd (Gen.V8 m (outs m)) c) ((pdats m 2 c).arrAt · cfg2.N) (hF2 m c) (hrest2 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Fam

end
-- ==== Proof.K.Run.lean ====
/-
  The run of @main with the three regions' records: from any memory with zero counters every weakly fair execution
  terminates, nothing faulting, and the final memory holds every unscoped buffer of the TensorCore at the last
  boundary's contents — so each argument as launched, and the result buffer at what the third region's write-backs
  leave. The body obligations of the three pipelines are hypotheses here.
-/
import proofs.«125814_j23089744183324_1_alg».proof.Proof.K.Family

set_option maxRecDepth 16384

noncomputable section

namespace Cert.Kernel.Fam

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last link of the chain: the third region's exit state, the generator register dropped, is the last boundary's
    buffers beside a core that owes nothing. -/
theorem last_link (c : Dev nD) :
    (iprop(StableHlo.held (c : Thread nD τ) (Pipeline.ucRefs τ sig) (Gen.V8 m (outs m) c) ∗ Rst c) : sProp 𝕄)
      ⊢ iprop(StableHlo.held (c : Thread nD τ) (Pipeline.ucRefs τ sig) (Gen.V8 m (outs m) c) ∗ ∃ W, owes (c : Thread nD τ) (0 : CellTallies nD τ sig Unit) W) := by
  iintro ⟨Hh, -, HO⟩
  isplitl [Hh]; · iexact Hh
  iexact HO

-- the launch theorem's implicit arguments are found by unifying its conclusion with this one, which takes unfolding
-- plain definitions in a metavariable's type
set_option backward.isDefEq.respectTransparency.types false in
/-- @main as its eight items — region, four host stretches, region, a host stretch, region — chained through the
    boundary contents; the launch deals each core its unscoped buffers, its generator register and nothing owed; at the
    end the last thread state is read against the final memory. -/
theorem run_all
    (hb0 : ∀ c : Dev nD, BodyObligation (dat0 m c) (defs₀ (F := F)) Variants.none () Set.univ)
    (hb1 : ∀ c : Dev nD, BodyObligation (dat1 m c) (defs₀ (F := F)) Variants.none () Set.univ)
    (hb2 : ∀ c : Dev nD, BodyObligation (dat2 m c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) := by
  refine Pipeline.θ_run_regions_kit_dev (pcfgs (F := F)) Gen.adm (pdats m) () cellOf_inj
    (emb₁ : Emb (UR sig nD τ) (MT nD τ sig Unit (Elt F) ℕ (UR sig nD τ) ℕ)) defs₀ Variants.none L lv m ρ main
    (Gen.segs m (outs m) Variants.none L lv (fun _ c => Rst c) () (pdats m) (reg0 m hb0) (reg1 m hb1) (reg2 m hb2))
    (fun c Q => by
      rewrite [main_chain c, Seg.run_eq_chain,
        show (Gen.segs m (outs m) Variants.none L lv (fun _ c => Rst c) () (pdats m) (reg0 m hb0) (reg1 m hb1) (reg2 m hb2) c).map Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own ((emb₁ : Emb (UR sig nD τ) (MT nD τ sig Unit (Elt F) ℕ (UR sig nD τ) ℕ)) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V8 m (outs m) c))
    (hch := fun c => ⟨.rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      unfold StableHlo.held
      iintro ⟨Hh, HSI⟩
      ihave Hr := (pointsTo_read_all (Pipeline.ucRefs τ sig) (fun b => ((c : Thread nD τ).1, b)) (Gen.V8 m (outs m) c) s') $$ [Hh HSI]
      · isplitl [Hh] <;> iassumption
      icases Hr with ⟨%h, HSI⟩
      imodintro
      isplitr
      · ipureintro; exact h
      · iexact HSI)
    (hQ := fun _ h => h)

/-- The frame: every argument array ends as launched. -/
theorem frame
    (hb0 : ∀ c : Dev nD, BodyObligation (dat0 m c) (defs₀ (F := F)) Variants.none () Set.univ)
    (hb1 : ∀ c : Dev nD, BodyObligation (dat1 m c) (defs₀ (F := F)) Variants.none () Set.univ)
    (hb2 : ∀ c : Dev nD, BodyObligation (dat2 m c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c)⟩) (run_all m ρ hb0 hb1 hb2)

/-- The run with the result named: the result buffer ends at the last boundary's contents, the arguments as launched. -/
theorem run_result
    (hb0 : ∀ c : Dev nD, BodyObligation (dat0 m c) (defs₀ (F := F)) Variants.none () Set.univ)
    (hb1 : ∀ c : Dev nD, BodyObligation (dat1 m c) (defs₀ (F := F)) Variants.none () Set.univ)
    (hb2 : ∀ c : Dev nD, BodyObligation (dat2 m c) (defs₀ (F := F)) Variants.none () Set.univ) :
    θ_run defs (onTc (τ := τ) (main (F := F))) ⟨m, fun _ => 0, ρ⟩ (fun r => ∀ c : Dev nD,
      r.2.mem ((c.tc : Thread nD τ).loc main_v17) = Gen.V8 m (outs m) c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v17 (by decide)),
     (h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c)⟩) (run_all m ρ hb0 hb1 hb2)

end Cert.Kernel.Fam

end
-- ==== Proof.K.R0Body.lean ====
/-
  The body obligation of pallas_call 0's pipeline: at every grid point the kernel body, run on the staging buffers the
  pipeline hands it and on the invariant of the data module, leaves each buffer and the invariant as the data module says.
-/
import proofs.«125814_j23089744183324_1_alg».proof.Proof.K.R0Data
import Idealize.ShloMosaic.Lib.Pipeline.Frame
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body

/-- The zero offsets of a rank-two rectangle, as the constant function. -/
theorem hz : (![0, 0] : Fin 2 → Nat) = fun _ => 0 := funext fun a => by fin_cases a <;> rfl

/-- A store through the whole-shape rectangle at zero offsets, made last, is what the view reads afterwards, whatever
    was stored before it and whatever the buffer held. -/
theorem read_cons_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- The body at the first point, on whole staging memrefs holding `x0`, `x1`, `x2`: the H tile stays, the node-degree
    buffer ends at the tile's row sums, and the edge-degree buffer, cleared and read back, at the tile's column sums
    added to the cleared row. -/
theorem run_first (c : Dev nD) (i : grid0.Coords)
    (arg1 : Memref sig .tc .vmem S512x4096 .f32) (harg1 : arg1.IsWhole)
    (arg2 : Memref sig .tc .vmem S512x1 .f32) (harg2 : arg2.IsWhole)
    (arg3 : Memref sig .tc .vmem S1x4096 .f32) (harg3 : arg3.IsWhole)
    (hc : condA i) (x0 : Vec F S512x4096 .f32) (x1 : Vec F S512x1 .f32) (x2 : Vec F S1x4096 .f32)
    (K : PUnit → sProp 𝕄) :
    iprop(owns (c : Thread nD τ) arg1 fullShare x0 ∗ owns (c : Thread nD τ) arg2 fullShare x1 ∗ owns (c : Thread nD τ) arg3 fullShare x2
      ∗ (iprop(owns (c : Thread nD τ) arg1 fullShare x0 ∗ owns (c : Thread nD τ) arg2 fullShare (k0_pay1 x0)
          ∗ owns (c : Thread nD τ) arg3 fullShare (k0_pay3 x0 k0_pay2)) -∗ K ⟨⟩))
    ⊢ wp frame (wpE (defs₀ (F := F)) Variants.none c none) Set.univ (cc0__stats_kernel i arg1 harg1 arg2 harg2 arg3 harg3) K := by
  simp only [cc0__stats_kernel_eq_skeleton]; unfold cc0__stats_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr
    swap; · iexact H1
    ipureintro
    rw [read_cons_unit_zero (S := S512x1) _ _ hz, View.readAt_eq_ld, harg1.read_unread, View.ld_unit_zero (S := S512x4096) hz]
  iexists _; isplitr
  swap; · iexact H2
  ipureintro
  rw [read_cons_unit_zero (S := S1x4096) _ _ hz]
  sl_unfold_run_names
  rw [View.readCov_unit_zero (S := S1x4096) _ hz, View.readAt_eq_ld, harg1.read_unread, View.ld_unit_zero (S := S512x4096) hz]

/-- The body at a later point: the edge-degree buffer is not cleared, and ends at the tile's column sums added to what
    it held. -/
theorem run_later (c : Dev nD) (i : grid0.Coords)
    (arg1 : Memref sig .tc .vmem S512x4096 .f32) (harg1 : arg1.IsWhole)
    (arg2 : Memref sig .tc .vmem S512x1 .f32) (harg2 : arg2.IsWhole)
    (arg3 : Memref sig .tc .vmem S1x4096 .f32) (harg3 : arg3.IsWhole)
    (hc : ¬ condA i) (x0 : Vec F S512x4096 .f32) (x1 : Vec F S512x1 .f32) (x2 : Vec F S1x4096 .f32)
    (K : PUnit → sProp 𝕄) :
    iprop(owns (c : Thread nD τ) arg1 fullShare x0 ∗ owns (c : Thread nD τ) arg2 fullShare x1 ∗ owns (c : Thread nD τ) arg3 fullShare x2
      ∗ (iprop(owns (c : Thread nD τ) arg1 fullShare x0 ∗ owns (c : Thread nD τ) arg2 fullShare (k0_pay1 x0)
          ∗ owns (c : Thread nD τ) arg3 fullShare (k0_pay3 x0 x2)) -∗ K ⟨⟩))
    ⊢ wp frame (wpE (defs₀ (F := F)) Variants.none c none) Set.univ (cc0__stats_kernel i arg1 harg1 arg2 harg2 arg3 harg3) K := by
  simp only [cc0__stats_kernel_eq_skeleton]; unfold cc0__stats_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr
    swap; · iexact H1
    ipureintro
    rw [read_cons_unit_zero (S := S512x1) _ _ hz, View.readAt_eq_ld, harg1.read_unread, View.ld_unit_zero (S := S512x4096) hz]
  iexists _; isplitr
  swap; · iexact H2
  ipureintro
  rw [read_cons_unit_zero (S := S1x4096) _ _ hz]
  sl_unfold_run_names
  simp only [View.readAt_eq_ld, harg1.read_unread, harg3.read_unread, View.ld_unit_zero (S := S512x4096) hz,
    View.ld_unit_zero (S := S1x4096) hz]

/-! ## What the edge-degree buffer holds when the body runs at a later point -/

/-- After the first point the second result's one staging buffer holds what the point before left: the pipeline never
    fetches a result, and writes this one back only at the last point. -/
theorem before2_later (c : Dev nD) (t : Fin cfg0.N) (ht : t.val ≠ 0) (d) :
    (dat V c).before 2 t d = colAt V c (t.val - 1) (Nat.lt_of_le_of_lt (Nat.sub_le _ _) t.isLt) := by
  have hN : t.val < 16 := lt_of_lt_of_eq t.isLt (show cfg0.N = 16 from N_0)
  have hfl : (cfg0.win 2).flush ⟨t.val - 1, Nat.lt_of_le_of_lt (Nat.sub_le _ _) t.isLt⟩ = false := by
    rw [Bool.eq_false_iff]; intro h
    have h' : (t.val - 1) % 16 = 15 := (flush0_2 _).mp h
    omega
  rw [(dat V c).before_out_kept 2 rfl t ht hfl (fun _ => rfl) (fun _ _ => rfl) d, after2]

/-! ## The obligation at a point -/

/-- The invariant does not change from point to point. -/
theorem Phi_succ (c : Dev nD) (t : Fin cfg0.N) : (dat V c).Φ t.succ = (dat V c).Φ t.castSucc := by dsimp only [dat]

/-- No window is idle, so each current buffer is left at the data module's `after`. -/
theorem leaves0 (c : Dev nD) (t : Fin cfg0.N) :
    (dat V c).leavesExact 0 t = owns (c : Thread nD τ) (ms0 t) fullShare (hblk V c t) := by
  unfold Dat.leavesExact; rw [live0 t, after0]
theorem leaves1 (c : Dev nD) (t : Fin cfg0.N) :
    (dat V c).leavesExact 1 t = owns (c : Thread nD τ) (ms1 t) fullShare (rowAt V c t) := by
  unfold Dat.leavesExact; rw [live1 t, after1]
theorem leaves2 (c : Dev nD) (t : Fin cfg0.N) :
    (dat V c).leavesExact 2 t = owns (c : Thread nD τ) (ms2 t) fullShare (colAt V c t.val t.isLt) := by
  unfold Dat.leavesExact; rw [live2 t, after2]

/-- What the pipeline hands the body at point `t`: the invariant, the core's debts, each window's current buffer. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- What it takes back. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

/-- The body at any point. The H tile's buffer holds its block; the first result's buffer holds anything and is stored
    whole; the second result's holds anything at the first point, where the body clears it, and what the point before
    left at a later one. The invariant and the debts ride through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0 V]
  rw [show (dat V c).owesAt () t.succ = (dat V c).owesAt () t.castSucc from rfl, Phi_succ V c t,
    leaves0 V c t, leaves1 V c t, leaves2 V c t]
  unfold rowAt
  by_cases h0 : t.val = 0
  · rw [colAt_first V c t h0]
    iintro ⟨HΦ, Ho, ⟨%d0, H0⟩, ⟨%d1, H1⟩, ⟨%d2, H2⟩⟩
    iapply (run_first c (grid0.coords t) (ms0 t) (hs0 t) (ms1 t) (hs1 t) (ms2 t) (hs2 t) ((hcondA t).mpr h0) (hblk V c t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · simp only [before2_later V c t h0]
    rw [colAt_next V c t h0]
    iintro ⟨HΦ, Ho, ⟨%d0, H0⟩, ⟨%d1, H1⟩, ⟨%d2, H2⟩⟩
    iapply (run_later c (grid0.coords t) (ms0 t) (hs0 t) (ms1 t) (hs1 t) (ms2 t) (hs2 t) (fun h => h0 ((hcondA t).mp h)) (hblk V c t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Body

/-- The library's body obligation for this pipeline, at every point, on every core. -/
theorem body_obligation (c : Dev nD) : BodyObligation (dat V c) (defs₀ (F := F)) Variants.none () Set.univ := by
  intro t
  rw [bigSep_W0, bigSep_W0]
  exact Body.sound_body V c t

end Cert.Kernel.R0

end
-- ==== Proof.K.R1Body.lean ====
/-
  The body obligation of pallas_call 1's pipeline: at every grid point the kernel body, run on the staging buffers the
  pipeline hands it and on the invariant of the data module, leaves each buffer and the invariant as the data module says.
-/
import proofs.«125814_j23089744183324_1_alg».proof.Proof.K.R1Data
import Idealize.ShloMosaic.Lib.Pipeline.Frame

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The two zero offsets of a rank-two rectangle, as the constant function. -/
theorem zz : (![0, 0] : Fin 2 → ℕ) = fun _ => 0 := by funext a; fin_cases a <;> rfl

/-- A load of the whole shape at zero offsets, through a whole memref held at the contents that read `X`, reads `X`:
    the rectangle is the whole shape's, whose placement of an index is the index. -/
theorem load_whole {sp : Space} {S : Shape} {e : EltTy} (m : Memref sig .tc sp S e) (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho; funext x
  rw [View.readAt_apply, h.read_unread X]
  show X ((Rect.whole S).emb x) = X x
  rw [Rect.emb_whole_apply]

/-- After a store of the whole shape at zero offsets, whatever was stored before it, the buffer reads the stored vector. -/
theorem store_whole {sp : Space} {S : Shape} {e : EltTy} (v : View sig .tc sp S e) (f : v.ty.Contents (Elt F))
    {off : Fin S.rank → ℕ} (ho : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst ho; funext y
  have e := View.read_writes_cons_emb (v := v) (f := f) (Rect.whole S) w L y
  rw [Rect.emb_whole_apply] at e
  exact e

/-! ## The kernel function on any whole memrefs, case by case

Each input memref holds its tile (`x0` the H tile, `x1` the x tile, `x2` the node scale, `x3` the edge scale), the
result memref holds `x4` and the accumulator `xs`; the body runs to any continuation that takes the six back, the
inputs as they were, the accumulator and the result at what the case computes. -/

/-- First node tile (and not the last): the accumulator is cleared, read back as the zero tile, and the point's product
    is added to it; the result memref is not touched. What the accumulator held before plays no part. -/
theorem run_A (c : Dev nD) (i : grid1.Coords) (arg2 : Memref sig .tc .vmem S2048x1024 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole)
    (hA : condA i) (hC : ¬ condC i) (x0 : Vec F S2048x1024 .f32) (x1 : Vec F S2048x256 .f32) (x2 : Vec F S2048x1 .f32) (x3 : Vec F S1024x1 .f32) (x4 : Vec F S1024x256 .f32) (xs : Vec F S1024x256 .f32) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare (k1_pay2 x0 x1 x2 k1_pay1)) -∗ K ⟨⟩))
      ⊢ wp frame (wpE (defs₀ (F := F)) Variants.none c none) Set.univ
          (cc1__pass1_kernel i arg2 harg2 arg3 harg3 arg4 harg4 arg5 harg5 arg6 harg6 arg7 harg7) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hA | exact hC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [store_whole _ _ zz, load_whole arg2 harg2 x0 zz, load_whole arg3 harg3 x1 zz, load_whole arg4 harg4 x2 zz]
  unfold run_A.sl.v11 run_A.sl.HS_1
  rw [View.readCov_cons_toLoadRect]

/-- A middle node tile: the point's product is added to what the accumulator held; the result memref is not touched. -/
theorem run_B (c : Dev nD) (i : grid1.Coords) (arg2 : Memref sig .tc .vmem S2048x1024 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole)
    (hA : ¬ condA i) (hC : ¬ condC i) (x0 : Vec F S2048x1024 .f32) (x1 : Vec F S2048x256 .f32) (x2 : Vec F S2048x1 .f32) (x3 : Vec F S1024x1 .f32) (x4 : Vec F S1024x256 .f32) (xs : Vec F S1024x256 .f32) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare (k1_pay2 x0 x1 x2 xs)) -∗ K ⟨⟩))
      ⊢ wp frame (wpE (defs₀ (F := F)) Variants.none c none) Set.univ
          (cc1__pass1_kernel i arg2 harg2 arg3 harg3 arg4 harg4 arg5 harg5 arg6 harg6 arg7 harg7) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hA | exact hC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [store_whole _ _ zz, load_whole arg2 harg2 x0 zz, load_whole arg3 harg3 x1 zz, load_whole arg4 harg4 x2 zz,
    load_whole arg7 harg7 xs zz]

/-- Last node tile: the point's product is added to what the accumulator held, and the new accumulator, its rows scaled by
    the edge scale, is stored over the result memref (whose earlier contents are read and dropped). -/
theorem run_C (c : Dev nD) (i : grid1.Coords) (arg2 : Memref sig .tc .vmem S2048x1024 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole)
    (hA : ¬ condA i) (hC : condC i) (x0 : Vec F S2048x1024 .f32) (x1 : Vec F S2048x256 .f32) (x2 : Vec F S2048x1 .f32) (x3 : Vec F S1024x1 .f32) (x4 : Vec F S1024x256 .f32) (xs : Vec F S1024x256 .f32) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k1_pay3 (k1_pay2 x0 x1 x2 xs) x3) ∗ owns (c : Thread nD τ) arg7 fullShare (k1_pay2 x0 x1 x2 xs)) -∗ K ⟨⟩))
      ⊢ wp frame (wpE (defs₀ (F := F)) Variants.none c none) Set.univ
          (cc1__pass1_kernel i arg2 harg2 arg3 harg3 arg4 harg4 arg5 harg5 arg6 harg6 arg7 harg7) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hA | exact hC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [store_whole _ _ zz, load_whole arg5 harg5 x3 zz]
    unfold run_C.sl.v20 run_C.sl.HS_1
    rw [View.readCov_cons_toLoadRect, load_whole arg2 harg2 x0 zz, load_whole arg3 harg3 x1 zz,
      load_whole arg4 harg4 x2 zz, load_whole arg7 harg7 xs zz]
  iexists _; isplitr
  swap; · iexact HS
  ipureintro
  unfold run_C.sl.HS_1
  rw [store_whole _ _ zz, load_whole arg2 harg2 x0 zz, load_whole arg3 harg3 x1 zz, load_whole arg4 harg4 x2 zz,
    load_whole arg7 harg7 xs zz]

/-! ## The body at a point of the grid -/

/-- Whatever the invariant is before a point, it yields the accumulator at some contents beside the other scoped buffers. -/
theorem Phi_some (c : Dev nD) (n : ℕ) (h : n ≤ cfg1.N) :
    Phi V c n h ⊢ (iprop((∃ d, owns (c : Thread nD τ) scM fullShare d) ∗ others c) : sProp 𝕄) := by
  by_cases hz : n = 0
  · rw [Phi_zero V c n h hz]
  · rw [Phi_pos V c n h hz]
    iintro ⟨HS, Ho⟩
    isplitl [HS]; · iexists _; iexact HS
    iexact Ho

/-- At a point where a window is live, its buffer is owed at what the body leaves there. -/
theorem leaves_live (c : Dev nD) (w : Fin cfg1.W) (t : Fin cfg1.N) (h : cfg1.idle w (grid1.coords t) = false) :
    (dat V c).leavesExact w t
      = owns (c : Thread nD τ) ((cfg1.win w).stage (cfg1.slots t w)) fullShare ((dat V c).after w t) := by
  unfold Dat.leavesExact; rw [h]

/-- The body at point `t`, from the invariant, what the core owes and the five current buffers, to the invariant at the next
    point and the five buffers as the proof data leave them. The four inputs hold their blocks and are handed back so;
    the case of `t` among the node tiles of its edge tile selects the run: at the first the accumulator is taken at whatever
    it holds, at the others at what the point before left; away from the last the result's buffer goes back as found. -/
theorem sound_body (c : Dev nD) (t : Fin cfg1.N) :
    iprop((dat V c).Φ t.castSucc ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d))
        ∗ (∃ d, owns (c : Thread nD τ) (ms3 t) fullShare ((dat V c).before 3 t d))
        ∗ (∃ d, owns (c : Thread nD τ) (ms4 t) fullShare ((dat V c).before 4 t d)))
      ⊢ wp frame (wpE (defs₀ (F := F)) Variants.none c none) Set.univ (bodyAt1 t) (fun _ =>
          (iprop((dat V c).Φ t.succ ∗ (dat V c).owesAt () t.succ
            ∗ (dat V c).leavesExact 0 t ∗ (dat V c).leavesExact 1 t ∗ (dat V c).leavesExact 2 t
            ∗ (dat V c).leavesExact 3 t ∗ (dat V c).leavesExact 4 t) : sProp 𝕄)) := by
  rw [leaves_live V c 0 t (live0 t), leaves_live V c 1 t (live1 t), leaves_live V c 2 t (live2 t),
    leaves_live V c 3 t (live3 t), after0, after1, after2, after3]
  simp only [before0, before1, before2, before3]
  rw [show (dat V c).owesAt () t.succ = (dat V c).owesAt () t.castSucc from rfl, Phi_at_succ, Phi_succ, Phi_castSucc]
  by_cases h0 : t.val % 4 = 0
  · have h3 : ¬ t.val % 4 = 3 := by omega
    have hA : condA (grid1.coords t) := (hcondA t).mpr h0
    have hC : ¬ condC (grid1.coords t) := fun h => h3 ((hcondC t).mp h)
    rw [Dat.leavesExact_idle (dat V c) 4 t (idle4 t h3) (noFlush4 t h3), accAt_first V c t h0]
    iintro ⟨HP, Hw, ⟨%d0, H0⟩, ⟨%d1, H1⟩, ⟨%d2, H2⟩, ⟨%d3, H3⟩, ⟨%d4, H4⟩⟩
    icases (Phi_some V c _ _) $$ HP with ⟨⟨%ds, HS⟩, Ho⟩
    iapply (run_A c (grid1.coords t) (ms0 t) (hs0 t) (ms1 t) (hs1 t) (ms2 t) (hs2 t) (ms3 t) (hs3 t) (ms4 t) (hs4 t)
        scM (Memref.isWhole_whole _) hA hC (hblk V c t) (xblk V c t) (dnblk V c t) (deblk V c t) ((dat V c).before 4 t d4) ds _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Ho]
    · isplitl [HS]; · iexact HS
      iexact Ho
    isplitl [Hw]; · iexact Hw
    isplitl [H0]; · iexact H0
    isplitl [H1]; · iexact H1
    isplitl [H2]; · iexact H2
    isplitl [H3]; · iexact H3
    iexists d4; iexact H4
  · have hz : t.val ≠ 0 := by omega
    rw [accAt_next V c t h0, Phi_pos V c _ _ hz]
    by_cases h3 : t.val % 4 = 3
    · have hA : ¬ condA (grid1.coords t) := fun h => h0 ((hcondA t).mp h)
      have hC : condC (grid1.coords t) := (hcondC t).mpr h3
      rw [leaves_live V c 4 t (live4 t h3), after4]
      unfold outAt
      rw [accAt_next V c t h0]
      iintro ⟨⟨HS, Ho⟩, Hw, ⟨%d0, H0⟩, ⟨%d1, H1⟩, ⟨%d2, H2⟩, ⟨%d3, H3⟩, ⟨%d4, H4⟩⟩
      iapply (run_C c (grid1.coords t) (ms0 t) (hs0 t) (ms1 t) (hs1 t) (ms2 t) (hs2 t) (ms3 t) (hs3 t) (ms4 t) (hs4 t)
        scM (Memref.isWhole_whole _) hA hC (hblk V c t) (xblk V c t) (dnblk V c t) (deblk V c t) ((dat V c).before 4 t d4) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Ho]
      · isplitl [HS]; · iexact HS
        iexact Ho
      isplitl [Hw]; · iexact Hw
      isplitl [H0]; · iexact H0
      isplitl [H1]; · iexact H1
      isplitl [H2]; · iexact H2
      isplitl [H3]; · iexact H3
      iexact H4
    · have hA : ¬ condA (grid1.coords t) := fun h => h0 ((hcondA t).mp h)
      have hC : ¬ condC (grid1.coords t) := fun h => h3 ((hcondC t).mp h)
      rw [Dat.leavesExact_idle (dat V c) 4 t (idle4 t h3) (noFlush4 t h3)]
      iintro ⟨⟨HS, Ho⟩, Hw, ⟨%d0, H0⟩, ⟨%d1, H1⟩, ⟨%d2, H2⟩, ⟨%d3, H3⟩, ⟨%d4, H4⟩⟩
      iapply (run_B c (grid1.coords t) (ms0 t) (hs0 t) (ms1 t) (hs1 t) (ms2 t) (hs2 t) (ms3 t) (hs3 t) (ms4 t) (hs4 t)
        scM (Memref.isWhole_whole _) hA hC (hblk V c t) (xblk V c t) (dnblk V c t) (deblk V c t) ((dat V c).before 4 t d4) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Ho]
      · isplitl [HS]; · iexact HS
        iexact Ho
      isplitl [Hw]; · iexact Hw
      isplitl [H0]; · iexact H0
      isplitl [H1]; · iexact H1
      isplitl [H2]; · iexact H2
      isplitl [H3]; · iexact H3
      iexists d4; iexact H4

/-- The library's body obligation for this pipeline, at every point, on every core. -/
theorem body_obligation (c : Dev nD) : BodyObligation (dat V c) (defs₀ (F := F)) Variants.none () Set.univ := by
  intro t
  rw [bigSep_W1, bigSep_W1]
  exact sound_body V c t

end Cert.Kernel.R1

end
-- ==== Proof.K.R2Body.lean ====
/-
  The body obligation of pallas_call 2's pipeline: at every grid point the kernel body, run on the staging buffers the
  pipeline hands it and on the invariant of the data module, leaves each buffer and the invariant as the data module says.
-/
import proofs.«125814_j23089744183324_1_alg».proof.Proof.K.R2Data
import Idealize.ShloMosaic.Lib.Pipeline.Frame

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A whole memref, owned and held

A points-to holds a buffer's raw contents; the obligation speaks of what a memref reads of them. For a whole memref
the two determine each other. -/

section Whole

variable {sp : Space} {S : Shape} {e : EltTy}

/-- A whole memref owned at `X` is held at the raw contents that read `X`. -/
theorem held_of_owns (c : Thread nD τ) (m : Memref sig c.2.kind sp S e) (h : m.IsWhole) (X : S.Idx → Elt F e) :
    (owns c m fullShare X : sProp 𝕄) ⊢ m.view.loc c ↦[m.view.set]{fullShare} h.unread X := by
  unfold owns
  iintro ⟨%f, %hf, H⟩
  rw [← h.eq_unread hf]
  iexact H

/-- Held at any raw contents, it is owned at what it reads of them. -/
theorem owns_of_held (c : Thread nD τ) (m : Memref sig c.2.kind sp S e) (f : m.view.ty.Contents (Elt F)) (X : S.Idx → Elt F e)
    (hX : m.view.read (Elt F) f = X) :
    (m.view.loc c ↦[m.view.set]{fullShare} f : sProp 𝕄) ⊢ owns c m fullShare X := by
  subst hX; exact owns_intro c m fullShare f

/-- A load of the whole shape at zero offsets reads what the view reads. -/
theorem load_of_read {κ : Kind} (v : View sig κ sp S e) (f : v.ty.Contents (Elt F)) (X : S.Idx → Elt F e)
    (hX : v.read (Elt F) f = X) {off : Fin S.rank → Nat} (hoff : off = fun _ => 0)
    (inb : ∀ a, off a + S.size a ≤ S.size a) :
    v.readAt (Elt F) (Rect.unit off S.size inb).toLoadRect f = X := by
  subst hoff hX; funext x; rw [View.readAt_apply]
  show v.read (Elt F) f ((Rect.whole S).emb x) = v.read (Elt F) f x
  rw [Rect.emb_whole_apply]

/-- A store of the whole shape at zero offsets, last, is what the view then reads. -/
theorem read_stored {κ : Kind} (v : View sig κ sp S e) (f : v.ty.Contents (Elt F)) {off : Fin S.rank → Nat}
    (hoff : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst hoff; funext y
  have e := View.read_writes_cons_emb (v := v) (f := f) (Rect.whole S) w L y
  rwa [Rect.emb_whole_apply] at e

/-- So a memref held at contents whose last store was of the whole shape is owned at that store's payload. -/
theorem owns_of_stored (c : Thread nD τ) (m : Memref sig c.2.kind sp S e) (f : m.view.ty.Contents (Elt F))
    {off : Fin S.rank → Nat} (hoff : off = fun _ => 0) (inb : ∀ a, off a + S.size a ≤ S.size a) (w : S.Idx → Elt F e)
    (L : List (View.Piece (Elt F) S e)) :
    (m.view.loc c ↦[m.view.set]{fullShare} m.view.writes (Elt F) f (⟨Rect.unit off S.size inb, w⟩ :: L) : sProp 𝕄)
      ⊢ owns c m fullShare w :=
  owns_of_held c m _ w (read_stored m.view f hoff inb w L)

/-- A load of the whole shape from the raw contents of a whole memref that read `X` is `X`. -/
theorem load_whole {κ : Kind} (m : Memref sig κ sp S e) (h : m.IsWhole) (X : S.Idx → Elt F e) {off : Fin S.rank → Nat}
    (hoff : off = fun _ => 0) (inb : ∀ a, off a + S.size a ≤ S.size a) :
    View.readAt (Elt F) m.view (Rect.unit off S.size inb).toLoadRect (h.unread X) = X :=
  load_of_read m.view _ X (h.read_unread X) hoff inb

/-- A load of the whole shape after one store of the whole shape reads the store's payload. -/
theorem readCov_stored {κ : Kind} (v : View sig κ sp S e) {off : Fin S.rank → Nat} (hoff : off = fun _ => 0)
    (inb : ∀ a, off a + S.size a ≤ S.size a) (w : S.Idx → Elt F e) :
    v.readCov [(⟨Rect.unit off S.size inb, w⟩ : View.Piece (Elt F) S e)] (Rect.unit off S.size inb).toLoadRect = w := by
  unfold View.readCov
  exact load_of_read v _ w (read_stored v _ hoff inb w []) hoff inb

end Whole

/-- The zero offsets of a two-axis shape, as the program spells them. -/
theorem zeros2 : (![0, 0] : Fin 2 → Nat) = fun _ => 0 := by decide

/-! ## The kernel function, case by case

On whole memrefs owned at any contents: the inputs come back as they were; the accumulator ends at the point's product
added to what the case says it held; at a last edge tile the result buffer ends at the dense layer of that. -/

/-- Neither a first nor a last edge tile: the accumulator takes the point's product on top of what it held. -/
theorem run_mid (c : Dev nD) (i : grid2.Coords) (hA : ¬ condA i) (hC : ¬ condC i)
    (arg2 : Memref sig .tc .vmem S2048x1024 .f32) (harg2 : arg2.IsWhole)
    (arg3 : Memref sig .tc .vmem S1024x256 .f32) (harg3 : arg3.IsWhole)
    (arg4 : Memref sig .tc .vmem S2048x1 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S2048x256 .f32) (harg7 : arg7.IsWhole)
    (arg8 : Memref sig .tc .vmem S2048x256 .f32) (harg8 : arg8.IsWhole)
    (x0 : Vec F S2048x1024 .f32) (x1 : Vec F S1024x256 .f32) (x2 : Vec F S2048x1 .f32)
    (x3 : Vec F S256x256 .f32) (x4 : Vec F S1x256 .f32) (x5 : Vec F S2048x256 .f32) (a : Vec F S2048x256 .f32)
    (K : PUnit → sProp 𝕄) :
    (iprop((owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare a)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k2_pay2 x0 x1 a)) -∗ K ⟨⟩)) : sProp 𝕄)
      ⊢ wp frame (wpE (defs₀ (F := F)) Variants.none c none) Set.univ
          (cc2__pass2_kernel i arg2 harg2 arg3 harg3 arg4 harg4 arg5 harg5 arg6 harg6 arg7 harg7 arg8 harg8) K := by
  simp only [cc2__pass2_kernel_eq_skeleton]; unfold cc2__pass2_kernel_skel
  iintro ⟨⟨H0, H1, H2, H3, H4, H5, H8⟩, HK⟩
  ihave H0 := (held_of_owns c arg2 harg2 x0) $$ H0
  ihave H1 := (held_of_owns c arg3 harg3 x1) $$ H1
  ihave H2 := (held_of_owns c arg4 harg4 x2) $$ H2
  ihave H3 := (held_of_owns c arg5 harg5 x3) $$ H3
  ihave H4 := (held_of_owns c arg6 harg6 x4) $$ H4
  ihave H5 := (held_of_owns c arg7 harg7 x5) $$ H5
  ihave H8 := (held_of_owns c arg8 harg8 a) $$ H8
  sl_exec (disch := first | exact hA | exact hC)
  sl_step
  sl_unfold_run_names
  rw [load_whole arg2 harg2 x0 zeros2, load_whole arg3 harg3 x1 zeros2, load_whole arg8 harg8 a zeros2]
  ihave H0 := (owns_of_held (c : Thread nD τ) arg2 _ x0 (harg2.read_unread x0)) $$ H0
  ihave H1 := (owns_of_held (c : Thread nD τ) arg3 _ x1 (harg3.read_unread x1)) $$ H1
  ihave H2 := (owns_of_held (c : Thread nD τ) arg4 _ x2 (harg4.read_unread x2)) $$ H2
  ihave H3 := (owns_of_held (c : Thread nD τ) arg5 _ x3 (harg5.read_unread x3)) $$ H3
  ihave H4 := (owns_of_held (c : Thread nD τ) arg6 _ x4 (harg6.read_unread x4)) $$ H4
  ihave H5 := (owns_of_held (c : Thread nD τ) arg7 _ x5 (harg7.read_unread x5)) $$ H5
  ihave H8 := (owns_of_stored (c : Thread nD τ) arg8 _ zeros2 _ _ _) $$ H8
  iapply HK
  isplitl [H0]; · iexact H0
  isplitl [H1]; · iexact H1
  isplitl [H2]; · iexact H2
  isplitl [H3]; · iexact H3
  isplitl [H4]; · iexact H4
  isplitl [H5]; · iexact H5
  iexact H8

/-- A first edge tile: the accumulator, whatever it held, is cleared, read back as cleared, and takes the point's product. -/
theorem run_first (c : Dev nD) (i : grid2.Coords) (hA : condA i) (hC : ¬ condC i)
    (arg2 : Memref sig .tc .vmem S2048x1024 .f32) (harg2 : arg2.IsWhole)
    (arg3 : Memref sig .tc .vmem S1024x256 .f32) (harg3 : arg3.IsWhole)
    (arg4 : Memref sig .tc .vmem S2048x1 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S2048x256 .f32) (harg7 : arg7.IsWhole)
    (arg8 : Memref sig .tc .vmem S2048x256 .f32) (harg8 : arg8.IsWhole)
    (x0 : Vec F S2048x1024 .f32) (x1 : Vec F S1024x256 .f32) (x2 : Vec F S2048x1 .f32)
    (x3 : Vec F S256x256 .f32) (x4 : Vec F S1x256 .f32) (x5 : Vec F S2048x256 .f32) (a : Vec F S2048x256 .f32)
    (K : PUnit → sProp 𝕄) :
    (iprop((owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare a)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k2_pay2 x0 x1 k2_pay1)) -∗ K ⟨⟩)) : sProp 𝕄)
      ⊢ wp frame (wpE (defs₀ (F := F)) Variants.none c none) Set.univ
          (cc2__pass2_kernel i arg2 harg2 arg3 harg3 arg4 harg4 arg5 harg5 arg6 harg6 arg7 harg7 arg8 harg8) K := by
  simp only [cc2__pass2_kernel_eq_skeleton]; unfold cc2__pass2_kernel_skel
  iintro ⟨⟨H0, H1, H2, H3, H4, H5, H8⟩, HK⟩
  ihave H0 := (held_of_owns c arg2 harg2 x0) $$ H0
  ihave H1 := (held_of_owns c arg3 harg3 x1) $$ H1
  ihave H2 := (held_of_owns c arg4 harg4 x2) $$ H2
  ihave H3 := (held_of_owns c arg5 harg5 x3) $$ H3
  ihave H4 := (held_of_owns c arg6 harg6 x4) $$ H4
  ihave H5 := (held_of_owns c arg7 harg7 x5) $$ H5
  ihave H8 := (held_of_owns c arg8 harg8 a) $$ H8
  sl_exec (disch := first | exact hA | exact hC)
  sl_step
  sl_unfold_run_names
  rw [load_whole arg2 harg2 x0 zeros2, load_whole arg3 harg3 x1 zeros2, readCov_stored arg8.view zeros2]
  ihave H0 := (owns_of_held (c : Thread nD τ) arg2 _ x0 (harg2.read_unread x0)) $$ H0
  ihave H1 := (owns_of_held (c : Thread nD τ) arg3 _ x1 (harg3.read_unread x1)) $$ H1
  ihave H2 := (owns_of_held (c : Thread nD τ) arg4 _ x2 (harg4.read_unread x2)) $$ H2
  ihave H3 := (owns_of_held (c : Thread nD τ) arg5 _ x3 (harg5.read_unread x3)) $$ H3
  ihave H4 := (owns_of_held (c : Thread nD τ) arg6 _ x4 (harg6.read_unread x4)) $$ H4
  ihave H5 := (owns_of_held (c : Thread nD τ) arg7 _ x5 (harg7.read_unread x5)) $$ H5
  ihave H8 := (owns_of_stored (c : Thread nD τ) arg8 _ zeros2 _ _ _) $$ H8
  iapply HK
  isplitl [H0]; · iexact H0
  isplitl [H1]; · iexact H1
  isplitl [H2]; · iexact H2
  isplitl [H3]; · iexact H3
  isplitl [H4]; · iexact H4
  isplitl [H5]; · iexact H5
  iexact H8

/-- A last edge tile: the accumulator as at a middle tile; read back, it goes through the dense layer into the result buffer,
    whatever that held. -/
theorem run_last (c : Dev nD) (i : grid2.Coords) (hA : ¬ condA i) (hC : condC i)
    (arg2 : Memref sig .tc .vmem S2048x1024 .f32) (harg2 : arg2.IsWhole)
    (arg3 : Memref sig .tc .vmem S1024x256 .f32) (harg3 : arg3.IsWhole)
    (arg4 : Memref sig .tc .vmem S2048x1 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S2048x256 .f32) (harg7 : arg7.IsWhole)
    (arg8 : Memref sig .tc .vmem S2048x256 .f32) (harg8 : arg8.IsWhole)
    (x0 : Vec F S2048x1024 .f32) (x1 : Vec F S1024x256 .f32) (x2 : Vec F S2048x1 .f32)
    (x3 : Vec F S256x256 .f32) (x4 : Vec F S1x256 .f32) (x5 : Vec F S2048x256 .f32) (a : Vec F S2048x256 .f32)
    (K : PUnit → sProp 𝕄) :
    (iprop((owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare a)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (k2_pay3 (k2_pay2 x0 x1 a) x2 x3 x4)
            ∗ owns (c : Thread nD τ) arg8 fullShare (k2_pay2 x0 x1 a)) -∗ K ⟨⟩)) : sProp 𝕄)
      ⊢ wp frame (wpE (defs₀ (F := F)) Variants.none c none) Set.univ
          (cc2__pass2_kernel i arg2 harg2 arg3 harg3 arg4 harg4 arg5 harg5 arg6 harg6 arg7 harg7 arg8 harg8) K := by
  simp only [cc2__pass2_kernel_eq_skeleton]; unfold cc2__pass2_kernel_skel
  iintro ⟨⟨H0, H1, H2, H3, H4, H5, H8⟩, HK⟩
  ihave H0 := (held_of_owns c arg2 harg2 x0) $$ H0
  ihave H1 := (held_of_owns c arg3 harg3 x1) $$ H1
  ihave H2 := (held_of_owns c arg4 harg4 x2) $$ H2
  ihave H3 := (held_of_owns c arg5 harg5 x3) $$ H3
  ihave H4 := (held_of_owns c arg6 harg6 x4) $$ H4
  ihave H5 := (held_of_owns c arg7 harg7 x5) $$ H5
  ihave H8 := (held_of_owns c arg8 harg8 a) $$ H8
  sl_exec (disch := first | exact hA | exact hC)
  sl_step
  sl_unfold_run_names
  rw [load_whole arg2 harg2 x0 zeros2, load_whole arg3 harg3 x1 zeros2, load_whole arg8 harg8 a zeros2,
    readCov_stored arg8.view zeros2, load_whole arg4 harg4 x2 zeros2, load_whole arg5 harg5 x3 zeros2,
    load_whole arg6 harg6 x4 zeros2]
  ihave H0 := (owns_of_held (c : Thread nD τ) arg2 _ x0 (harg2.read_unread x0)) $$ H0
  ihave H1 := (owns_of_held (c : Thread nD τ) arg3 _ x1 (harg3.read_unread x1)) $$ H1
  ihave H2 := (owns_of_held (c : Thread nD τ) arg4 _ x2 (harg4.read_unread x2)) $$ H2
  ihave H3 := (owns_of_held (c : Thread nD τ) arg5 _ x3 (harg5.read_unread x3)) $$ H3
  ihave H4 := (owns_of_held (c : Thread nD τ) arg6 _ x4 (harg6.read_unread x4)) $$ H4
  ihave H5 := (owns_of_stored (c : Thread nD τ) arg7 _ zeros2 _ _ _) $$ H5
  ihave H8 := (owns_of_stored (c : Thread nD τ) arg8 _ zeros2 _ _ _) $$ H8
  iapply HK
  isplitl [H0]; · iexact H0
  isplitl [H1]; · iexact H1
  isplitl [H2]; · iexact H2
  isplitl [H3]; · iexact H3
  isplitl [H4]; · iexact H4
  isplitl [H5]; · iexact H5
  iexact H8

/-! ## The obligation at a point, window by window -/

/-- What the body is called with at point `t`: the invariant, the core's debts, each window's current buffer. -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- What it hands back. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

/-- An input window is live at every point: its buffer comes back at its block. -/
theorem leaves0 (c : Dev nD) (t : Fin cfg2.N) :
    (dat V c).leavesExact 0 t = owns (c : Thread nD τ) (ms0 t) fullShare (hblk V c t) := by
  unfold Dat.leavesExact; rw [live0 t, after0]
theorem leaves1 (c : Dev nD) (t : Fin cfg2.N) :
    (dat V c).leavesExact 1 t = owns (c : Thread nD τ) (ms1 t) fullShare (eblk V c t) := by
  unfold Dat.leavesExact; rw [live1 t, after1]
theorem leaves2 (c : Dev nD) (t : Fin cfg2.N) :
    (dat V c).leavesExact 2 t = owns (c : Thread nD τ) (ms2 t) fullShare (dnblk V c t) := by
  unfold Dat.leavesExact; rw [live2 t, after2]
theorem leaves3 (c : Dev nD) (t : Fin cfg2.N) :
    (dat V c).leavesExact 3 t = owns (c : Thread nD τ) (ms3 t) fullShare (wblk V c t) := by
  unfold Dat.leavesExact; rw [live3 t, after3]
theorem leaves4 (c : Dev nD) (t : Fin cfg2.N) :
    (dat V c).leavesExact 4 t = owns (c : Thread nD τ) (ms4 t) fullShare (bblk V c t) := by
  unfold Dat.leavesExact; rw [live4 t, after4]
/-- The result window away from a last edge tile: idle and not written back, its buffer comes back as found; -/
theorem leaves5_idle (c : Dev nD) (t : Fin cfg2.N) (h3 : ¬ t.val % 4 = 3) :
    (dat V c).leavesExact 5 t
      = iprop(∃ d, owns (c : Thread nD τ) (ms5 t) fullShare ((dat V c).before 5 t d)) :=
  Dat.leavesExact_idle (dat V c) 5 t (idle5 t h3) (noFlush5 t h3)
/-- at one: live, at the result tile. -/
theorem leaves5_live (c : Dev nD) (t : Fin cfg2.N) (h3 : t.val % 4 = 3) :
    (dat V c).leavesExact 5 t = owns (c : Thread nD τ) (ms5 t) fullShare (outAt V c t) := by
  unfold Dat.leavesExact; rw [live5 t h3, after5]

/-! ## The body at a point, by the point's case

In each case: the inputs' buffers hold their blocks; the invariant hands over the accumulator (at anything before the
first point, at what the point before left afterwards) beside the other scoped buffers, which ride through untouched
like the core's debts; the case's triple applies; the accumulator comes back at this point's `accAt`. -/

/-- A first edge tile (t ≡ 0 mod 4): the accumulator restarts from zero, whatever it held. -/
theorem sound_first (c : Dev nD) (t : Fin cfg2.N) (h0 : t.val % 4 = 0) :
    bodyPre V c t
      ⊢ wp frame (wpE (defs₀ (F := F)) Variants.none c none) Set.univ (bodyAt2 t) (fun _ => bodyPost V c t) := by
  have h3 : ¬ t.val % 4 = 3 := by omega
  unfold bodyPre bodyPost bodyAt2
  simp only [before0, before1, before2, before3, before4]
  rw [show (dat V c).owesAt () t.succ = (dat V c).owesAt () t.castSucc from rfl]
  rw [Phi_at_succ, Phi_succ, accAt_first V c t h0, leaves0, leaves1, leaves2, leaves3, leaves4,
    leaves5_idle V c t h3, Phi_castSucc]
  by_cases hz : t.val = 0
  · rw [Phi_zero V c _ _ hz]
    iintro ⟨⟨⟨%dS, HS⟩, Hoth⟩, Ho, ⟨%d0, H0⟩, ⟨%d1, H1⟩, ⟨%d2, H2⟩, ⟨%d3, H3⟩, ⟨%d4, H4⟩, ⟨%d5, H5⟩⟩
    iapply (run_first c (grid2.coords t) ((hcondA t).mpr h0) (fun h => h3 ((hcondC t).mp h))
      (ms0 t) (hs0 t) (ms1 t) (hs1 t) (ms2 t) (hs2 t) (ms3 t) (hs3 t)
      (ms4 t) (hs4 t) (ms5 t) (hs5 t) scM (Memref.isWhole_whole _)
      (hblk V c t) (eblk V c t) (dnblk V c t) (wblk V c t) (bblk V c t) _ _ _)
    isplitl [H0 H1 H2 H3 H4 H5 HS]
    · isplitl [H0]; · iexact H0
      isplitl [H1]; · iexact H1
      isplitl [H2]; · iexact H2
      isplitl [H3]; · iexact H3
      isplitl [H4]; · iexact H4
      isplitl [H5]; · iexact H5
      iexact HS
    iintro ⟨H0, H1, H2, H3, H4, H5, HS⟩
    isplitl [HS Hoth]
    · isplitl [HS]; · iexact HS
      iexact Hoth
    isplitl [Ho]; · iexact Ho
    isplitl [H0]; · iexact H0
    isplitl [H1]; · iexact H1
    isplitl [H2]; · iexact H2
    isplitl [H3]; · iexact H3
    isplitl [H4]; · iexact H4
    iexists d5; iexact H5
  · rw [Phi_pos V c _ _ hz]
    iintro ⟨⟨HS, Hoth⟩, Ho, ⟨%d0, H0⟩, ⟨%d1, H1⟩, ⟨%d2, H2⟩, ⟨%d3, H3⟩, ⟨%d4, H4⟩, ⟨%d5, H5⟩⟩
    iapply (run_first c (grid2.coords t) ((hcondA t).mpr h0) (fun h => h3 ((hcondC t).mp h))
      (ms0 t) (hs0 t) (ms1 t) (hs1 t) (ms2 t) (hs2 t) (ms3 t) (hs3 t)
      (ms4 t) (hs4 t) (ms5 t) (hs5 t) scM (Memref.isWhole_whole _)
      (hblk V c t) (eblk V c t) (dnblk V c t) (wblk V c t) (bblk V c t) _ _ _)
    isplitl [H0 H1 H2 H3 H4 H5 HS]
    · isplitl [H0]; · iexact H0
      isplitl [H1]; · iexact H1
      isplitl [H2]; · iexact H2
      isplitl [H3]; · iexact H3
      isplitl [H4]; · iexact H4
      isplitl [H5]; · iexact H5
      iexact HS
    iintro ⟨H0, H1, H2, H3, H4, H5, HS⟩
    isplitl [HS Hoth]
    · isplitl [HS]; · iexact HS
      iexact Hoth
    isplitl [Ho]; · iexact Ho
    isplitl [H0]; · iexact H0
    isplitl [H1]; · iexact H1
    isplitl [H2]; · iexact H2
    isplitl [H3]; · iexact H3
    isplitl [H4]; · iexact H4
    iexists d5; iexact H5

/-- A middle edge tile (t ≡ 1, 2 mod 4): the accumulator grows by the point's product. -/
theorem sound_mid (c : Dev nD) (t : Fin cfg2.N) (h0 : ¬ t.val % 4 = 0) (h3 : ¬ t.val % 4 = 3) :
    bodyPre V c t
      ⊢ wp frame (wpE (defs₀ (F := F)) Variants.none c none) Set.univ (bodyAt2 t) (fun _ => bodyPost V c t) := by
  have hz : t.val ≠ 0 := fun h => h0 (by rw [h])
  unfold bodyPre bodyPost bodyAt2
  simp only [before0, before1, before2, before3, before4]
  rw [show (dat V c).owesAt () t.succ = (dat V c).owesAt () t.castSucc from rfl]
  rw [Phi_at_succ, Phi_succ, accAt_next V c t h0, leaves0, leaves1, leaves2, leaves3, leaves4,
    leaves5_idle V c t h3, Phi_castSucc, Phi_pos V c _ _ hz]
  iintro ⟨⟨HS, Hoth⟩, Ho, ⟨%d0, H0⟩, ⟨%d1, H1⟩, ⟨%d2, H2⟩, ⟨%d3, H3⟩, ⟨%d4, H4⟩, ⟨%d5, H5⟩⟩
  iapply (run_mid c (grid2.coords t) (fun h => h0 ((hcondA t).mp h)) (fun h => h3 ((hcondC t).mp h))
      (ms0 t) (hs0 t) (ms1 t) (hs1 t) (ms2 t) (hs2 t) (ms3 t) (hs3 t)
      (ms4 t) (hs4 t) (ms5 t) (hs5 t) scM (Memref.isWhole_whole _)
      (hblk V c t) (eblk V c t) (dnblk V c t) (wblk V c t) (bblk V c t) _ _ _)
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  isplitl [HS Hoth]
  · isplitl [HS]; · iexact HS
    iexact Hoth
  isplitl [Ho]; · iexact Ho
  isplitl [H0]; · iexact H0
  isplitl [H1]; · iexact H1
  isplitl [H2]; · iexact H2
  isplitl [H3]; · iexact H3
  isplitl [H4]; · iexact H4
  iexists d5; iexact H5

/-- A last edge tile (t ≡ 3 mod 4): the accumulator grows once more and the result tile is stored. -/
theorem sound_last (c : Dev nD) (t : Fin cfg2.N) (h3 : t.val % 4 = 3) :
    bodyPre V c t
      ⊢ wp frame (wpE (defs₀ (F := F)) Variants.none c none) Set.univ (bodyAt2 t) (fun _ => bodyPost V c t) := by
  have h0 : ¬ t.val % 4 = 0 := by omega
  have hz : t.val ≠ 0 := fun h => h0 (by rw [h])
  unfold bodyPre bodyPost bodyAt2
  simp only [before0, before1, before2, before3, before4]
  rw [show (dat V c).owesAt () t.succ = (dat V c).owesAt () t.castSucc from rfl]
  rw [Phi_at_succ, Phi_succ, leaves0, leaves1, leaves2, leaves3, leaves4, leaves5_live V c t h3]
  unfold outAt
  rw [accAt_next V c t h0, Phi_castSucc, Phi_pos V c _ _ hz]
  iintro ⟨⟨HS, Hoth⟩, Ho, ⟨%d0, H0⟩, ⟨%d1, H1⟩, ⟨%d2, H2⟩, ⟨%d3, H3⟩, ⟨%d4, H4⟩, ⟨%d5, H5⟩⟩
  iapply (run_last c (grid2.coords t) (fun h => h0 ((hcondA t).mp h)) ((hcondC t).mpr h3)
      (ms0 t) (hs0 t) (ms1 t) (hs1 t) (ms2 t) (hs2 t) (ms3 t) (hs3 t)
      (ms4 t) (hs4 t) (ms5 t) (hs5 t) scM (Memref.isWhole_whole _)
      (hblk V c t) (eblk V c t) (dnblk V c t) (wblk V c t) (bblk V c t) _ _ _)
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  isplitl [HS Hoth]
  · isplitl [HS]; · iexact HS
    iexact Hoth
  isplitl [Ho]; · iexact Ho
  isplitl [H0]; · iexact H0
  isplitl [H1]; · iexact H1
  isplitl [H2]; · iexact H2
  isplitl [H3]; · iexact H3
  isplitl [H4]; · iexact H4
  iexact H5

/-- The library's body obligation for this pipeline, at every point, on every core. -/
theorem body_obligation (c : Dev nD) : BodyObligation (dat V c) (defs₀ (F := F)) Variants.none () Set.univ := by
  intro t
  rw [bigSep_W2, bigSep_W2]
  by_cases h0 : t.val % 4 = 0
  · exact sound_first V c t h0
  · by_cases h3 : t.val % 4 = 3
    · exact sound_last V c t h3
    · exact sound_mid V c t h0 h3

end Cert.Kernel.R2

end
-- ==== Proof.KI.R0Data.lean ====
/-
  The first pallas_call (grid of 16 row tiles of H): the proof data of its pipeline, over the buffer contents `V` the
  region is entered from.

  At point t the body sums the H tile's rows (one number per node: the node degrees of the tile, stored to the first
  result, written back at every point) and its columns (one number per edge), which it adds to the second result's
  single staging buffer: cleared at the first point, carried from point to point, written back once at the last.
  `rowAt` is the first result's tile at a point; `colAt` the second result's buffer after point n, by recursion on n.
-/
import proofs.«125814_j23089744183324_1_alg».proof.Proof.Gen.KernelIdeal.Launch
import proofs.«125814_j23089744183324_1_alg».proof.Proof.Gen.KernelIdeal.Skeleton
import proofs.«125814_j23089744183324_1_alg».proof.Proof.Gen.KernelIdeal.Points
import Idealize.ShloMosaic.Lib.Pipeline.FrameBody
import Idealize.ShloMosaic.Lib.Pipeline.Regions
import Idealize.ShloMosaic.Lib.Pipeline.Kit
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The H tile (512 node rows, every edge column) of point `t`. -/
abbrev hblk (c : Dev nD) (t : Fin cfg0.N) : Vec F S512x4096 .f32 := iblk V c 0 t

/-! ## What the two results' buffers hold, point by point -/

/-- The node-degree tile of point `t`: the H tile's row sums. -/
def rowAt (c : Dev nD) (t : Fin cfg0.N) : Vec F S512x1 .f32 := k0_pay1 (hblk V c t)

/-- The edge-degree buffer after the body at point `n`: the tile's column sums added to zero at the first point, to
    what the point before left otherwise. -/
def colAt (c : Dev nD) : (n : ℕ) → n < cfg0.N → Vec F S1x4096 .f32
  | 0, hn => k0_pay3 (hblk V c ⟨0, hn⟩) k0_pay2
  | n + 1, hn => k0_pay3 (hblk V c ⟨n + 1, hn⟩) (colAt c n (Nat.lt_of_succ_lt hn))

theorem colAt_first (c : Dev nD) (t : Fin cfg0.N) (h : t.val = 0) :
    colAt V c t.val t.isLt = k0_pay3 (hblk V c t) k0_pay2 := by
  obtain ⟨n, hn⟩ := t
  cases n with
  | zero => rfl
  | succ n => exact absurd h (Nat.succ_ne_zero n)

theorem colAt_next (c : Dev nD) (t : Fin cfg0.N) (h : ¬ t.val = 0) :
    colAt V c t.val t.isLt = k0_pay3 (hblk V c t) (colAt V c (t.val - 1) (Nat.lt_of_le_of_lt (Nat.sub_le _ _) t.isLt)) := by
  obtain ⟨n, hn⟩ := t
  cases n with
  | zero => exact absurd rfl h
  | succ n => rfl

/-! ## The body's branch condition over the grid, in closed form -/

/-- "first point": the edge-degree buffer is cleared. -/
abbrev condA (i : grid0.Coords) : Prop :=
  (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

/-! ## No window is idle anywhere -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096 .f32 := win0_2.stage (cfg0.slots t 2)
abbrev hs2 (t : Fin cfg0.N) : (ms2 t).IsWhole := hstage0_2 ((cfg0.slots t 2).cast nbuf0_2)

/-! ## The proof data -/

/-- The pipeline's proof data on core `c`: the arrays as the region finds them; after the body the input's buffer at
    its block, the results' at `rowAt` and `colAt`; the invariant the scoped buffers that are no staging buffer of
    this call, at anything (the body names none of them); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => rowAt V c t
    | ⟨2, _⟩ => colAt V c t.val t.isLt
  Φ _ := Pipeline.scopedRest (Ix := Unit) (Name := ℕ) (U := UR sig nD τ) (Lvl := ℕ) (Val := Elt F) spec0 c
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = rowAt V c t := by dsimp only [dat]
theorem after2 (c : Dev nD) (t : Fin cfg0.N) : (dat V c).after 2 t = colAt V c t.val t.isLt := by dsimp only [dat]

/-- The input's current staging buffer holds its block at every point. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

end Cert.KernelIdeal.R0

end
-- ==== Proof.KI.R1Data.lean ====
/-
  The second pallas_call (grid 4 × 4: edge tile, then node tile): the proof data of its pipeline, over the buffer
  contents `V` the region is entered from.

  At point t = 4·(edge tile) + (node tile) the body multiplies the node tile's rows of x by the node scale, contracts
  them with the H tile over the node axis, and adds the product to a scratch accumulator that it clears at the first node
  tile of each edge tile; at the last node tile it scales the accumulator's rows by the edge scale and stores the result
  tile. `accAt` is the accumulator after point n, by recursion on n; `outAt` the result tile a point would store.
-/
import proofs.«125814_j23089744183324_1_alg».proof.Proof.Gen.KernelIdeal.Launch
import proofs.«125814_j23089744183324_1_alg».proof.Proof.Gen.KernelIdeal.Skeleton
import proofs.«125814_j23089744183324_1_alg».proof.Proof.Gen.KernelIdeal.Points
import Idealize.ShloMosaic.Lib.Pipeline.FrameBody
import Idealize.ShloMosaic.Lib.Pipeline.Regions
import Idealize.ShloMosaic.Lib.Pipeline.Kit
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The H tile (node rows × edge columns), the x tile, the node-scale tile and the edge-scale tile of point `t`. -/
abbrev hblk (c : Dev nD) (t : Fin cfg1.N) : Vec F S2048x1024 .f32 := iblk V c 0 t
abbrev xblk (c : Dev nD) (t : Fin cfg1.N) : Vec F S2048x256 .f32 := iblk V c 1 t
abbrev dnblk (c : Dev nD) (t : Fin cfg1.N) : Vec F S2048x1 .f32 := iblk V c 2 t
abbrev deblk (c : Dev nD) (t : Fin cfg1.N) : Vec F S1024x1 .f32 := iblk V c 3 t

/-! ## The accumulator, point by point -/

/-- The scratch accumulator after the body at point `n`: the point's product added to zero at the first node tile of
    an edge tile (n ≡ 0 mod 4), to what the point before left otherwise. -/
def accAt (c : Dev nD) : (n : ℕ) → n < cfg1.N → Vec F S1024x256 .f32
  | 0, hn => k1_pay2 (hblk V c ⟨0, hn⟩) (xblk V c ⟨0, hn⟩) (dnblk V c ⟨0, hn⟩) k1_pay1
  | n + 1, hn => k1_pay2 (hblk V c ⟨n + 1, hn⟩) (xblk V c ⟨n + 1, hn⟩) (dnblk V c ⟨n + 1, hn⟩)
      (if (n + 1) % 4 = 0 then k1_pay1 else accAt c n (Nat.lt_of_succ_lt hn))

theorem accAt_first (c : Dev nD) (t : Fin cfg1.N) (h : t.val % 4 = 0) :
    accAt V c t.val t.isLt = k1_pay2 (hblk V c t) (xblk V c t) (dnblk V c t) k1_pay1 := by
  obtain ⟨n, hn⟩ := t
  cases n with
  | zero => rfl
  | succ n => simp only [accAt]; rw [if_pos h]

theorem accAt_next (c : Dev nD) (t : Fin cfg1.N) (h : ¬ t.val % 4 = 0) :
    accAt V c t.val t.isLt = k1_pay2 (hblk V c t) (xblk V c t) (dnblk V c t)
      (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-- The result tile the body stores at a last node tile: the accumulator's rows scaled by the edge scale. -/
def outAt (c : Dev nD) (t : Fin cfg1.N) : Vec F S1024x256 .f32 :=
  k1_pay3 (accAt V c t.val t.isLt) (deblk V c t)

/-! ## The body's two branch conditions over the grid, in closed form -/

/-- "first node tile": the accumulator is cleared. -/
abbrev condA (i : grid1.Coords) : Prop :=
  (Scalar.cmpi .ne (Scalar.extui (Scalar.cmpi .eq (BitVec.ofNat 32 (i 1).val) 0#32)) 0#32) = 1#1
theorem hcondA : ∀ t : Fin cfg1.N, condA (grid1.coords t) ↔ t.val % 4 = 0 :=
  (by decide +kernel : ∀ t : Fin grid1.N, condA (grid1.coords t) ↔ t.val % 4 = 0)
/-- "last node tile": the result tile is stored. -/
abbrev condC (i : grid1.Coords) : Prop := k1_cond2 i = 1#1
theorem hcondC : ∀ t : Fin cfg1.N, condC (grid1.coords t) ↔ t.val % 4 = 3 :=
  (by decide +kernel : ∀ t : Fin grid1.N, condC (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- The result window is idle, and not written back, away from the last node tile; live at it. -/
theorem idle4 : ∀ t : Fin cfg1.N, ¬ t.val % 4 = 3 → cfg1.idle 4 (grid1.coords t) = true := by decide +kernel
theorem noFlush4 : ∀ t : Fin cfg1.N, ¬ t.val % 4 = 3 → (cfg1.win 4).flush t = false := by decide +kernel
theorem live4 : ∀ t : Fin cfg1.N, t.val % 4 = 3 → cfg1.idle 4 (grid1.coords t) = false := by decide +kernel

/-! ## The memrefs the body is called with -/

abbrev ms0 (t : Fin cfg1.N) : Memref sig .tc .vmem S2048x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x256 .f32 := win1_4.stage (cfg1.slots t 4)
abbrev hs4 (t : Fin cfg1.N) : (ms4 t).IsWhole := hstage1_4 ((cfg1.slots t 4).cast nbuf1_4)
/-- The scratch accumulator: a whole scoped buffer of the kernel's own. -/
abbrev scM : Memref sig .tc .vmem S1024x256 .f32 := Memref.whole cc1_scratch0

/-! ## The invariant between points -/

/-- The scoped buffers that are neither a staging buffer of this call nor its accumulator. -/
abbrev otherRefs : List (Ref sig .tc) :=
  [cc0_stg0_0, cc0_stg0_1, cc0_stg1_0, cc0_stg1_1, cc0_stg2_0, cc2_stg0_0, cc2_stg0_1, cc2_stg1_0, cc2_stg1_1,
   cc2_stg2_0, cc2_stg2_1, cc2_stg3_0, cc2_stg4_0, cc2_stg5_0, cc2_stg5_1, cc2_scratch0]
/-- Each of them whole at some contents. -/
def others (c : Dev nD) : sProp 𝕄 :=
  bigSepL otherRefs fun b => iprop(∃ f : Buf (Elt F) ((c : Thread nD τ).loc b), ((c : Thread nD τ).loc b) ↦{fullShare} f)

/-- The call's scoped rest is the accumulator at some contents beside the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ others c) := by
  rw [Pipeline.scopedRest_eq_of_list spec1 c (cc1_scratch0 :: otherRefs) (by decide) (by decide)]
  simp only [scM, owns_whole]; rfl

/-- Before point `n`: at the first point the scoped rest as the region boundary leaves it; afterwards the accumulator
    at what the point before left, the others at anything. -/
def Phi (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM fullShare (accAt V c n hn) ∗ others c)

theorem Phi_zero (c : Dev nD) (n : ℕ) (h : n ≤ cfg1.N) (hz : n = 0) :
    Phi V c n h = iprop((∃ d, owns (c : Thread nD τ) scM fullShare d) ∗ others c) := by
  subst hz; exact scopedRest_split c
theorem Phi_succ (c : Dev nD) (n : ℕ) (hn : n < cfg1.N) :
    Phi V c (n + 1) hn = iprop(owns (c : Thread nD τ) scM fullShare (accAt V c n hn) ∗ others c) := rfl
theorem Phi_pos (c : Dev nD) (n : ℕ) (h : n ≤ cfg1.N) (hz : n ≠ 0) :
    Phi V c n h = iprop(owns (c : Thread nD τ) scM fullShare (accAt V c (n - 1) (by omega)) ∗ others c) := by
  cases n with
  | zero => exact absurd rfl hz
  | succ n => rfl

/-! ## The proof data -/

/-- The pipeline's proof data on core `c`: the arrays as the region finds them; after the body each input's buffer at
    its block, the result's at `outAt`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = Phi V c t.val (Nat.le_of_lt t.isLt) := by
  dsimp only [dat]; simp only [Fin.coe_castSucc]
theorem Phi_at_succ (c : Dev nD) (t : Fin cfg1.N) : (dat V c).Φ t.succ = Phi V c (t.val + 1) t.isLt := rfl
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outAt V c t := by dsimp only [dat]

/-- Each input's current staging buffer holds its block at every point, fetched there or not (an unfetched window's
    block index has not moved since its last fetch). -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.R1

end
-- ==== Proof.KI.R2Data.lean ====
/-
  The third pallas_call (grid 4 × 4: node tile, then edge tile): the proof data of its pipeline, over the buffer
  contents `V` the region is entered from.

  At point t = 4·(node tile) + (edge tile) the body contracts the H tile with the edge-feature tile over the edge axis
  and adds the product to a scratch accumulator that it clears at the first edge tile of each node tile; at the last edge
  tile it scales the accumulator's rows by the node scale, applies the dense layer (contracting with W over the feature
  axis, adding the bias row) and stores the result tile. `accAt` is the accumulator after point n, by recursion on n;
  `outAt` the result tile a point would store.
-/
import proofs.«125814_j23089744183324_1_alg».proof.Proof.Gen.KernelIdeal.Launch
import proofs.«125814_j23089744183324_1_alg».proof.Proof.Gen.KernelIdeal.Skeleton
import proofs.«125814_j23089744183324_1_alg».proof.Proof.Gen.KernelIdeal.Points
import Idealize.ShloMosaic.Lib.Pipeline.FrameBody
import Idealize.ShloMosaic.Lib.Pipeline.Regions
import Idealize.ShloMosaic.Lib.Pipeline.Kit
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The H tile (node rows × edge columns), the edge-feature tile, the node-scale tile, the weight matrix and the bias
    row of point `t`. -/
abbrev hblk (c : Dev nD) (t : Fin cfg2.N) : Vec F S2048x1024 .f32 := iblk V c 0 t
abbrev eblk (c : Dev nD) (t : Fin cfg2.N) : Vec F S1024x256 .f32 := iblk V c 1 t
abbrev dnblk (c : Dev nD) (t : Fin cfg2.N) : Vec F S2048x1 .f32 := iblk V c 2 t
abbrev wblk (c : Dev nD) (t : Fin cfg2.N) : Vec F S256x256 .f32 := iblk V c 3 t
abbrev bblk (c : Dev nD) (t : Fin cfg2.N) : Vec F S1x256 .f32 := iblk V c 4 t

/-! ## The accumulator, point by point -/

/-- The scratch accumulator after the body at point `n`: the point's product added to zero at the first edge tile of
    a node tile (n ≡ 0 mod 4), to what the point before left otherwise. -/
def accAt (c : Dev nD) : (n : ℕ) → n < cfg2.N → Vec F S2048x256 .f32
  | 0, hn => k2_pay2 (hblk V c ⟨0, hn⟩) (eblk V c ⟨0, hn⟩) k2_pay1
  | n + 1, hn => k2_pay2 (hblk V c ⟨n + 1, hn⟩) (eblk V c ⟨n + 1, hn⟩)
      (if (n + 1) % 4 = 0 then k2_pay1 else accAt c n (Nat.lt_of_succ_lt hn))

theorem accAt_first (c : Dev nD) (t : Fin cfg2.N) (h : t.val % 4 = 0) :
    accAt V c t.val t.isLt = k2_pay2 (hblk V c t) (eblk V c t) k2_pay1 := by
  obtain ⟨n, hn⟩ := t
  cases n with
  | zero => rfl
  | succ n => simp only [accAt]; rw [if_pos h]

theorem accAt_next (c : Dev nD) (t : Fin cfg2.N) (h : ¬ t.val % 4 = 0) :
    accAt V c t.val t.isLt = k2_pay2 (hblk V c t) (eblk V c t)
      (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-- The result tile the body stores at a last edge tile: the accumulator's rows scaled by the node scale, through the
    dense layer. -/
def outAt (c : Dev nD) (t : Fin cfg2.N) : Vec F S2048x256 .f32 :=
  k2_pay3 (accAt V c t.val t.isLt) (dnblk V c t) (wblk V c t) (bblk V c t)

/-! ## The body's two branch conditions over the grid, in closed form -/

/-- "first edge tile": the accumulator is cleared. -/
abbrev condA (i : grid2.Coords) : Prop :=
  (Scalar.cmpi .ne (Scalar.extui (Scalar.cmpi .eq (BitVec.ofNat 32 (i 1).val) 0#32)) 0#32) = 1#1
theorem hcondA : ∀ t : Fin cfg2.N, condA (grid2.coords t) ↔ t.val % 4 = 0 :=
  (by decide +kernel : ∀ t : Fin grid2.N, condA (grid2.coords t) ↔ t.val % 4 = 0)
/-- "last edge tile": the result tile is stored. -/
abbrev condC (i : grid2.Coords) : Prop := k2_cond2 i = 1#1
theorem hcondC : ∀ t : Fin cfg2.N, condC (grid2.coords t) ↔ t.val % 4 = 3 :=
  (by decide +kernel : ∀ t : Fin grid2.N, condC (grid2.coords t) ↔ t.val % 4 = 3)

/-! ## Where the windows are idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem live4 : ∀ t : Fin cfg2.N, cfg2.idle 4 (grid2.coords t) = false := by decide +kernel
/-- The result window is idle, and not written back, away from the last edge tile; live at it. -/
theorem idle5 : ∀ t : Fin cfg2.N, ¬ t.val % 4 = 3 → cfg2.idle 5 (grid2.coords t) = true := by decide +kernel
theorem noFlush5 : ∀ t : Fin cfg2.N, ¬ t.val % 4 = 3 → (cfg2.win 5).flush t = false := by decide +kernel
theorem live5 : ∀ t : Fin cfg2.N, t.val % 4 = 3 → cfg2.idle 5 (grid2.coords t) = false := by decide +kernel

/-! ## The memrefs the body is called with -/

abbrev ms0 (t : Fin cfg2.N) : Memref sig .tc .vmem S2048x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2048x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S256x256 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x256 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S2048x256 .f32 := win2_5.stage (cfg2.slots t 5)
abbrev hs5 (t : Fin cfg2.N) : (ms5 t).IsWhole := hstage2_5 ((cfg2.slots t 5).cast nbuf2_5)
/-- The scratch accumulator: a whole scoped buffer of the kernel's own. -/
abbrev scM : Memref sig .tc .vmem S2048x256 .f32 := Memref.whole cc2_scratch0

/-! ## The invariant between points -/

/-- The scoped buffers that are neither a staging buffer of this call nor its accumulator. -/
abbrev otherRefs : List (Ref sig .tc) :=
  [cc0_stg0_0, cc0_stg0_1, cc0_stg1_0, cc0_stg1_1, cc0_stg2_0, cc1_stg0_0, cc1_stg0_1, cc1_stg1_0, cc1_stg1_1,
   cc1_stg2_0, cc1_stg2_1, cc1_stg3_0, cc1_stg3_1, cc1_stg4_0, cc1_stg4_1, cc1_scratch0]
/-- Each of them whole at some contents. -/
def others (c : Dev nD) : sProp 𝕄 :=
  bigSepL otherRefs fun b => iprop(∃ f : Buf (Elt F) ((c : Thread nD τ).loc b), ((c : Thread nD τ).loc b) ↦{fullShare} f)

/-- The call's scoped rest is the accumulator at some contents beside the others. -/
theorem scopedRest_split (c : Dev nD) :
    (Pipeline.scopedRest (Ix := Unit) (Name := ℕ) (U := UR sig nD τ) (Lvl := ℕ) (Val := Elt F) spec2 c : sProp 𝕄)
      = iprop((∃ d, owns (c : Thread nD τ) scM fullShare d) ∗ others c) := by
  rw [Pipeline.scopedRest_eq_of_list spec2 c (cc2_scratch0 :: otherRefs) (by decide) (by decide)]
  simp only [scM, owns_whole]; rfl

/-- Before point `n`: at the first point the scoped rest as the region boundary leaves it; afterwards the accumulator
    at what the point before left, the others at anything. -/
def Phi (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) scM fullShare (accAt V c n hn) ∗ others c)

theorem Phi_zero (c : Dev nD) (n : ℕ) (h : n ≤ cfg2.N) (hz : n = 0) :
    Phi V c n h = iprop((∃ d, owns (c : Thread nD τ) scM fullShare d) ∗ others c) := by
  subst hz; exact scopedRest_split c
theorem Phi_succ (c : Dev nD) (n : ℕ) (hn : n < cfg2.N) :
    Phi V c (n + 1) hn = iprop(owns (c : Thread nD τ) scM fullShare (accAt V c n hn) ∗ others c) := rfl
theorem Phi_pos (c : Dev nD) (n : ℕ) (h : n ≤ cfg2.N) (hz : n ≠ 0) :
    Phi V c n h = iprop(owns (c : Thread nD τ) scM fullShare (accAt V c (n - 1) (by omega)) ∗ others c) := by
  cases n with
  | zero => exact absurd rfl hz
  | succ n => rfl

/-! ## The proof data -/

/-- The pipeline's proof data on core `c`: the arrays as the region finds them; after the body each input's buffer at
    its block, the result's at `outAt`; the invariant `Phi`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := Phi V c t.val (Nat.le_of_lt_succ t.isLt)
  q _ := fullShare
  owed _ := 0

theorem A_eq (c : Dev nD) (w : Fin cfg2.W) : (dat V c).A w = V c (Pipeline.arrRef spec2 w) := by dsimp only [dat]
theorem Phi_castSucc (c : Dev nD) (t : Fin cfg2.N) : (dat V c).Φ t.castSucc = Phi V c t.val (Nat.le_of_lt t.isLt) := by
  dsimp only [dat]; simp only [Fin.coe_castSucc]
theorem Phi_at_succ (c : Dev nD) (t : Fin cfg2.N) : (dat V c).Φ t.succ = Phi V c (t.val + 1) t.isLt := rfl
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) : (dat V c).after 5 t = outAt V c t := by dsimp only [dat]

/-- Each input's current staging buffer holds its block at every point, fetched there or not (an unfetched window's
    block index has not moved since its last fetch). -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg2.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg2.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.KernelIdeal.R2

end
-- ==== Proof.KI.Family.lean ====
/-
  The three pallas_calls together: what each leaves in the buffers it may change, staged in program order; the proof
  data of the three pipelines, each at the contents its region is entered from; and each region as a segment of @main
  between two thread states "every unscoped buffer at the boundary's contents, the generator register at some state,
  nothing owed".
-/
import proofs.«125814_j23089744183324_1_alg».proof.Proof.KI.R0Data
import proofs.«125814_j23089744183324_1_alg».proof.Proof.KI.R1Data
import proofs.«125814_j23089744183324_1_alg».proof.Proof.KI.R2Data
import proofs.«125814_j23089744183324_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references. -/
abbrev rd (W : Dev nD → Valuation τ sig (Elt F)) (c : Dev nD) (b : Ref sig .tc) : Buf (Elt F) ((c : Thread nD τ).loc b) := W c b

/-! ## What the regions leave, in program order -/

/-- The first pipeline's proof data, at the launch contents. -/
def dat0 (c : Dev nD) : Dat τ (Elt F) Unit ℕ (UR sig nD τ) ℕ cfg0 c := R0.dat (rd (Gen.V0 m)) c
/-- After the first region: its arrays at what its write-backs leave. -/
def outs1 : Gen.Outs (F := F) := fun _ r c =>
  Pipeline.withArrays spec0 c (Gen.V0 m c) (fun w => (dat0 m c).arrAt w cfg0.N) r
/-- The second pipeline's proof data, at the contents after the host lines that follow the first region. -/
def dat1 (c : Dev nD) : Dat τ (Elt F) Unit ℕ (UR sig nD τ) ℕ cfg1 c := R1.dat (rd (Gen.V5 m (outs1 m))) c
/-- After the second region. -/
def outs2 : Gen.Outs (F := F) := fun j r c =>
  match j with
  | 1 => outs1 m 1 r c
  | _ => Pipeline.withArrays spec1 c (Gen.V5 m (outs1 m) c) (fun w => (dat1 m c).arrAt w cfg1.N) r
/-- The third pipeline's proof data, at the contents after the bias row's reshape. -/
def dat2 (c : Dev nD) : Dat τ (Elt F) Unit ℕ (UR sig nD τ) ℕ cfg2 c := R2.dat (rd (Gen.V7 m (outs2 m))) c
/-- After the third region: what every region leaves, by the item it is read at. -/
def outs : Gen.Outs (F := F) := fun j r c =>
  match j with
  | 1 => outs1 m 1 r c
  | 6 => outs2 m 6 r c
  | _ => Pipeline.withArrays spec2 c (Gen.V7 m (outs2 m) c) (fun w => (dat2 m c).arrAt w cfg2.N) r

/-- The boundary contents do not depend on the later stages. -/
theorem V1_eq (c : Dev nD) : Gen.V1 m (outs m) c = Gen.V1 m (outs1 m) c := rfl
theorem V5_eq (c : Dev nD) : Gen.V5 m (outs m) c = Gen.V5 m (outs1 m) c := rfl
theorem V5_eq2 (c : Dev nD) : Gen.V5 m (outs2 m) c = Gen.V5 m (outs1 m) c := rfl
theorem V6_eq (c : Dev nD) : Gen.V6 m (outs m) c = Gen.V6 m (outs2 m) c := rfl
theorem V7_eq (c : Dev nD) : Gen.V7 m (outs m) c = Gen.V7 m (outs2 m) c := rfl

/-- Every pipeline's proof data, each at its region's entry contents: a literal match on the pipeline. -/
def pdats : (p : Fin 3) → (c : Dev nD) → Dat τ (Elt F) Unit ℕ (UR sig nD τ) ℕ (cfgs p) c
  | ⟨0, _⟩ => fun c => dat0 m c
  | ⟨1, _⟩ => fun c => dat1 m c
  | ⟨2, _⟩ => fun c => dat2 m c

/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)

/-! ## Each region's arrays at its exit are the next boundary's contents; every other buffer is as entered -/

theorem hF0 (c : Dev nD) (w : Fin cfg0.W) : (pdats m 0 c).arrAt w cfg0.N = rd (Gen.V1 m (outs1 m)) c (Pipeline.arrRef spec0 w) := by
  match w with
  | ⟨0, _⟩ => exact ((dat0 m c).arrAt_in 0 rfl _).trans (Gen.V1_of m (outs1 m) c main_arg1 (by decide)).symm
  | ⟨1, _⟩ =>
    show _ = Function.update (Function.update (Gen.V0 m c) main_v0_0 (outs1 m 1 main_v0_0 c)) main_v0_1 (outs1 m 1 main_v0_1 c) main_v0_0
    rw [Function.update_of_ne (StableHlo.devRef_ne_of_ne (by decide) : (Proc.devRef .tc main_v0_0 : DevRef τ sig) ≠ Proc.devRef .tc main_v0_1), Function.update_self]
    show (dat0 m c).arrAt 1 cfg0.N = Pipeline.withArrays spec0 c (Gen.V0 m c) (fun w => (dat0 m c).arrAt w cfg0.N) (Proc.devRef .tc (Pipeline.arrRef spec0 1))
    exact (Pipeline.withArrays_arr spec0 launch0.win.arr_inj c (Gen.V0 m c) (fun w => (dat0 m c).arrAt w cfg0.N) 1).symm
  | ⟨2, _⟩ =>
    show _ = Function.update (Function.update (Gen.V0 m c) main_v0_0 (outs1 m 1 main_v0_0 c)) main_v0_1 (outs1 m 1 main_v0_1 c) main_v0_1
    rw [Function.update_self]
    show (dat0 m c).arrAt 2 cfg0.N = Pipeline.withArrays spec0 c (Gen.V0 m c) (fun w => (dat0 m c).arrAt w cfg0.N) (Proc.devRef .tc (Pipeline.arrRef spec0 2))
    exact (Pipeline.withArrays_arr spec0 launch0.win.arr_inj c (Gen.V0 m c) (fun w => (dat0 m c).arrAt w cfg0.N) 2).symm

theorem hrest0 (c : Dev nD) : ∀ b, b ∉ Finset.univ.image (Pipeline.arrRef spec0) → rd (Gen.V1 m (outs1 m)) c b = rd (Gen.V0 m) c b :=
  fun b hb => Gen.V1_of m (outs1 m) c b (by
    intro h
    simp only [List.mem_cons, List.not_mem_nil, or_false] at h
    rcases h with rfl | rfl
    · exact hb (Finset.mem_image.mpr ⟨1, Finset.mem_univ _, rfl⟩)
    · exact hb (Finset.mem_image.mpr ⟨2, Finset.mem_univ _, rfl⟩))

theorem hF1 (c : Dev nD) (w : Fin cfg1.W) : (pdats m 1 c).arrAt w cfg1.N = rd (Gen.V6 m (outs2 m)) c (Pipeline.arrRef spec1 w) := by
  match w with
  | ⟨0, _⟩ => exact ((dat1 m c).arrAt_in 0 rfl _).trans (Gen.V6_of m (outs2 m) c main_arg1 (by decide)).symm
  | ⟨1, _⟩ => exact ((dat1 m c).arrAt_in 1 rfl _).trans (Gen.V6_of m (outs2 m) c main_arg0 (by decide)).symm
  | ⟨2, _⟩ => exact ((dat1 m c).arrAt_in 2 rfl _).trans (Gen.V6_of m (outs2 m) c main_v7 (by decide)).symm
  | ⟨3, _⟩ => exact ((dat1 m c).arrAt_in 3 rfl _).trans (Gen.V6_of m (outs2 m) c main_v14 (by decide)).symm
  | ⟨4, _⟩ =>
    show _ = Function.update (Gen.V5 m (outs2 m) c) main_v15 (outs2 m 6 main_v15 c) main_v15
    rw [Function.update_self]
    show (dat1 m c).arrAt 4 cfg1.N = Pipeline.withArrays spec1 c (Gen.V5 m (outs1 m) c) (fun w => (dat1 m c).arrAt w cfg1.N) (Proc.devRef .tc (Pipeline.arrRef spec1 4))
    exact (Pipeline.withArrays_arr spec1 launch1.win.arr_inj c (Gen.V5 m (outs1 m) c) (fun w => (dat1 m c).arrAt w cfg1.N) 4).symm

theorem hrest1 (c : Dev nD) : ∀ b, b ∉ Finset.univ.image (Pipeline.arrRef spec1) → rd (Gen.V6 m (outs2 m)) c b = rd (Gen.V5 m (outs1 m)) c b :=
  fun b hb => Gen.V6_of m (outs2 m) c b (by
    intro h
    simp only [List.mem_cons, List.not_mem_nil, or_false] at h
    subst h
    exact hb (Finset.mem_image.mpr ⟨4, Finset.mem_univ _, rfl⟩))

theorem hF2 (c : Dev nD) (w : Fin cfg2.W) : (pdats m 2 c).arrAt w cfg2.N = rd (Gen.V8 m (outs m)) c (Pipeline.arrRef spec2 w) := by
  match w with
  | ⟨0, _⟩ => exact ((dat2 m c).arrAt_in 0 rfl _).trans (Gen.V8_of m (outs m) c main_arg1 (by decide)).symm
  | ⟨1, _⟩ => exact ((dat2 m c).arrAt_in 1 rfl _).trans (Gen.V8_of m (outs m) c main_v15 (by decide)).symm
  | ⟨2, _⟩ => exact ((dat2 m c).arrAt_in 2 rfl _).trans (Gen.V8_of m (outs m) c main_v7 (by decide)).symm
  | ⟨3, _⟩ => exact ((dat2 m c).arrAt_in 3 rfl _).trans (Gen.V8_of m (outs m) c main_arg2 (by decide)).symm
  | ⟨4, _⟩ => exact ((dat2 m c).arrAt_in 4 rfl _).trans (Gen.V8_of m (outs m) c main_v16 (by decide)).symm
  | ⟨5, _⟩ =>
    show _ = Function.update (Gen.V7 m (outs m) c) main_v17 (outs m 8 main_v17 c) main_v17
    rw [Function.update_self]
    show (dat2 m c).arrAt 5 cfg2.N = Pipeline.withArrays spec2 c (Gen.V7 m (outs2 m) c) (fun w => (dat2 m c).arrAt w cfg2.N) (Proc.devRef .tc (Pipeline.arrRef spec2 5))
    exact (Pipeline.withArrays_arr spec2 launch2.win.arr_inj c (Gen.V7 m (outs2 m) c) (fun w => (dat2 m c).arrAt w cfg2.N) 5).symm

theorem hrest2 (c : Dev nD) : ∀ b, b ∉ Finset.univ.image (Pipeline.arrRef spec2) → rd (Gen.V8 m (outs m)) c b = rd (Gen.V7 m (outs2 m)) c b :=
  fun b hb => Gen.V8_of m (outs m) c b (by
    intro h
    simp only [List.mem_cons, List.not_mem_nil, or_false] at h
    subst h
    exact hb (Finset.mem_image.mpr ⟨5, Finset.mem_univ _, rfl⟩))

/-! ## After its last point each invariant gives the call's scoped rest back -/

theorem Phi_last0 (c : Dev nD) : (pdats m 0 c).Φ (Fin.last cfg0.N)
    ⊢ (Pipeline.scopedRest (Ix := Unit) (Name := ℕ) (U := UR sig nD τ) (Lvl := ℕ) (Val := Elt F) spec0 c : sProp 𝕄) := .rfl

theorem Phi_last1 (c : Dev nD) : (pdats m 1 c).Φ (Fin.last cfg1.N)
    ⊢ (Pipeline.scopedRest (Ix := Unit) (Name := ℕ) (U := UR sig nD τ) (Lvl := ℕ) (Val := Elt F) spec1 c : sProp 𝕄) := by
  rw [show (pdats m 1 c).Φ (Fin.last cfg1.N) = R1.Phi (rd (Gen.V5 m (outs1 m))) c (Fin.last cfg1.N).val (Nat.le_of_lt_succ (Fin.last cfg1.N).isLt) from rfl,
    R1.Phi_pos _ c _ _ (by rw [Fin.val_last]; have : cfg1.N = 16 := N_1; omega), R1.scopedRest_split]
  iintro ⟨Hs, Ho⟩
  isplitl [Hs]; · iexists _; iexact Hs
  iexact Ho

theorem Phi_last2 (c : Dev nD) : (pdats m 2 c).Φ (Fin.last cfg2.N)
    ⊢ (Pipeline.scopedRest (Ix := Unit) (Name := ℕ) (U := UR sig nD τ) (Lvl := ℕ) (Val := Elt F) spec2 c : sProp 𝕄) := by
  rw [show (pdats m 2 c).Φ (Fin.last cfg2.N) = R2.Phi (rd (Gen.V7 m (outs2 m))) c (Fin.last cfg2.N).val (Nat.le_of_lt_succ (Fin.last cfg2.N).isLt) from rfl,
    R2.Phi_pos _ c _ _ (by rw [Fin.val_last]; have : cfg2.N = 16 := N_2; omega), R2.scopedRest_split]
  iintro ⟨Hs, Ho⟩
  isplitl [Hs]; · iexists _; iexact Hs
  iexact Ho

/-! ## The regions as segments -/

-- a library lemma stated over the pinned configuration unifies with the printed one only when unification may unfold
-- plain definitions in a metavariable's type
set_option backward.isDefEq.respectTransparency.types false in
/-- Pallas_call 0 as a segment: entered from every unscoped buffer at `Gen.V0 m`, left at `Gen.V1 m (outs1 m)`. Its arrays are split
    out of the unscoped buffers and put back at what the write-backs leave; the generator register and the other
    unscoped buffers pass by; the scoped rest is the invariant's; nothing is owed; the kernel has no semaphore of its own.
    The body obligation is a hypothesis here. -/
def reg0 (hb : ∀ c : Dev nD, BodyObligation (dat0 m c) (defs₀ (F := F)) Variants.none () Set.univ) :
    Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V0 m c) ∗ Rst c)
  post c := iprop(StableHlo.held (c : Thread nD τ) (Pipeline.ucRefs τ sig) (Gen.V1 m (outs1 m) c) ∗ Rst c)
  X c := iprop(emp)
  Y c := iprop(emp)
  Z c := iprop(Pipeline.unscopedRest (Ix := Unit) (Name := ℕ) (U := UR sig nD τ) (Lvl := ℕ) spec0 c (rd (Gen.V0 m) c) ∗ ∃ r, prngReg c r)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (rd (Gen.V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none]
    refine (Phi_last0 m c).trans ?_
    iintro Hr
    isplitr; · iempintro
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (rd (Gen.V0 m) c) (rd (Gen.V1 m (outs1 m)) c) ((pdats m 0 c).arrAt · cfg0.N) (hF0 m c) (hrest0 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 1 as a segment: entered from every unscoped buffer at `Gen.V5 m (outs1 m)`, left at `Gen.V6 m (outs2 m)`. Its arrays are split
    out of the unscoped buffers and put back at what the write-backs leave; the generator register and the other
    unscoped buffers pass by; the scoped rest is the invariant's; nothing is owed; the kernel has no semaphore of its own. -/
def reg1 (hb : ∀ c : Dev nD, BodyObligation (dat1 m c) (defs₀ (F := F)) Variants.none () Set.univ) :
    Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V5 m (outs1 m) c) ∗ Rst c)
  post c := iprop(StableHlo.held (c : Thread nD τ) (Pipeline.ucRefs τ sig) (Gen.V6 m (outs2 m) c) ∗ Rst c)
  X c := iprop(emp)
  Y c := iprop(emp)
  Z c := iprop(Pipeline.unscopedRest (Ix := Unit) (Name := ℕ) (U := UR sig nD τ) (Lvl := ℕ) spec1 c (rd (Gen.V5 m (outs1 m)) c) ∗ ∃ r, prngReg c r)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (rd (Gen.V5 m (outs1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Pipeline.scopedRest (Ix := Unit) (Name := ℕ) (U := UR sig nD τ) (Lvl := ℕ) (Val := Elt F) spec1 c from rfl]
    iintro ⟨-, -, Hr⟩
    iexact Hr
  hout c := by
    rw [Pipeline.ownSems0_none]
    refine (Phi_last1 m c).trans ?_
    iintro Hr
    isplitr; · iempintro
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (rd (Gen.V5 m (outs1 m)) c) (rd (Gen.V6 m (outs2 m)) c) ((pdats m 1 c).arrAt · cfg1.N) (hF1 m c) (hrest1 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 2 as a segment: entered from every unscoped buffer at `Gen.V7 m (outs2 m)`, left at `Gen.V8 m (outs m)`. Its arrays are split
    out of the unscoped buffers and put back at what the write-backs leave; the generator register and the other
    unscoped buffers pass by; the scoped rest is the invariant's; nothing is owed; the kernel has no semaphore of its own. -/
def reg2 (hb : ∀ c : Dev nD, BodyObligation (dat2 m c) (defs₀ (F := F)) Variants.none () Set.univ) :
    Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (Gen.V7 m (outs2 m) c) ∗ Rst c)
  post c := iprop(StableHlo.held (c : Thread nD τ) (Pipeline.ucRefs τ sig) (Gen.V8 m (outs m) c) ∗ Rst c)
  X c := iprop(emp)
  Y c := iprop(emp)
  Z c := iprop(Pipeline.unscopedRest (Ix := Unit) (Name := ℕ) (U := UR sig nD τ) (Lvl := ℕ) spec2 c (rd (Gen.V7 m (outs2 m)) c) ∗ ∃ r, prngReg c r)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (rd (Gen.V7 m (outs2 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = Pipeline.scopedRest (Ix := Unit) (Name := ℕ) (U := UR sig nD τ) (Lvl := ℕ) (Val := Elt F) spec2 c from rfl]
    iintro ⟨-, -, Hr⟩
    iexact Hr
  hout c := by
    rw [Pipeline.ownSems0_none]
    refine (Phi_last2 m c).trans ?_
    iintro Hr
    isplitr; · iempintro
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (rd (Gen.V7 m (outs2 m)) c) (rd (Gen.V8 m (outs m)) c) ((pdats m 2 c).arrAt · cfg2.N) (hF2 m c) (hrest2 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Fam

end
-- ==== Proof.KI.Run.lean ====
/-
  The run of @main with the three regions' records: from any memory with zero counters every weakly fair execution
  terminates, nothing faulting, and the final memory holds every unscoped buffer of the TensorCore at the last
  boundary's contents — so each argument as launched, and the result buffer at what the third region's write-backs
  leave. The body obligations of the three pipelines are hypotheses here.
-/
import proofs.«125814_j23089744183324_1_alg».proof.Proof.KI.Family

set_option maxRecDepth 16384

noncomputable section

namespace Cert.KernelIdeal.Fam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last link of the chain: the third region's exit state, the generator register dropped, is the last boundary's
    buffers beside a core that owes nothing. -/
theorem last_link (c : Dev nD) :
    (iprop(StableHlo.held (c : Thread nD τ) (Pipeline.ucRefs τ sig) (Gen.V8 m (outs m) c) ∗ Rst c) : sProp 𝕄)
      ⊢ iprop(StableHlo.held (c : Thread nD τ) (Pipeline.ucRefs τ sig) (Gen.V8 m (outs m) c) ∗ ∃ W, owes (c : Thread nD τ) (0 : CellTallies nD τ sig Unit) W) := by
  iintro ⟨Hh, -, HO⟩
  isplitl [Hh]; · iexact Hh
  iexact HO

-- the launch theorem's implicit arguments are found by unifying its conclusion with this one, which takes unfolding
-- plain definitions in a metavariable's type
set_option backward.isDefEq.respectTransparency.types false in
/-- @main as its eight items — region, four host stretches, region, a host stretch, region — chained through the
    boundary contents; the launch deals each core its unscoped buffers, its generator register and nothing owed; at the
    end the last thread state is read against the final memory. -/
theorem run_all
    (hb0 : ∀ c : Dev nD, BodyObligation (dat0 m c) (defs₀ (F := F)) Variants.none () Set.univ)
    (hb1 : ∀ c : Dev nD, BodyObligation (dat1 m c) (defs₀ (F := F)) Variants.none () Set.univ)
    (hb2 : ∀ c : Dev nD, BodyObligation (dat2 m c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) := by
  refine Pipeline.θ_run_regions_kit_dev (pcfgs (F := F)) Gen.adm (pdats m) () cellOf_inj
    (emb₁ : Emb (UR sig nD τ) (MT nD τ sig Unit (Elt F) ℕ (UR sig nD τ) ℕ)) defs₀ Variants.none L lv m ρ main
    (Gen.segs m (outs m) Variants.none L lv (fun _ c => Rst c) () (pdats m) (reg0 m hb0) (reg1 m hb1) (reg2 m hb2))
    (fun c Q => by
      rewrite [main_chain c, Seg.run_eq_chain,
        show (Gen.segs m (outs m) Variants.none L lv (fun _ c => Rst c) () (pdats m) (reg0 m hb0) (reg1 m hb1) (reg2 m hb2) c).map Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own ((emb₁ : Emb (UR sig nD τ) (MT nD τ sig Unit (Elt F) ℕ (UR sig nD τ) ℕ)) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V8 m (outs m) c))
    (hch := fun c => ⟨.rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      unfold StableHlo.held
      iintro ⟨Hh, HSI⟩
      ihave Hr := (pointsTo_read_all (Pipeline.ucRefs τ sig) (fun b => ((c : Thread nD τ).1, b)) (Gen.V8 m (outs m) c) s') $$ [Hh HSI]
      · isplitl [Hh] <;> iassumption
      icases Hr with ⟨%h, HSI⟩
      imodintro
      isplitr
      · ipureintro; exact h
      · iexact HSI)
    (hQ := fun _ h => h)

/-- The frame: every argument array ends as launched. -/
theorem frame
    (hb0 : ∀ c : Dev nD, BodyObligation (dat0 m c) (defs₀ (F := F)) Variants.none () Set.univ)
    (hb1 : ∀ c : Dev nD, BodyObligation (dat1 m c) (defs₀ (F := F)) Variants.none () Set.univ)
    (hb2 : ∀ c : Dev nD, BodyObligation (dat2 m c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c)⟩) (run_all m ρ hb0 hb1 hb2)

/-- The run with the result named: the result buffer ends at the last boundary's contents, the arguments as launched. -/
theorem run_result
    (hb0 : ∀ c : Dev nD, BodyObligation (dat0 m c) (defs₀ (F := F)) Variants.none () Set.univ)
    (hb1 : ∀ c : Dev nD, BodyObligation (dat1 m c) (defs₀ (F := F)) Variants.none () Set.univ)
    (hb2 : ∀ c : Dev nD, BodyObligation (dat2 m c) (defs₀ (F := F)) Variants.none () Set.univ) :
    θ_run defs (onTc (τ := τ) (main (F := F))) ⟨m, fun _ => 0, ρ⟩ (fun r => ∀ c : Dev nD,
      r.2.mem ((c.tc : Thread nD τ).loc main_v17) = Gen.V8 m (outs m) c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v17 (by decide)),
     (h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c)⟩) (run_all m ρ hb0 hb1 hb2)

end Cert.KernelIdeal.Fam

end
-- ==== Proof.KI.R0Body.lean ====
/-
  The body obligation of pallas_call 0's pipeline: at every grid point the kernel body, run on the staging buffers the
  pipeline hands it and on the invariant of the data module, leaves each buffer and the invariant as the data module says.
-/
import proofs.«125814_j23089744183324_1_alg».proof.Proof.KI.R0Data
import Idealize.ShloMosaic.Lib.Pipeline.Frame
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body

/-- The zero offsets of a rank-two rectangle, as the constant function. -/
theorem hz : (![0, 0] : Fin 2 → Nat) = fun _ => 0 := funext fun a => by fin_cases a <;> rfl

/-- A store through the whole-shape rectangle at zero offsets, made last, is what the view reads afterwards, whatever
    was stored before it and whatever the buffer held. -/
theorem read_cons_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- The body at the first point, on whole staging memrefs holding `x0`, `x1`, `x2`: the H tile stays, the node-degree
    buffer ends at the tile's row sums, and the edge-degree buffer, cleared and read back, at the tile's column sums
    added to the cleared row. -/
theorem run_first (c : Dev nD) (i : grid0.Coords)
    (arg1 : Memref sig .tc .vmem S512x4096 .f32) (harg1 : arg1.IsWhole)
    (arg2 : Memref sig .tc .vmem S512x1 .f32) (harg2 : arg2.IsWhole)
    (arg3 : Memref sig .tc .vmem S1x4096 .f32) (harg3 : arg3.IsWhole)
    (hc : condA i) (x0 : Vec F S512x4096 .f32) (x1 : Vec F S512x1 .f32) (x2 : Vec F S1x4096 .f32)
    (K : PUnit → sProp 𝕄) :
    iprop(owns (c : Thread nD τ) arg1 fullShare x0 ∗ owns (c : Thread nD τ) arg2 fullShare x1 ∗ owns (c : Thread nD τ) arg3 fullShare x2
      ∗ (iprop(owns (c : Thread nD τ) arg1 fullShare x0 ∗ owns (c : Thread nD τ) arg2 fullShare (k0_pay1 x0)
          ∗ owns (c : Thread nD τ) arg3 fullShare (k0_pay3 x0 k0_pay2)) -∗ K ⟨⟩))
    ⊢ wp frame (wpE (defs₀ (F := F)) Variants.none c none) Set.univ (cc0__stats_kernel i arg1 harg1 arg2 harg2 arg3 harg3) K := by
  simp only [cc0__stats_kernel_eq_skeleton]; unfold cc0__stats_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr
    swap; · iexact H1
    ipureintro
    rw [read_cons_unit_zero (S := S512x1) _ _ hz, View.readAt_eq_ld, harg1.read_unread, View.ld_unit_zero (S := S512x4096) hz]
  iexists _; isplitr
  swap; · iexact H2
  ipureintro
  rw [read_cons_unit_zero (S := S1x4096) _ _ hz]
  sl_unfold_run_names
  rw [View.readCov_unit_zero (S := S1x4096) _ hz, View.readAt_eq_ld, harg1.read_unread, View.ld_unit_zero (S := S512x4096) hz]

/-- The body at a later point: the edge-degree buffer is not cleared, and ends at the tile's column sums added to what
    it held. -/
theorem run_later (c : Dev nD) (i : grid0.Coords)
    (arg1 : Memref sig .tc .vmem S512x4096 .f32) (harg1 : arg1.IsWhole)
    (arg2 : Memref sig .tc .vmem S512x1 .f32) (harg2 : arg2.IsWhole)
    (arg3 : Memref sig .tc .vmem S1x4096 .f32) (harg3 : arg3.IsWhole)
    (hc : ¬ condA i) (x0 : Vec F S512x4096 .f32) (x1 : Vec F S512x1 .f32) (x2 : Vec F S1x4096 .f32)
    (K : PUnit → sProp 𝕄) :
    iprop(owns (c : Thread nD τ) arg1 fullShare x0 ∗ owns (c : Thread nD τ) arg2 fullShare x1 ∗ owns (c : Thread nD τ) arg3 fullShare x2
      ∗ (iprop(owns (c : Thread nD τ) arg1 fullShare x0 ∗ owns (c : Thread nD τ) arg2 fullShare (k0_pay1 x0)
          ∗ owns (c : Thread nD τ) arg3 fullShare (k0_pay3 x0 x2)) -∗ K ⟨⟩))
    ⊢ wp frame (wpE (defs₀ (F := F)) Variants.none c none) Set.univ (cc0__stats_kernel i arg1 harg1 arg2 harg2 arg3 harg3) K := by
  simp only [cc0__stats_kernel_eq_skeleton]; unfold cc0__stats_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr
    swap; · iexact H1
    ipureintro
    rw [read_cons_unit_zero (S := S512x1) _ _ hz, View.readAt_eq_ld, harg1.read_unread, View.ld_unit_zero (S := S512x4096) hz]
  iexists _; isplitr
  swap; · iexact H2
  ipureintro
  rw [read_cons_unit_zero (S := S1x4096) _ _ hz]
  sl_unfold_run_names
  simp only [View.readAt_eq_ld, harg1.read_unread, harg3.read_unread, View.ld_unit_zero (S := S512x4096) hz,
    View.ld_unit_zero (S := S1x4096) hz]

/-! ## What the edge-degree buffer holds when the body runs at a later point -/

/-- After the first point the second result's one staging buffer holds what the point before left: the pipeline never
    fetches a result, and writes this one back only at the last point. -/
theorem before2_later (c : Dev nD) (t : Fin cfg0.N) (ht : t.val ≠ 0) (d) :
    (dat V c).before 2 t d = colAt V c (t.val - 1) (Nat.lt_of_le_of_lt (Nat.sub_le _ _) t.isLt) := by
  have hN : t.val < 16 := lt_of_lt_of_eq t.isLt (show cfg0.N = 16 from N_0)
  have hfl : (cfg0.win 2).flush ⟨t.val - 1, Nat.lt_of_le_of_lt (Nat.sub_le _ _) t.isLt⟩ = false := by
    rw [Bool.eq_false_iff]; intro h
    have h' : (t.val - 1) % 16 = 15 := (flush0_2 _).mp h
    omega
  rw [(dat V c).before_out_kept 2 rfl t ht hfl (fun _ => rfl) (fun _ _ => rfl) d, after2]

/-! ## The obligation at a point -/

/-- The invariant does not change from point to point. -/
theorem Phi_succ (c : Dev nD) (t : Fin cfg0.N) : (dat V c).Φ t.succ = (dat V c).Φ t.castSucc := by dsimp only [dat]

/-- No window is idle, so each current buffer is left at the data module's `after`. -/
theorem leaves0 (c : Dev nD) (t : Fin cfg0.N) :
    (dat V c).leavesExact 0 t = owns (c : Thread nD τ) (ms0 t) fullShare (hblk V c t) := by
  unfold Dat.leavesExact; rw [live0 t, after0]
theorem leaves1 (c : Dev nD) (t : Fin cfg0.N) :
    (dat V c).leavesExact 1 t = owns (c : Thread nD τ) (ms1 t) fullShare (rowAt V c t) := by
  unfold Dat.leavesExact; rw [live1 t, after1]
theorem leaves2 (c : Dev nD) (t : Fin cfg0.N) :
    (dat V c).leavesExact 2 t = owns (c : Thread nD τ) (ms2 t) fullShare (colAt V c t.val t.isLt) := by
  unfold Dat.leavesExact; rw [live2 t, after2]

/-- What the pipeline hands the body at point `t`: the invariant, the core's debts, each window's current buffer. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- What it takes back. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

/-- The body at any point. The H tile's buffer holds its block; the first result's buffer holds anything and is stored
    whole; the second result's holds anything at the first point, where the body clears it, and what the point before
    left at a later one. The invariant and the debts ride through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0 V]
  rw [show (dat V c).owesAt () t.succ = (dat V c).owesAt () t.castSucc from rfl, Phi_succ V c t,
    leaves0 V c t, leaves1 V c t, leaves2 V c t]
  unfold rowAt
  by_cases h0 : t.val = 0
  · rw [colAt_first V c t h0]
    iintro ⟨HΦ, Ho, ⟨%d0, H0⟩, ⟨%d1, H1⟩, ⟨%d2, H2⟩⟩
    iapply (run_first c (grid0.coords t) (ms0 t) (hs0 t) (ms1 t) (hs1 t) (ms2 t) (hs2 t) ((hcondA t).mpr h0) (hblk V c t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · simp only [before2_later V c t h0]
    rw [colAt_next V c t h0]
    iintro ⟨HΦ, Ho, ⟨%d0, H0⟩, ⟨%d1, H1⟩, ⟨%d2, H2⟩⟩
    iapply (run_later c (grid0.coords t) (ms0 t) (hs0 t) (ms1 t) (hs1 t) (ms2 t) (hs2 t) (fun h => h0 ((hcondA t).mp h)) (hblk V c t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Body

/-- The library's body obligation for this pipeline, at every point, on every core. -/
theorem body_obligation (c : Dev nD) : BodyObligation (dat V c) (defs₀ (F := F)) Variants.none () Set.univ := by
  intro t
  rw [bigSep_W0, bigSep_W0]
  exact Body.sound_body V c t

end Cert.KernelIdeal.R0

end
-- ==== Proof.KI.R1Body.lean ====
/-
  The body obligation of pallas_call 1's pipeline: at every grid point the kernel body, run on the staging buffers the
  pipeline hands it and on the invariant of the data module, leaves each buffer and the invariant as the data module says.
-/
import proofs.«125814_j23089744183324_1_alg».proof.Proof.KI.R1Data
import Idealize.ShloMosaic.Lib.Pipeline.Frame

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The two zero offsets of a rank-two rectangle, as the constant function. -/
theorem zz : (![0, 0] : Fin 2 → ℕ) = fun _ => 0 := by funext a; fin_cases a <;> rfl

/-- A load of the whole shape at zero offsets, through a whole memref held at the contents that read `X`, reads `X`:
    the rectangle is the whole shape's, whose placement of an index is the index. -/
theorem load_whole {sp : Space} {S : Shape} {e : EltTy} (m : Memref sig .tc sp S e) (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho; funext x
  rw [View.readAt_apply, h.read_unread X]
  show X ((Rect.whole S).emb x) = X x
  rw [Rect.emb_whole_apply]

/-- After a store of the whole shape at zero offsets, whatever was stored before it, the buffer reads the stored vector. -/
theorem store_whole {sp : Space} {S : Shape} {e : EltTy} (v : View sig .tc sp S e) (f : v.ty.Contents (Elt F))
    {off : Fin S.rank → ℕ} (ho : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst ho; funext y
  have e := View.read_writes_cons_emb (v := v) (f := f) (Rect.whole S) w L y
  rw [Rect.emb_whole_apply] at e
  exact e

/-! ## The kernel function on any whole memrefs, case by case

Each input memref holds its tile (`x0` the H tile, `x1` the x tile, `x2` the node scale, `x3` the edge scale), the
result memref holds `x4` and the accumulator `xs`; the body runs to any continuation that takes the six back, the
inputs as they were, the accumulator and the result at what the case computes. -/

/-- First node tile (and not the last): the accumulator is cleared, read back as the zero tile, and the point's product
    is added to it; the result memref is not touched. What the accumulator held before plays no part. -/
theorem run_A (c : Dev nD) (i : grid1.Coords) (arg2 : Memref sig .tc .vmem S2048x1024 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole)
    (hA : condA i) (hC : ¬ condC i) (x0 : Vec F S2048x1024 .f32) (x1 : Vec F S2048x256 .f32) (x2 : Vec F S2048x1 .f32) (x3 : Vec F S1024x1 .f32) (x4 : Vec F S1024x256 .f32) (xs : Vec F S1024x256 .f32) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare (k1_pay2 x0 x1 x2 k1_pay1)) -∗ K ⟨⟩))
      ⊢ wp frame (wpE (defs₀ (F := F)) Variants.none c none) Set.univ
          (cc1__pass1_kernel i arg2 harg2 arg3 harg3 arg4 harg4 arg5 harg5 arg6 harg6 arg7 harg7) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hA | exact hC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [store_whole _ _ zz, load_whole arg2 harg2 x0 zz, load_whole arg3 harg3 x1 zz, load_whole arg4 harg4 x2 zz]
  unfold run_A.sl.v11 run_A.sl.HS_1
  rw [View.readCov_cons_toLoadRect]

/-- A middle node tile: the point's product is added to what the accumulator held; the result memref is not touched. -/
theorem run_B (c : Dev nD) (i : grid1.Coords) (arg2 : Memref sig .tc .vmem S2048x1024 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole)
    (hA : ¬ condA i) (hC : ¬ condC i) (x0 : Vec F S2048x1024 .f32) (x1 : Vec F S2048x256 .f32) (x2 : Vec F S2048x1 .f32) (x3 : Vec F S1024x1 .f32) (x4 : Vec F S1024x256 .f32) (xs : Vec F S1024x256 .f32) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare (k1_pay2 x0 x1 x2 xs)) -∗ K ⟨⟩))
      ⊢ wp frame (wpE (defs₀ (F := F)) Variants.none c none) Set.univ
          (cc1__pass1_kernel i arg2 harg2 arg3 harg3 arg4 harg4 arg5 harg5 arg6 harg6 arg7 harg7) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hA | exact hC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [store_whole _ _ zz, load_whole arg2 harg2 x0 zz, load_whole arg3 harg3 x1 zz, load_whole arg4 harg4 x2 zz,
    load_whole arg7 harg7 xs zz]

/-- Last node tile: the point's product is added to what the accumulator held, and the new accumulator, its rows scaled by
    the edge scale, is stored over the result memref (whose earlier contents are read and dropped). -/
theorem run_C (c : Dev nD) (i : grid1.Coords) (arg2 : Memref sig .tc .vmem S2048x1024 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole)
    (hA : ¬ condA i) (hC : condC i) (x0 : Vec F S2048x1024 .f32) (x1 : Vec F S2048x256 .f32) (x2 : Vec F S2048x1 .f32) (x3 : Vec F S1024x1 .f32) (x4 : Vec F S1024x256 .f32) (xs : Vec F S1024x256 .f32) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k1_pay3 (k1_pay2 x0 x1 x2 xs) x3) ∗ owns (c : Thread nD τ) arg7 fullShare (k1_pay2 x0 x1 x2 xs)) -∗ K ⟨⟩))
      ⊢ wp frame (wpE (defs₀ (F := F)) Variants.none c none) Set.univ
          (cc1__pass1_kernel i arg2 harg2 arg3 harg3 arg4 harg4 arg5 harg5 arg6 harg6 arg7 harg7) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hA | exact hC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [store_whole _ _ zz, load_whole arg5 harg5 x3 zz]
    unfold run_C.sl.v20 run_C.sl.HS_1
    rw [View.readCov_cons_toLoadRect, load_whole arg2 harg2 x0 zz, load_whole arg3 harg3 x1 zz,
      load_whole arg4 harg4 x2 zz, load_whole arg7 harg7 xs zz]
  iexists _; isplitr
  swap; · iexact HS
  ipureintro
  unfold run_C.sl.HS_1
  rw [store_whole _ _ zz, load_whole arg2 harg2 x0 zz, load_whole arg3 harg3 x1 zz, load_whole arg4 harg4 x2 zz,
    load_whole arg7 harg7 xs zz]

/-! ## The body at a point of the grid -/

/-- Whatever the invariant is before a point, it yields the accumulator at some contents beside the other scoped buffers. -/
theorem Phi_some (c : Dev nD) (n : ℕ) (h : n ≤ cfg1.N) :
    Phi V c n h ⊢ (iprop((∃ d, owns (c : Thread nD τ) scM fullShare d) ∗ others c) : sProp 𝕄) := by
  by_cases hz : n = 0
  · rw [Phi_zero V c n h hz]
  · rw [Phi_pos V c n h hz]
    iintro ⟨HS, Ho⟩
    isplitl [HS]; · iexists _; iexact HS
    iexact Ho

/-- At a point where a window is live, its buffer is owed at what the body leaves there. -/
theorem leaves_live (c : Dev nD) (w : Fin cfg1.W) (t : Fin cfg1.N) (h : cfg1.idle w (grid1.coords t) = false) :
    (dat V c).leavesExact w t
      = owns (c : Thread nD τ) ((cfg1.win w).stage (cfg1.slots t w)) fullShare ((dat V c).after w t) := by
  unfold Dat.leavesExact; rw [h]

/-- The body at point `t`, from the invariant, what the core owes and the five current buffers, to the invariant at the next
    point and the five buffers as the proof data leave them. The four inputs hold their blocks and are handed back so;
    the case of `t` among the node tiles of its edge tile selects the run: at the first the accumulator is taken at whatever
    it holds, at the others at what the point before left; away from the last the result's buffer goes back as found. -/
theorem sound_body (c : Dev nD) (t : Fin cfg1.N) :
    iprop((dat V c).Φ t.castSucc ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d))
        ∗ (∃ d, owns (c : Thread nD τ) (ms3 t) fullShare ((dat V c).before 3 t d))
        ∗ (∃ d, owns (c : Thread nD τ) (ms4 t) fullShare ((dat V c).before 4 t d)))
      ⊢ wp frame (wpE (defs₀ (F := F)) Variants.none c none) Set.univ (bodyAt1 t) (fun _ =>
          (iprop((dat V c).Φ t.succ ∗ (dat V c).owesAt () t.succ
            ∗ (dat V c).leavesExact 0 t ∗ (dat V c).leavesExact 1 t ∗ (dat V c).leavesExact 2 t
            ∗ (dat V c).leavesExact 3 t ∗ (dat V c).leavesExact 4 t) : sProp 𝕄)) := by
  rw [leaves_live V c 0 t (live0 t), leaves_live V c 1 t (live1 t), leaves_live V c 2 t (live2 t),
    leaves_live V c 3 t (live3 t), after0, after1, after2, after3]
  simp only [before0, before1, before2, before3]
  rw [show (dat V c).owesAt () t.succ = (dat V c).owesAt () t.castSucc from rfl, Phi_at_succ, Phi_succ, Phi_castSucc]
  by_cases h0 : t.val % 4 = 0
  · have h3 : ¬ t.val % 4 = 3 := by omega
    have hA : condA (grid1.coords t) := (hcondA t).mpr h0
    have hC : ¬ condC (grid1.coords t) := fun h => h3 ((hcondC t).mp h)
    rw [Dat.leavesExact_idle (dat V c) 4 t (idle4 t h3) (noFlush4 t h3), accAt_first V c t h0]
    iintro ⟨HP, Hw, ⟨%d0, H0⟩, ⟨%d1, H1⟩, ⟨%d2, H2⟩, ⟨%d3, H3⟩, ⟨%d4, H4⟩⟩
    icases (Phi_some V c _ _) $$ HP with ⟨⟨%ds, HS⟩, Ho⟩
    iapply (run_A c (grid1.coords t) (ms0 t) (hs0 t) (ms1 t) (hs1 t) (ms2 t) (hs2 t) (ms3 t) (hs3 t) (ms4 t) (hs4 t)
        scM (Memref.isWhole_whole _) hA hC (hblk V c t) (xblk V c t) (dnblk V c t) (deblk V c t) ((dat V c).before 4 t d4) ds _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Ho]
    · isplitl [HS]; · iexact HS
      iexact Ho
    isplitl [Hw]; · iexact Hw
    isplitl [H0]; · iexact H0
    isplitl [H1]; · iexact H1
    isplitl [H2]; · iexact H2
    isplitl [H3]; · iexact H3
    iexists d4; iexact H4
  · have hz : t.val ≠ 0 := by omega
    rw [accAt_next V c t h0, Phi_pos V c _ _ hz]
    by_cases h3 : t.val % 4 = 3
    · have hA : ¬ condA (grid1.coords t) := fun h => h0 ((hcondA t).mp h)
      have hC : condC (grid1.coords t) := (hcondC t).mpr h3
      rw [leaves_live V c 4 t (live4 t h3), after4]
      unfold outAt
      rw [accAt_next V c t h0]
      iintro ⟨⟨HS, Ho⟩, Hw, ⟨%d0, H0⟩, ⟨%d1, H1⟩, ⟨%d2, H2⟩, ⟨%d3, H3⟩, ⟨%d4, H4⟩⟩
      iapply (run_C c (grid1.coords t) (ms0 t) (hs0 t) (ms1 t) (hs1 t) (ms2 t) (hs2 t) (ms3 t) (hs3 t) (ms4 t) (hs4 t)
        scM (Memref.isWhole_whole _) hA hC (hblk V c t) (xblk V c t) (dnblk V c t) (deblk V c t) ((dat V c).before 4 t d4) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Ho]
      · isplitl [HS]; · iexact HS
        iexact Ho
      isplitl [Hw]; · iexact Hw
      isplitl [H0]; · iexact H0
      isplitl [H1]; · iexact H1
      isplitl [H2]; · iexact H2
      isplitl [H3]; · iexact H3
      iexact H4
    · have hA : ¬ condA (grid1.coords t) := fun h => h0 ((hcondA t).mp h)
      have hC : ¬ condC (grid1.coords t) := fun h => h3 ((hcondC t).mp h)
      rw [Dat.leavesExact_idle (dat V c) 4 t (idle4 t h3) (noFlush4 t h3)]
      iintro ⟨⟨HS, Ho⟩, Hw, ⟨%d0, H0⟩, ⟨%d1, H1⟩, ⟨%d2, H2⟩, ⟨%d3, H3⟩, ⟨%d4, H4⟩⟩
      iapply (run_B c (grid1.coords t) (ms0 t) (hs0 t) (ms1 t) (hs1 t) (ms2 t) (hs2 t) (ms3 t) (hs3 t) (ms4 t) (hs4 t)
        scM (Memref.isWhole_whole _) hA hC (hblk V c t) (xblk V c t) (dnblk V c t) (deblk V c t) ((dat V c).before 4 t d4) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Ho]
      · isplitl [HS]; · iexact HS
        iexact Ho
      isplitl [Hw]; · iexact Hw
      isplitl [H0]; · iexact H0
      isplitl [H1]; · iexact H1
      isplitl [H2]; · iexact H2
      isplitl [H3]; · iexact H3
      iexists d4; iexact H4

/-- The library's body obligation for this pipeline, at every point, on every core. -/
theorem body_obligation (c : Dev nD) : BodyObligation (dat V c) (defs₀ (F := F)) Variants.none () Set.univ := by
  intro t
  rw [bigSep_W1, bigSep_W1]
  exact sound_body V c t

end Cert.KernelIdeal.R1

end
-- ==== Proof.KI.R2Body.lean ====
/-
  The body obligation of pallas_call 2's pipeline: at every grid point the kernel body, run on the staging buffers the
  pipeline hands it and on the invariant of the data module, leaves each buffer and the invariant as the data module says.
-/
import proofs.«125814_j23089744183324_1_alg».proof.Proof.KI.R2Data
import Idealize.ShloMosaic.Lib.Pipeline.Frame

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A whole memref, owned and held

A points-to holds a buffer's raw contents; the obligation speaks of what a memref reads of them. For a whole memref
the two determine each other. -/

section Whole

variable {sp : Space} {S : Shape} {e : EltTy}

/-- A whole memref owned at `X` is held at the raw contents that read `X`. -/
theorem held_of_owns (c : Thread nD τ) (m : Memref sig c.2.kind sp S e) (h : m.IsWhole) (X : S.Idx → Elt F e) :
    (owns c m fullShare X : sProp 𝕄) ⊢ m.view.loc c ↦[m.view.set]{fullShare} h.unread X := by
  unfold owns
  iintro ⟨%f, %hf, H⟩
  rw [← h.eq_unread hf]
  iexact H

/-- Held at any raw contents, it is owned at what it reads of them. -/
theorem owns_of_held (c : Thread nD τ) (m : Memref sig c.2.kind sp S e) (f : m.view.ty.Contents (Elt F)) (X : S.Idx → Elt F e)
    (hX : m.view.read (Elt F) f = X) :
    (m.view.loc c ↦[m.view.set]{fullShare} f : sProp 𝕄) ⊢ owns c m fullShare X := by
  subst hX; exact owns_intro c m fullShare f

/-- A load of the whole shape at zero offsets reads what the view reads. -/
theorem load_of_read {κ : Kind} (v : View sig κ sp S e) (f : v.ty.Contents (Elt F)) (X : S.Idx → Elt F e)
    (hX : v.read (Elt F) f = X) {off : Fin S.rank → Nat} (hoff : off = fun _ => 0)
    (inb : ∀ a, off a + S.size a ≤ S.size a) :
    v.readAt (Elt F) (Rect.unit off S.size inb).toLoadRect f = X := by
  subst hoff hX; funext x; rw [View.readAt_apply]
  show v.read (Elt F) f ((Rect.whole S).emb x) = v.read (Elt F) f x
  rw [Rect.emb_whole_apply]

/-- A store of the whole shape at zero offsets, last, is what the view then reads. -/
theorem read_stored {κ : Kind} (v : View sig κ sp S e) (f : v.ty.Contents (Elt F)) {off : Fin S.rank → Nat}
    (hoff : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst hoff; funext y
  have e := View.read_writes_cons_emb (v := v) (f := f) (Rect.whole S) w L y
  rwa [Rect.emb_whole_apply] at e

/-- So a memref held at contents whose last store was of the whole shape is owned at that store's payload. -/
theorem owns_of_stored (c : Thread nD τ) (m : Memref sig c.2.kind sp S e) (f : m.view.ty.Contents (Elt F))
    {off : Fin S.rank → Nat} (hoff : off = fun _ => 0) (inb : ∀ a, off a + S.size a ≤ S.size a) (w : S.Idx → Elt F e)
    (L : List (View.Piece (Elt F) S e)) :
    (m.view.loc c ↦[m.view.set]{fullShare} m.view.writes (Elt F) f (⟨Rect.unit off S.size inb, w⟩ :: L) : sProp 𝕄)
      ⊢ owns c m fullShare w :=
  owns_of_held c m _ w (read_stored m.view f hoff inb w L)

/-- A load of the whole shape from the raw contents of a whole memref that read `X` is `X`. -/
theorem load_whole {κ : Kind} (m : Memref sig κ sp S e) (h : m.IsWhole) (X : S.Idx → Elt F e) {off : Fin S.rank → Nat}
    (hoff : off = fun _ => 0) (inb : ∀ a, off a + S.size a ≤ S.size a) :
    View.readAt (Elt F) m.view (Rect.unit off S.size inb).toLoadRect (h.unread X) = X :=
  load_of_read m.view _ X (h.read_unread X) hoff inb

/-- A load of the whole shape after one store of the whole shape reads the store's payload. -/
theorem readCov_stored {κ : Kind} (v : View sig κ sp S e) {off : Fin S.rank → Nat} (hoff : off = fun _ => 0)
    (inb : ∀ a, off a + S.size a ≤ S.size a) (w : S.Idx → Elt F e) :
    v.readCov [(⟨Rect.unit off S.size inb, w⟩ : View.Piece (Elt F) S e)] (Rect.unit off S.size inb).toLoadRect = w := by
  unfold View.readCov
  exact load_of_read v _ w (read_stored v _ hoff inb w []) hoff inb

end Whole

/-- The zero offsets of a two-axis shape, as the program spells them. -/
theorem zeros2 : (![0, 0] : Fin 2 → Nat) = fun _ => 0 := by decide

/-! ## The kernel function, case by case

On whole memrefs owned at any contents: the inputs come back as they were; the accumulator ends at the point's product
added to what the case says it held; at a last edge tile the result buffer ends at the dense layer of that. -/

/-- Neither a first nor a last edge tile: the accumulator takes the point's product on top of what it held. -/
theorem run_mid (c : Dev nD) (i : grid2.Coords) (hA : ¬ condA i) (hC : ¬ condC i)
    (arg2 : Memref sig .tc .vmem S2048x1024 .f32) (harg2 : arg2.IsWhole)
    (arg3 : Memref sig .tc .vmem S1024x256 .f32) (harg3 : arg3.IsWhole)
    (arg4 : Memref sig .tc .vmem S2048x1 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S2048x256 .f32) (harg7 : arg7.IsWhole)
    (arg8 : Memref sig .tc .vmem S2048x256 .f32) (harg8 : arg8.IsWhole)
    (x0 : Vec F S2048x1024 .f32) (x1 : Vec F S1024x256 .f32) (x2 : Vec F S2048x1 .f32)
    (x3 : Vec F S256x256 .f32) (x4 : Vec F S1x256 .f32) (x5 : Vec F S2048x256 .f32) (a : Vec F S2048x256 .f32)
    (K : PUnit → sProp 𝕄) :
    (iprop((owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare a)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k2_pay2 x0 x1 a)) -∗ K ⟨⟩)) : sProp 𝕄)
      ⊢ wp frame (wpE (defs₀ (F := F)) Variants.none c none) Set.univ
          (cc2__pass2_kernel i arg2 harg2 arg3 harg3 arg4 harg4 arg5 harg5 arg6 harg6 arg7 harg7 arg8 harg8) K := by
  simp only [cc2__pass2_kernel_eq_skeleton]; unfold cc2__pass2_kernel_skel
  iintro ⟨⟨H0, H1, H2, H3, H4, H5, H8⟩, HK⟩
  ihave H0 := (held_of_owns c arg2 harg2 x0) $$ H0
  ihave H1 := (held_of_owns c arg3 harg3 x1) $$ H1
  ihave H2 := (held_of_owns c arg4 harg4 x2) $$ H2
  ihave H3 := (held_of_owns c arg5 harg5 x3) $$ H3
  ihave H4 := (held_of_owns c arg6 harg6 x4) $$ H4
  ihave H5 := (held_of_owns c arg7 harg7 x5) $$ H5
  ihave H8 := (held_of_owns c arg8 harg8 a) $$ H8
  sl_exec (disch := first | exact hA | exact hC)
  sl_step
  sl_unfold_run_names
  rw [load_whole arg2 harg2 x0 zeros2, load_whole arg3 harg3 x1 zeros2, load_whole arg8 harg8 a zeros2]
  ihave H0 := (owns_of_held (c : Thread nD τ) arg2 _ x0 (harg2.read_unread x0)) $$ H0
  ihave H1 := (owns_of_held (c : Thread nD τ) arg3 _ x1 (harg3.read_unread x1)) $$ H1
  ihave H2 := (owns_of_held (c : Thread nD τ) arg4 _ x2 (harg4.read_unread x2)) $$ H2
  ihave H3 := (owns_of_held (c : Thread nD τ) arg5 _ x3 (harg5.read_unread x3)) $$ H3
  ihave H4 := (owns_of_held (c : Thread nD τ) arg6 _ x4 (harg6.read_unread x4)) $$ H4
  ihave H5 := (owns_of_held (c : Thread nD τ) arg7 _ x5 (harg7.read_unread x5)) $$ H5
  ihave H8 := (owns_of_stored (c : Thread nD τ) arg8 _ zeros2 _ _ _) $$ H8
  iapply HK
  isplitl [H0]; · iexact H0
  isplitl [H1]; · iexact H1
  isplitl [H2]; · iexact H2
  isplitl [H3]; · iexact H3
  isplitl [H4]; · iexact H4
  isplitl [H5]; · iexact H5
  iexact H8

/-- A first edge tile: the accumulator, whatever it held, is cleared, read back as cleared, and takes the point's product. -/
theorem run_first (c : Dev nD) (i : grid2.Coords) (hA : condA i) (hC : ¬ condC i)
    (arg2 : Memref sig .tc .vmem S2048x1024 .f32) (harg2 : arg2.IsWhole)
    (arg3 : Memref sig .tc .vmem S1024x256 .f32) (harg3 : arg3.IsWhole)
    (arg4 : Memref sig .tc .vmem S2048x1 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S2048x256 .f32) (harg7 : arg7.IsWhole)
    (arg8 : Memref sig .tc .vmem S2048x256 .f32) (harg8 : arg8.IsWhole)
    (x0 : Vec F S2048x1024 .f32) (x1 : Vec F S1024x256 .f32) (x2 : Vec F S2048x1 .f32)
    (x3 : Vec F S256x256 .f32) (x4 : Vec F S1x256 .f32) (x5 : Vec F S2048x256 .f32) (a : Vec F S2048x256 .f32)
    (K : PUnit → sProp 𝕄) :
    (iprop((owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare a)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k2_pay2 x0 x1 k2_pay1)) -∗ K ⟨⟩)) : sProp 𝕄)
      ⊢ wp frame (wpE (defs₀ (F := F)) Variants.none c none) Set.univ
          (cc2__pass2_kernel i arg2 harg2 arg3 harg3 arg4 harg4 arg5 harg5 arg6 harg6 arg7 harg7 arg8 harg8) K := by
  simp only [cc2__pass2_kernel_eq_skeleton]; unfold cc2__pass2_kernel_skel
  iintro ⟨⟨H0, H1, H2, H3, H4, H5, H8⟩, HK⟩
  ihave H0 := (held_of_owns c arg2 harg2 x0) $$ H0
  ihave H1 := (held_of_owns c arg3 harg3 x1) $$ H1
  ihave H2 := (held_of_owns c arg4 harg4 x2) $$ H2
  ihave H3 := (held_of_owns c arg5 harg5 x3) $$ H3
  ihave H4 := (held_of_owns c arg6 harg6 x4) $$ H4
  ihave H5 := (held_of_owns c arg7 harg7 x5) $$ H5
  ihave H8 := (held_of_owns c arg8 harg8 a) $$ H8
  sl_exec (disch := first | exact hA | exact hC)
  sl_step
  sl_unfold_run_names
  rw [load_whole arg2 harg2 x0 zeros2, load_whole arg3 harg3 x1 zeros2, readCov_stored arg8.view zeros2]
  ihave H0 := (owns_of_held (c : Thread nD τ) arg2 _ x0 (harg2.read_unread x0)) $$ H0
  ihave H1 := (owns_of_held (c : Thread nD τ) arg3 _ x1 (harg3.read_unread x1)) $$ H1
  ihave H2 := (owns_of_held (c : Thread nD τ) arg4 _ x2 (harg4.read_unread x2)) $$ H2
  ihave H3 := (owns_of_held (c : Thread nD τ) arg5 _ x3 (harg5.read_unread x3)) $$ H3
  ihave H4 := (owns_of_held (c : Thread nD τ) arg6 _ x4 (harg6.read_unread x4)) $$ H4
  ihave H5 := (owns_of_held (c : Thread nD τ) arg7 _ x5 (harg7.read_unread x5)) $$ H5
  ihave H8 := (owns_of_stored (c : Thread nD τ) arg8 _ zeros2 _ _ _) $$ H8
  iapply HK
  isplitl [H0]; · iexact H0
  isplitl [H1]; · iexact H1
  isplitl [H2]; · iexact H2
  isplitl [H3]; · iexact H3
  isplitl [H4]; · iexact H4
  isplitl [H5]; · iexact H5
  iexact H8

/-- A last edge tile: the accumulator as at a middle tile; read back, it goes through the dense layer into the result buffer,
    whatever that held. -/
theorem run_last (c : Dev nD) (i : grid2.Coords) (hA : ¬ condA i) (hC : condC i)
    (arg2 : Memref sig .tc .vmem S2048x1024 .f32) (harg2 : arg2.IsWhole)
    (arg3 : Memref sig .tc .vmem S1024x256 .f32) (harg3 : arg3.IsWhole)
    (arg4 : Memref sig .tc .vmem S2048x1 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S2048x256 .f32) (harg7 : arg7.IsWhole)
    (arg8 : Memref sig .tc .vmem S2048x256 .f32) (harg8 : arg8.IsWhole)
    (x0 : Vec F S2048x1024 .f32) (x1 : Vec F S1024x256 .f32) (x2 : Vec F S2048x1 .f32)
    (x3 : Vec F S256x256 .f32) (x4 : Vec F S1x256 .f32) (x5 : Vec F S2048x256 .f32) (a : Vec F S2048x256 .f32)
    (K : PUnit → sProp 𝕄) :
    (iprop((owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare a)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (k2_pay3 (k2_pay2 x0 x1 a) x2 x3 x4)
            ∗ owns (c : Thread nD τ) arg8 fullShare (k2_pay2 x0 x1 a)) -∗ K ⟨⟩)) : sProp 𝕄)
      ⊢ wp frame (wpE (defs₀ (F := F)) Variants.none c none) Set.univ
          (cc2__pass2_kernel i arg2 harg2 arg3 harg3 arg4 harg4 arg5 harg5 arg6 harg6 arg7 harg7 arg8 harg8) K := by
  simp only [cc2__pass2_kernel_eq_skeleton]; unfold cc2__pass2_kernel_skel
  iintro ⟨⟨H0, H1, H2, H3, H4, H5, H8⟩, HK⟩
  ihave H0 := (held_of_owns c arg2 harg2 x0) $$ H0
  ihave H1 := (held_of_owns c arg3 harg3 x1) $$ H1
  ihave H2 := (held_of_owns c arg4 harg4 x2) $$ H2
  ihave H3 := (held_of_owns c arg5 harg5 x3) $$ H3
  ihave H4 := (held_of_owns c arg6 harg6 x4) $$ H4
  ihave H5 := (held_of_owns c arg7 harg7 x5) $$ H5
  ihave H8 := (held_of_owns c arg8 harg8 a) $$ H8
  sl_exec (disch := first | exact hA | exact hC)
  sl_step
  sl_unfold_run_names
  rw [load_whole arg2 harg2 x0 zeros2, load_whole arg3 harg3 x1 zeros2, load_whole arg8 harg8 a zeros2,
    readCov_stored arg8.view zeros2, load_whole arg4 harg4 x2 zeros2, load_whole arg5 harg5 x3 zeros2,
    load_whole arg6 harg6 x4 zeros2]
  ihave H0 := (owns_of_held (c : Thread nD τ) arg2 _ x0 (harg2.read_unread x0)) $$ H0
  ihave H1 := (owns_of_held (c : Thread nD τ) arg3 _ x1 (harg3.read_unread x1)) $$ H1
  ihave H2 := (owns_of_held (c : Thread nD τ) arg4 _ x2 (harg4.read_unread x2)) $$ H2
  ihave H3 := (owns_of_held (c : Thread nD τ) arg5 _ x3 (harg5.read_unread x3)) $$ H3
  ihave H4 := (owns_of_held (c : Thread nD τ) arg6 _ x4 (harg6.read_unread x4)) $$ H4
  ihave H5 := (owns_of_stored (c : Thread nD τ) arg7 _ zeros2 _ _ _) $$ H5
  ihave H8 := (owns_of_stored (c : Thread nD τ) arg8 _ zeros2 _ _ _) $$ H8
  iapply HK
  isplitl [H0]; · iexact H0
  isplitl [H1]; · iexact H1
  isplitl [H2]; · iexact H2
  isplitl [H3]; · iexact H3
  isplitl [H4]; · iexact H4
  isplitl [H5]; · iexact H5
  iexact H8

/-! ## The obligation at a point, window by window -/

/-- What the body is called with at point `t`: the invariant, the core's debts, each window's current buffer. -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- What it hands back. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

/-- An input window is live at every point: its buffer comes back at its block. -/
theorem leaves0 (c : Dev nD) (t : Fin cfg2.N) :
    (dat V c).leavesExact 0 t = owns (c : Thread nD τ) (ms0 t) fullShare (hblk V c t) := by
  unfold Dat.leavesExact; rw [live0 t, after0]
theorem leaves1 (c : Dev nD) (t : Fin cfg2.N) :
    (dat V c).leavesExact 1 t = owns (c : Thread nD τ) (ms1 t) fullShare (eblk V c t) := by
  unfold Dat.leavesExact; rw [live1 t, after1]
theorem leaves2 (c : Dev nD) (t : Fin cfg2.N) :
    (dat V c).leavesExact 2 t = owns (c : Thread nD τ) (ms2 t) fullShare (dnblk V c t) := by
  unfold Dat.leavesExact; rw [live2 t, after2]
theorem leaves3 (c : Dev nD) (t : Fin cfg2.N) :
    (dat V c).leavesExact 3 t = owns (c : Thread nD τ) (ms3 t) fullShare (wblk V c t) := by
  unfold Dat.leavesExact; rw [live3 t, after3]
theorem leaves4 (c : Dev nD) (t : Fin cfg2.N) :
    (dat V c).leavesExact 4 t = owns (c : Thread nD τ) (ms4 t) fullShare (bblk V c t) := by
  unfold Dat.leavesExact; rw [live4 t, after4]
/-- The result window away from a last edge tile: idle and not written back, its buffer comes back as found; -/
theorem leaves5_idle (c : Dev nD) (t : Fin cfg2.N) (h3 : ¬ t.val % 4 = 3) :
    (dat V c).leavesExact 5 t
      = iprop(∃ d, owns (c : Thread nD τ) (ms5 t) fullShare ((dat V c).before 5 t d)) :=
  Dat.leavesExact_idle (dat V c) 5 t (idle5 t h3) (noFlush5 t h3)
/-- at one: live, at the result tile. -/
theorem leaves5_live (c : Dev nD) (t : Fin cfg2.N) (h3 : t.val % 4 = 3) :
    (dat V c).leavesExact 5 t = owns (c : Thread nD τ) (ms5 t) fullShare (outAt V c t) := by
  unfold Dat.leavesExact; rw [live5 t h3, after5]

/-! ## The body at a point, by the point's case

In each case: the inputs' buffers hold their blocks; the invariant hands over the accumulator (at anything before the
first point, at what the point before left afterwards) beside the other scoped buffers, which ride through untouched
like the core's debts; the case's triple applies; the accumulator comes back at this point's `accAt`. -/

/-- A first edge tile (t ≡ 0 mod 4): the accumulator restarts from zero, whatever it held. -/
theorem sound_first (c : Dev nD) (t : Fin cfg2.N) (h0 : t.val % 4 = 0) :
    bodyPre V c t
      ⊢ wp frame (wpE (defs₀ (F := F)) Variants.none c none) Set.univ (bodyAt2 t) (fun _ => bodyPost V c t) := by
  have h3 : ¬ t.val % 4 = 3 := by omega
  unfold bodyPre bodyPost bodyAt2
  simp only [before0, before1, before2, before3, before4]
  rw [show (dat V c).owesAt () t.succ = (dat V c).owesAt () t.castSucc from rfl]
  rw [Phi_at_succ, Phi_succ, accAt_first V c t h0, leaves0, leaves1, leaves2, leaves3, leaves4,
    leaves5_idle V c t h3, Phi_castSucc]
  by_cases hz : t.val = 0
  · rw [Phi_zero V c _ _ hz]
    iintro ⟨⟨⟨%dS, HS⟩, Hoth⟩, Ho, ⟨%d0, H0⟩, ⟨%d1, H1⟩, ⟨%d2, H2⟩, ⟨%d3, H3⟩, ⟨%d4, H4⟩, ⟨%d5, H5⟩⟩
    iapply (run_first c (grid2.coords t) ((hcondA t).mpr h0) (fun h => h3 ((hcondC t).mp h))
      (ms0 t) (hs0 t) (ms1 t) (hs1 t) (ms2 t) (hs2 t) (ms3 t) (hs3 t)
      (ms4 t) (hs4 t) (ms5 t) (hs5 t) scM (Memref.isWhole_whole _)
      (hblk V c t) (eblk V c t) (dnblk V c t) (wblk V c t) (bblk V c t) _ _ _)
    isplitl [H0 H1 H2 H3 H4 H5 HS]
    · isplitl [H0]; · iexact H0
      isplitl [H1]; · iexact H1
      isplitl [H2]; · iexact H2
      isplitl [H3]; · iexact H3
      isplitl [H4]; · iexact H4
      isplitl [H5]; · iexact H5
      iexact HS
    iintro ⟨H0, H1, H2, H3, H4, H5, HS⟩
    isplitl [HS Hoth]
    · isplitl [HS]; · iexact HS
      iexact Hoth
    isplitl [Ho]; · iexact Ho
    isplitl [H0]; · iexact H0
    isplitl [H1]; · iexact H1
    isplitl [H2]; · iexact H2
    isplitl [H3]; · iexact H3
    isplitl [H4]; · iexact H4
    iexists d5; iexact H5
  · rw [Phi_pos V c _ _ hz]
    iintro ⟨⟨HS, Hoth⟩, Ho, ⟨%d0, H0⟩, ⟨%d1, H1⟩, ⟨%d2, H2⟩, ⟨%d3, H3⟩, ⟨%d4, H4⟩, ⟨%d5, H5⟩⟩
    iapply (run_first c (grid2.coords t) ((hcondA t).mpr h0) (fun h => h3 ((hcondC t).mp h))
      (ms0 t) (hs0 t) (ms1 t) (hs1 t) (ms2 t) (hs2 t) (ms3 t) (hs3 t)
      (ms4 t) (hs4 t) (ms5 t) (hs5 t) scM (Memref.isWhole_whole _)
      (hblk V c t) (eblk V c t) (dnblk V c t) (wblk V c t) (bblk V c t) _ _ _)
    isplitl [H0 H1 H2 H3 H4 H5 HS]
    · isplitl [H0]; · iexact H0
      isplitl [H1]; · iexact H1
      isplitl [H2]; · iexact H2
      isplitl [H3]; · iexact H3
      isplitl [H4]; · iexact H4
      isplitl [H5]; · iexact H5
      iexact HS
    iintro ⟨H0, H1, H2, H3, H4, H5, HS⟩
    isplitl [HS Hoth]
    · isplitl [HS]; · iexact HS
      iexact Hoth
    isplitl [Ho]; · iexact Ho
    isplitl [H0]; · iexact H0
    isplitl [H1]; · iexact H1
    isplitl [H2]; · iexact H2
    isplitl [H3]; · iexact H3
    isplitl [H4]; · iexact H4
    iexists d5; iexact H5

/-- A middle edge tile (t ≡ 1, 2 mod 4): the accumulator grows by the point's product. -/
theorem sound_mid (c : Dev nD) (t : Fin cfg2.N) (h0 : ¬ t.val % 4 = 0) (h3 : ¬ t.val % 4 = 3) :
    bodyPre V c t
      ⊢ wp frame (wpE (defs₀ (F := F)) Variants.none c none) Set.univ (bodyAt2 t) (fun _ => bodyPost V c t) := by
  have hz : t.val ≠ 0 := fun h => h0 (by rw [h])
  unfold bodyPre bodyPost bodyAt2
  simp only [before0, before1, before2, before3, before4]
  rw [show (dat V c).owesAt () t.succ = (dat V c).owesAt () t.castSucc from rfl]
  rw [Phi_at_succ, Phi_succ, accAt_next V c t h0, leaves0, leaves1, leaves2, leaves3, leaves4,
    leaves5_idle V c t h3, Phi_castSucc, Phi_pos V c _ _ hz]
  iintro ⟨⟨HS, Hoth⟩, Ho, ⟨%d0, H0⟩, ⟨%d1, H1⟩, ⟨%d2, H2⟩, ⟨%d3, H3⟩, ⟨%d4, H4⟩, ⟨%d5, H5⟩⟩
  iapply (run_mid c (grid2.coords t) (fun h => h0 ((hcondA t).mp h)) (fun h => h3 ((hcondC t).mp h))
      (ms0 t) (hs0 t) (ms1 t) (hs1 t) (ms2 t) (hs2 t) (ms3 t) (hs3 t)
      (ms4 t) (hs4 t) (ms5 t) (hs5 t) scM (Memref.isWhole_whole _)
      (hblk V c t) (eblk V c t) (dnblk V c t) (wblk V c t) (bblk V c t) _ _ _)
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  isplitl [HS Hoth]
  · isplitl [HS]; · iexact HS
    iexact Hoth
  isplitl [Ho]; · iexact Ho
  isplitl [H0]; · iexact H0
  isplitl [H1]; · iexact H1
  isplitl [H2]; · iexact H2
  isplitl [H3]; · iexact H3
  isplitl [H4]; · iexact H4
  iexists d5; iexact H5

/-- A last edge tile (t ≡ 3 mod 4): the accumulator grows once more and the result tile is stored. -/
theorem sound_last (c : Dev nD) (t : Fin cfg2.N) (h3 : t.val % 4 = 3) :
    bodyPre V c t
      ⊢ wp frame (wpE (defs₀ (F := F)) Variants.none c none) Set.univ (bodyAt2 t) (fun _ => bodyPost V c t) := by
  have h0 : ¬ t.val % 4 = 0 := by omega
  have hz : t.val ≠ 0 := fun h => h0 (by rw [h])
  unfold bodyPre bodyPost bodyAt2
  simp only [before0, before1, before2, before3, before4]
  rw [show (dat V c).owesAt () t.succ = (dat V c).owesAt () t.castSucc from rfl]
  rw [Phi_at_succ, Phi_succ, leaves0, leaves1, leaves2, leaves3, leaves4, leaves5_live V c t h3]
  unfold outAt
  rw [accAt_next V c t h0, Phi_castSucc, Phi_pos V c _ _ hz]
  iintro ⟨⟨HS, Hoth⟩, Ho, ⟨%d0, H0⟩, ⟨%d1, H1⟩, ⟨%d2, H2⟩, ⟨%d3, H3⟩, ⟨%d4, H4⟩, ⟨%d5, H5⟩⟩
  iapply (run_last c (grid2.coords t) (fun h => h0 ((hcondA t).mp h)) ((hcondC t).mpr h3)
      (ms0 t) (hs0 t) (ms1 t) (hs1 t) (ms2 t) (hs2 t) (ms3 t) (hs3 t)
      (ms4 t) (hs4 t) (ms5 t) (hs5 t) scM (Memref.isWhole_whole _)
      (hblk V c t) (eblk V c t) (dnblk V c t) (wblk V c t) (bblk V c t) _ _ _)
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  isplitl [HS Hoth]
  · isplitl [HS]; · iexact HS
    iexact Hoth
  isplitl [Ho]; · iexact Ho
  isplitl [H0]; · iexact H0
  isplitl [H1]; · iexact H1
  isplitl [H2]; · iexact H2
  isplitl [H3]; · iexact H3
  isplitl [H4]; · iexact H4
  iexact H5

/-- The library's body obligation for this pipeline, at every point, on every core. -/
theorem body_obligation (c : Dev nD) : BodyObligation (dat V c) (defs₀ (F := F)) Variants.none () Set.univ := by
  intro t
  rw [bigSep_W2, bigSep_W2]
  by_cases h0 : t.val % 4 = 0
  · exact sound_first V c t h0
  · by_cases h3 : t.val % 4 = 3
    · exact sound_last V c t h3
    · exact sound_mid V c t h0 h3

end Cert.KernelIdeal.R2

end
-- ==== Proof.Spec.lean ====
/-
  The function both programs compute, over the extended reals, entry by entry.

  H is an incidence matrix (8192 nodes × 4096 edges), x the node features (8192 × 256), W and b a dense layer.
  With the node degrees (row sums of H) and edge degrees (column sums), each degree g is turned into a scale — the
  reciprocal square root of max(g, 1e-30) for a node, the reciprocal of max(g, 1e-30) for an edge, and 0 where g is
  not positive —; then
      edge features  e(ε, d)  = (Σ_n H(n, ε) · (x(n, d) · dn(n))) · de(ε)
      node features  xn(n, d) = (Σ_ε H(n, ε) · e(ε, d)) · dn(n)
      result         out(n, o) = (Σ_d xn(n, d) · W(o, d)) + b(o).
  Every product and sum is written in the order both programs apply it, so no law of the extended reals beyond the
  commutative-monoid laws of a finite sum is needed to compare them.
-/
import Idealize.ShloMosaic.PureOps.Ideal
import Idealize.ShloMosaic.Lib.ValueIdx

noncomputable section

namespace Cert.Spec

open Idealize.ShloMosaic Idealize.ShloMosaic.ValueIdx
open scoped BigOperators

/-- The degree of node `n`: the sum of its row of H. -/
def rowSum (H : (⟨2, ![8192, 4096]⟩ : Shape).Idx → EReal) (n : Fin 8192) : EReal := ∑ j : Fin 4096, H (ix2 n j)

/-- The degree of edge `e`: the sum of its column of H. -/
def colSum (H : (⟨2, ![8192, 4096]⟩ : Shape).Idx → EReal) (e : Fin 4096) : EReal := ∑ n : Fin 8192, H (ix2 n e)

/-- A node degree's scale: 1/√max(g, 1e-30) where g > 0, else 0 (the literals are the float words of 0 and 1e-30). -/
def nodeScale (g : EReal) : EReal :=
  Scalar.select (FloatOps.cmpf (F := Ideal) (φ := .f32) .ogt g (Ideal.ofBits .f32 0x00000000#32))
    (Ideal.rsqrt (max g (Ideal.ofBits .f32 0x0DA24260#32))) (Ideal.ofBits .f32 0x00000000#32)

/-- An edge degree's scale: 1/max(g, 1e-30) where g > 0, else 0. -/
def edgeScale (g : EReal) : EReal :=
  Scalar.select (FloatOps.cmpf (F := Ideal) (φ := .f32) .ogt g (Ideal.ofBits .f32 0x00000000#32))
    (Ideal.div (Ideal.ofBits .f32 0x3F800000#32) (max g (Ideal.ofBits .f32 0x0DA24260#32))) (Ideal.ofBits .f32 0x00000000#32)

/-- Edge features from node features, for any node scale `dn` and edge scale `de`. -/
def edgeFeat (H : (⟨2, ![8192, 4096]⟩ : Shape).Idx → EReal) (x : (⟨2, ![8192, 256]⟩ : Shape).Idx → EReal)
    (dn : Fin 8192 → EReal) (de : Fin 4096 → EReal) (ε : Fin 4096) (d : Fin 256) : EReal :=
  (∑ n : Fin 8192, H (ix2 n ε) * (x (ix2 n d) * dn n)) * de ε

/-- Node features back from edge features. -/
def nodeFeat (H : (⟨2, ![8192, 4096]⟩ : Shape).Idx → EReal) (e : Fin 4096 → Fin 256 → EReal)
    (dn : Fin 8192 → EReal) (n : Fin 8192) (d : Fin 256) : EReal :=
  (∑ ε : Fin 4096, H (ix2 n ε) * e ε d) * dn n

/-- The dense layer on rows: xn · Wᵀ + b. -/
def dense (xn : Fin 8192 → Fin 256 → EReal) (W : (⟨2, ![256, 256]⟩ : Shape).Idx → EReal) (b : Fin 256 → EReal)
    (n : Fin 8192) (o : Fin 256) : EReal :=
  (∑ d : Fin 256, xn n d * W (ix2 o d)) + b o

/-- The whole function of the four inputs. -/
def out (x : (⟨2, ![8192, 256]⟩ : Shape).Idx → EReal) (H : (⟨2, ![8192, 4096]⟩ : Shape).Idx → EReal)
    (W : (⟨2, ![256, 256]⟩ : Shape).Idx → EReal) (b : (⟨1, ![256]⟩ : Shape).Idx → EReal) (n : Fin 8192) (o : Fin 256) : EReal :=
  dense (nodeFeat H (edgeFeat H x (fun n => nodeScale (rowSum H n)) (fun e => edgeScale (colSum H e)))
    (fun n => nodeScale (rowSum H n))) W (fun o => b (ix1 o)) n o

end Cert.Spec

end
-- ==== Proof.Val.R0Value.lean ====
/-
  What the first pallas_call leaves in its two result arrays, at the ideal instance: every node's degree (its row
  sum of H) and every edge's degree (its column sum, accumulated over the 16 row tiles).
-/
import proofs.«125814_j23089744183324_1_alg».proof.Proof.KI.R0Data
import proofs.«125814_j23089744183324_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-! ## The body's three stored values, entry by entry -/

/-- A length-512 vector viewed as a 512 × 1 column reads, at (p, z), the vector at p. -/
theorem column_cast_apply {α : Type} (v : S512.Idx → α) (h : S512.ShapeCasts S512x1) (p : Fin 512) (z : Fin 1) :
    shapeCast S512x1 v h (ix2 p z) = v (ix1 p) :=
  shapeCast_apply v h _ _ (by
    have hz : z.val = 0 := by omega
    rw [Shape.rowMajor_val_two, Shape.rowMajor_val_one]
    show p.val = p.val * 1 + z.val
    rw [hz, Nat.mul_one, Nat.add_zero])

/-- The stored node-degree tile: entry (p, ·) is the sum of row p of the loaded tile. -/
theorem pay1_apply (x : Vec Ideal S512x4096 .f32) (p : Fin 512) (z : Fin 1) :
    k0_pay1 x (ix2 p z) = ∑ k : Fin 4096, x (ix2 p k) := by
  unfold k0_pay1
  refine (column_cast_apply _ _ p z).trans ?_
  refine (Ideal.multiReduction_add_single x _ reduces_S512x4096_S512 (.inl rfl) rfl (ix1 p)).trans ?_
  refine Finset.sum_congr rfl fun k _ => congrArg x ?_
  exact Shape.idx_ext₂ rfl rfl

/-- The cleared edge-degree buffer is zero everywhere. -/
theorem pay2_apply (z : Fin 1) (q : Fin 4096) : (k0_pay2 (F := Ideal)) (ix2 z q) = 0 := by
  unfold k0_pay2
  exact Ideal.ofBits_zero_f32

/-- The stored edge-degree buffer: entry (·, q) is what the buffer held there plus the sum of column q of the tile. -/
theorem pay3_apply (x : Vec Ideal S512x4096 .f32) (v : Vec Ideal S1x4096 .f32) (z : Fin 1) (q : Fin 4096) :
    k0_pay3 x v (ix2 z q) = v (ix2 z q) + ∑ k : Fin 512, x (ix2 k q) := by
  unfold k0_pay3
  refine (addf_apply _ _ (ix2 z q)).trans ?_
  refine congrArg₂ (· + ·) ?_ ?_
  · exact congrFun (shapeCast_self v _) _
  · refine (shapeCast_a_1a_apply _ _ z q).trans ?_
    refine (Ideal.multiReduction_add_single x _ reduces_S512x4096_S4096 (.inl rfl) rfl (ix1 q)).trans ?_
    refine Finset.sum_congr rfl fun k _ => congrArg x ?_
    exact Shape.idx_ext₂ rfl rfl

/-! ## The windows' block positions and the H tile, entry by entry -/

/-- The three printed index maps over the grid: H's tile and the node-degree tile sit at block row t, column 0; the
    edge-degree block is block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem N_eq : cfg0.N = 16 := by decide +kernel

/-- Entry (p, q) of point t's H tile is H at row 512·t + p, column q. -/
theorem hblk_apply (c : Dev nD) (t : Fin cfg0.N) (p : Fin 512) (q : Fin 4096) (r : Fin 8192)
    (hr : r.val = 512 * t.val + p.val) :
    hblk V c t (ix2 p q) = (V c main_arg1 : S8192x4096.Idx → EReal) (ix2 r q) := by
  obtain ⟨e0, e1, -⟩ := idx_facts t
  show V c main_arg1 (((cfg0.win 0).blk t).view.emb (ix2 p q)) = V c main_arg1 (ix2 r q)
  refine congrArg (V c main_arg1) ?_
  refine Shape.idx_ext₂ ?_ ?_
  · show win0_0.index t (0 : Fin 2) * 512 + 1 * p.val = r.val
    rw [e0, hr]; omega
  · show win0_0.index t (1 : Fin 2) * 4096 + 1 * q.val = q.val
    rw [e1]; omega

/-! ## The node degrees: every point writes its tile's row sums back -/

/-- Entry (p, ·) of the node-degree tile of point t is the degree of node 512·t + p. -/
theorem rowAt_apply (c : Dev nD) (t : Fin cfg0.N) (p : Fin 512) (z : Fin 1) (r : Fin 8192)
    (hr : r.val = 512 * t.val + p.val) :
    rowAt V c t (ix2 p z) = Cert.Spec.rowSum (V c main_arg1) r := by
  unfold rowAt
  refine (pay1_apply _ p z).trans ?_
  unfold Cert.Spec.rowSum
  exact Finset.sum_congr rfl fun k _ => hblk_apply V c t p k r hr

/-- What point t writes back to the node-degree array is its block of the array of all node degrees. -/
theorem flushed_row (c : Dev nD) (t : Fin cfg0.N) :
    (dat V c).flushed 1 t
      = ((cfg0.win 1).blk t).view.read (Elt Ideal) (fun i : S8192x1.Idx => Cert.Spec.rowSum (V c main_arg1) (i 0)) := by
  show (cfg0.win 1).cut (grid0.coords t) ((dat V c).after 1 t) = _
  rw [after1]
  obtain ⟨-, -, e0, -, -, -⟩ := idx_facts t
  funext y
  obtain ⟨p, z, rfl⟩ : ∃ (p : Fin 512) (z : Fin 1), y = ix2 p z := ⟨y 0, y 1, eq_ix2 y⟩
  show rowAt V c t (ix2 p z) = Cert.Spec.rowSum (V c main_arg1) ((((cfg0.win 1).blk t).view.emb (ix2 p z)) 0)
  refine rowAt_apply V c t p z _ ?_
  show win0_1.index t (0 : Fin 2) * 512 + 1 * p.val = 512 * t.val + p.val
  rw [e0]; omega

/-- An index of the node-degree array is in point t's block iff each coordinate is in the block's range. -/
theorem mem_row_blk (t : Fin cfg0.N) (i : S8192x1.Idx) :
    i ∈ ((cfg0.win 1).blk t).view.set
      ↔ ∀ a : Fin 2, win0_1.index t a * S512x1.size a ≤ (i a).val ∧ (i a).val < win0_1.index t a * S512x1.size a + S512x1.size a := by
  show i ∈ ((View.whole main_v0_0).slice (win0_1.rect t)).set ↔ _
  rw [View.set_slice_whole, Rect.mem_set_unit]
  exact Iff.rfl

/-- Node n's entry lies in the block of point n / 512. -/
theorem row_cover (i : S8192x1.Idx) :
    ∃ t : Fin cfg0.N, (cfg0.win 1).flush t = true ∧ i ∈ ((cfg0.win 1).blk t).view.set := by
  have h0 : (i 0).val < 8192 := (i 0).isLt
  have h1 : (i 1).val < 1 := (i 1).isLt
  refine ⟨⟨(i 0).val / 512, by rw [N_eq]; omega⟩, flush0_1 _, ?_⟩
  rw [mem_row_blk]
  obtain ⟨-, -, e0, e1, -, -⟩ := idx_facts ⟨(i 0).val / 512, by rw [N_eq]; omega⟩
  intro a
  match a with
  | ⟨0, _⟩ =>
    show win0_1.index _ (0 : Fin 2) * 512 ≤ (i 0).val ∧ (i 0).val < win0_1.index _ (0 : Fin 2) * 512 + 512
    rw [e0]; show (i 0).val / 512 * 512 ≤ (i 0).val ∧ (i 0).val < (i 0).val / 512 * 512 + 512; omega
  | ⟨1, _⟩ =>
    show win0_1.index _ (1 : Fin 2) * 1 ≤ (i 1).val ∧ (i 1).val < win0_1.index _ (1 : Fin 2) * 1 + 1
    rw [e1]; omega

/-! ## The edge degrees: one buffer carried over the sixteen tiles, written back once -/

/-- Column q of H as a sequence over the natural numbers: H(r, q) for r below 8192, zero past the array's end. -/
def colSeq (c : Dev nD) (q : Fin 4096) (r : ℕ) : EReal :=
  if h : r < 8192 then (V c main_arg1 : S8192x4096.Idx → EReal) (ix2 ⟨r, h⟩ q) else 0

/-- The sum of column q of point t's tile is the stretch of 512 terms of that sequence starting at 512·t. -/
theorem tile_col_sum (c : Dev nD) (t : Fin cfg0.N) (q : Fin 4096) :
    ∑ k : Fin 512, hblk V c t (ix2 k q) = ∑ x ∈ Finset.range 512, colSeq V c q (512 * t.val + x) := by
  rw [← Fin.sum_univ_eq_sum_range (fun x => colSeq V c q (512 * t.val + x)) 512]
  refine Finset.sum_congr rfl fun k _ => ?_
  have ht : t.val < 16 := lt_of_lt_of_eq t.isLt N_eq
  have hk : 512 * t.val + k.val < 8192 := by omega
  unfold colSeq
  rw [dif_pos hk]
  exact hblk_apply V c t k q ⟨_, hk⟩ rfl

/-- After point n the buffer holds, at (·, q), the sum of the first 512·(n+1) entries of column q: zero plus the first
    tile's column sums at the first point, the previous partial sum plus the tile's afterwards. -/
theorem colAt_apply (c : Dev nD) (n : ℕ) : ∀ (hn : n < cfg0.N) (z : Fin 1) (q : Fin 4096),
    colAt V c n hn (ix2 z q) = ∑ r ∈ Finset.range (512 * (n + 1)), colSeq V c q r := by
  induction n with
  | zero =>
    intro hn z q
    refine (pay3_apply (hblk V c ⟨0, hn⟩) (k0_pay2 (F := Ideal)) z q).trans ?_
    rw [pay2_apply, zero_add]
    refine (tile_col_sum V c ⟨0, hn⟩ q).trans ?_
    show ∑ x ∈ Finset.range 512, colSeq V c q (512 * 0 + x) = ∑ r ∈ Finset.range 512, colSeq V c q r
    simp only [Nat.mul_zero, Nat.zero_add]
  | succ n ih =>
    intro hn z q
    refine (pay3_apply (hblk V c ⟨n + 1, hn⟩) (colAt V c n (Nat.lt_of_succ_lt hn)) z q).trans ?_
    rw [ih (Nat.lt_of_succ_lt hn) z q]
    rw [show 512 * (n + 1 + 1) = 512 * (n + 1) + 512 by omega, Finset.sum_range_add]
    exact congrArg _ (tile_col_sum V c ⟨n + 1, hn⟩ q)

/-- All 8192 terms of the sequence add up to the degree of edge q. -/
theorem colSeq_total (c : Dev nD) (q : Fin 4096) :
    ∑ r ∈ Finset.range 8192, colSeq V c q r = Cert.Spec.colSum (V c main_arg1) q := by
  unfold Cert.Spec.colSum
  rw [← Fin.sum_univ_eq_sum_range (fun r => colSeq V c q r) 8192]
  refine Finset.sum_congr rfl fun n _ => ?_
  unfold colSeq
  rw [dif_pos n.isLt]

/-- The one write-back of the edge-degree buffer, at the last point, writes the array of all edge degrees. -/
theorem flushed_col (c : Dev nD) (t : Fin cfg0.N) (hf : (cfg0.win 2).flush t = true) :
    (dat V c).flushed 2 t
      = ((cfg0.win 2).blk t).view.read (Elt Ideal) (fun i : S1x4096.Idx => Cert.Spec.colSum (V c main_arg1) (i 1)) := by
  have ht : t.val = 15 := by
    have h15 := (flush0_2 t).mp hf
    have hlt : t.val < 16 := lt_of_lt_of_eq t.isLt N_eq
    omega
  show (cfg0.win 2).cut (grid0.coords t) ((dat V c).after 2 t) = _
  rw [after2]
  obtain ⟨-, -, -, -, -, e1⟩ := idx_facts t
  funext y
  obtain ⟨z, q, rfl⟩ : ∃ (z : Fin 1) (q : Fin 4096), y = ix2 z q := ⟨y 0, y 1, eq_ix2 y⟩
  show colAt V c t.val t.isLt (ix2 z q)
    = Cert.Spec.colSum (V c main_arg1) ((((cfg0.win 2).blk t).view.emb (ix2 z q)) 1)
  refine (colAt_apply V c t.val t.isLt z q).trans ?_
  rw [ht, show 512 * (15 + 1) = 8192 from rfl]
  refine (colSeq_total V c q).trans ?_
  refine congrArg (Cert.Spec.colSum (V c main_arg1)) (Fin.ext ?_)
  show q.val = win0_2.index t (1 : Fin 2) * 4096 + 1 * q.val
  rw [e1]; omega

/-- An index of the edge-degree array is in point t's block iff each coordinate is in the block's range. -/
theorem mem_col_blk (t : Fin cfg0.N) (i : S1x4096.Idx) :
    i ∈ ((cfg0.win 2).blk t).view.set
      ↔ ∀ a : Fin 2, win0_2.index t a * S1x4096.size a ≤ (i a).val ∧ (i a).val < win0_2.index t a * S1x4096.size a + S1x4096.size a := by
  show i ∈ ((View.whole main_v0_1).slice (win0_2.rect t)).set ↔ _
  rw [View.set_slice_whole, Rect.mem_set_unit]
  exact Iff.rfl

/-- The last point's block is the whole edge-degree array. -/
theorem col_cover (i : S1x4096.Idx) :
    ∃ t : Fin cfg0.N, (cfg0.win 2).flush t = true ∧ i ∈ ((cfg0.win 2).blk t).view.set := by
  have h0 : (i 0).val < 1 := (i 0).isLt
  have h1 : (i 1).val < 4096 := (i 1).isLt
  refine ⟨⟨15, by rw [N_eq]; omega⟩, (flush0_2 _).mpr rfl, ?_⟩
  rw [mem_col_blk]
  obtain ⟨-, -, -, -, e0, e1⟩ := idx_facts ⟨15, by rw [N_eq]; omega⟩
  intro a
  match a with
  | ⟨0, _⟩ =>
    show win0_2.index _ (0 : Fin 2) * 1 ≤ (i 0).val ∧ (i 0).val < win0_2.index _ (0 : Fin 2) * 1 + 1
    rw [e0]; omega
  | ⟨1, _⟩ =>
    show win0_2.index _ (1 : Fin 2) * 4096 ≤ (i 1).val ∧ (i 1).val < win0_2.index _ (1 : Fin 2) * 4096 + 4096
    rw [e1]; omega

/-! ## The two result arrays after the region -/

/-- The node-degree array after the region: entry (n, 0) is the sum of row n of H. -/
theorem final_row (c : Dev nD) :
    ((dat (F := Ideal) V c).arrAt 1 cfg0.N : S8192x1.Idx → EReal) = fun i => Cert.Spec.rowSum (V c main_arg1) (i 0) := by
  exact (dat V c).arrAt_eq_of_cover 1 _ (fun t _ => flushed_row V c t) row_cover

/-- The edge-degree array after the region: entry (0, e) is the sum of column e of H. -/
theorem final_col (c : Dev nD) :
    ((dat (F := Ideal) V c).arrAt 2 cfg0.N : S1x4096.Idx → EReal) = fun i => Cert.Spec.colSum (V c main_arg1) (i 1) := by
  exact (dat V c).arrAt_eq_of_cover 2 _ (fun t hf => flushed_col V c t hf) col_cover

end Cert.KernelIdeal.R0

end
-- ==== Proof.LibMatmulColumns.lean ====
/-
  A matrix product that contracts the FIRST axis of both rank-2 operands, read at one entry over the extended reals.

  A K×M left operand against a K×N right operand, both used as they lie (columns against columns), into an M×N
  result: the transpose of the left operand times the right one. Started from the zero accumulator, entry (p, q)
  of the product is the plain sum over k of x[k, p] · y[k, q]: addition of extended reals is commutative and
  associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulColumns

open Idealize.ShloMosaic Idealize.ShloMosaic.ValueIdx

/-- The dimension numbers `<[0], [0], [1], [1], [0, 1, 1, 1], [], []>`: `K×M` by `K×N`, both operands contracted
    on their first axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand is read at the contraction position on its first axis … -/
theorem lhs_row (i : (⟨2, ![M, N]⟩ : Shape).Idx) (q : (dims K M N).contr.Idx) :
    ((dims K M N).lhsIdx i q 0).val = (q ⟨0, by rw [DotDims.rank_contr]; exact Nat.one_pos⟩).val :=
  (dims K M N).lhsIdx_val_of_single rfl i q

/-- … and at column `i 0` of the result index. -/
theorem lhs_col (i : (⟨2, ![M, N]⟩ : Shape).Idx) (q : (dims K M N).contr.Idx) :
    ((dims K M N).lhsIdx i q 1).val = (i 0).val := by
  unfold DotDims.lhsIdx
  rw [dif_neg (show ¬(1 : Fin 2) ∈ (dims K M N).lhsBatch by simp [dims]),
    dif_pos (show (1 : Fin 2) ∈ (dims K M N).lhsNonContracting by simp [dims])]
  rfl

/-- The right operand is read at the same contraction position on its first axis … -/
theorem rhs_row (i : (⟨2, ![M, N]⟩ : Shape).Idx) (q : (dims K M N).contr.Idx) :
    ((dims K M N).rhsIdx i q 0).val = (q ⟨0, by rw [DotDims.rank_contr]; exact Nat.one_pos⟩).val :=
  (dims K M N).rhsIdx_val_of_single rfl i q

/-- … and at column `i 1` of the result index. -/
theorem rhs_col (i : (⟨2, ![M, N]⟩ : Shape).Idx) (q : (dims K M N).contr.Idx) :
    ((dims K M N).rhsIdx i q 1).val = (i 1).val := by
  unfold DotDims.rhsIdx
  rw [dif_neg (show ¬(1 : Fin 2) ∈ (dims K M N).rhsBatch by simp [dims]),
    dif_pos (show (1 : Fin 2) ∈ (dims K M N).rhsNonContracting by simp [dims])]
  rfl

/-- Entry (p, q) of xᵀ · y from the zero accumulator: the sum over k of x[k, p] · y[k, q]. -/
theorem matmul_zero_apply {φ₁ φ₂ : FTy} (prec : Option ContractPrecision)
    (x : FVec Ideal ⟨2, ![K, M]⟩ φ₁) (y : FVec Ideal ⟨2, ![K, N]⟩ φ₂) (p : Fin M) (q : Fin N) :
    FloatOps.matmul (dims K M N) prec x y (constant ⟨2, ![M, N]⟩ .f32 0x00000000#32) (ix2 p q)
      = ∑ k : Fin K, x (ix2 k p) * y (ix2 k q) := by
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k)
      = ix2 k p := funext fun a => Fin.ext (by
    match a with
    | ⟨0, _⟩ => exact (lhs_row _ _).trans hk
    | ⟨1, _⟩ => exact lhs_col _ _)
  have er : (dims K M N).rhsIdx (ix2 p q) ((contrEquiv1 (dims K M N) K rfl rfl).symm k)
      = ix2 k q := funext fun a => Fin.ext (by
    match a with
    | ⟨0, _⟩ => exact (rhs_row _ _).trans hk
    | ⟨1, _⟩ => exact rhs_col _ _)
  rw [el, er]

end Idealize.ShloMosaic.MatmulColumns

end
-- ==== Proof.LibBlockSum.lean ====
/-
  A sum over a long index range cut into consecutive blocks of equal length: in a commutative monoid (the extended reals'
  addition is one) the sum over `a · b` positions is the sum, block by block, of the sums inside each block of length
  `b`; position `b · s + x` is position `x` of block `s`. Stated for functions on the naturals (no bound travels with
  the position), and for functions on `Fin (a · b)`.
-/
import Mathlib.Algebra.BigOperators.Fin
import Mathlib.Algebra.BigOperators.Intervals

open scoped BigOperators

namespace BlockSum

variable {M : Type*} [AddCommMonoid M]

/-- The first `a · b` terms are `a` consecutive blocks of `b` terms. -/
theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

/-- The same over the finite index types: a sum over `Fin (a · b)` of a function of the position's value. -/
theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.Val.R1Value.lean ====
/-
  What the second pallas_call leaves in its result array, at the ideal instance: the edge features, from the arrays
  the region is entered with (H, x, the node-scale column, the edge-scale column).
-/
import proofs.«125814_j23089744183324_1_alg».proof.Proof.KI.R1Data
import proofs.«125814_j23089744183324_1_alg».proof.Proof.Spec
import proofs.«125814_j23089744183324_1_alg».proof.Proof.LibMatmulColumns
import proofs.«125814_j23089744183324_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

namespace EdgeValue

/-! ## The payloads at an entry -/

/-- The printed dimension numbers are the first-axis contraction of a 2048×1024 and a 2048×256 operand. -/
theorem dot_eq : dot_S2048x1024_S2048x256_S1024x256_0_0_1_1_n_n = MatmulColumns.dims 2048 1024 256 := rfl

/-- A one-column block repeated along the columns: entry (p, q) is the column's entry p. -/
theorem col_along {α : Type} {n m : ℕ} (v : (⟨2, ![n, 1]⟩ : Shape).Idx → α)
    (h : (⟨2, ![n, 1]⟩ : Shape).Broadcasts ⟨2, ![n, m]⟩) (p : Fin n) (q : Fin m) :
    broadcastTo ⟨2, ![n, m]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

/-- The cleared accumulator holds zero everywhere. -/
theorem pay1_apply (p : Fin 1024) (q : Fin 256) : (k1_pay1 (F := Ideal)) (ix2 p q) = 0 := by
  unfold k1_pay1
  simp only [shapeCast_self]
  exact Ideal.ofBits_zero_f32

/-- One point's step: entry (p, q) of the accumulator gains Σ_k h(k, p) · (x(k, q) · dn(k, 0)). -/
theorem pay2_apply (h : Vec Ideal S2048x1024 .f32) (x : Vec Ideal S2048x256 .f32) (dn : Vec Ideal S2048x1 .f32)
    (acc : Vec Ideal S1024x256 .f32) (p : Fin 1024) (q : Fin 256) :
    k1_pay2 h x dn acc (ix2 p q)
      = acc (ix2 p q) + ∑ k : Fin 2048, h (ix2 k p) * (x (ix2 k q) * dn (ix2 k (0 : Fin 1))) := by
  unfold k1_pay2
  simp only [shapeCast_self]
  refine (addf_apply _ _ _).trans ?_
  refine congrArg (acc (ix2 p q) + ·) ?_
  rw [dot_eq]
  refine (MatmulColumns.matmul_zero_apply none _ _ p q).trans ?_
  refine Finset.sum_congr rfl fun k _ => ?_
  rw [truncf_apply, truncf_apply, mulf_apply]
  exact congrArg (fun z => h (ix2 k p) * (x (ix2 k q) * z)) (col_along dn _ k q)

/-- The stored tile: entry (p, q) of the accumulator times the edge scale of row p. -/
theorem pay3_apply (acc : Vec Ideal S1024x256 .f32) (de : Vec Ideal S1024x1 .f32) (p : Fin 1024) (q : Fin 256) :
    k1_pay3 acc de (ix2 p q) = acc (ix2 p q) * de (ix2 p (0 : Fin 1)) := by
  unfold k1_pay3
  simp only [shapeCast_self]
  refine (mulf_apply _ _ _).trans ?_
  exact congrArg (acc (ix2 p q) * ·) (col_along de _ p q)

/-! ## The four arrays the region is entered with, as matrices over the extended reals -/

/-- H (nodes × edges), x (nodes × features), the node-scale column and the edge-scale column. -/
abbrev Hm (c : Dev nD) : S8192x4096.Idx → EReal := V c main_arg1
abbrev Xm (c : Dev nD) : S8192x256.Idx → EReal := V c main_arg0
abbrev Dn (c : Dev nD) : S8192x1.Idx → EReal := V c main_v7
abbrev De (c : Dev nD) : S4096x1.Idx → EReal := V c main_v14

/-! ## The windows' blocks as parts of their arrays -/

/-- The block index maps over the grid: at point t the node tile is t mod 4 and the edge tile is t div 4. -/
theorem idxH : ∀ t : Fin cfg1.N, win1_0.index t (0 : Fin 2) = t.val % 4 ∧ win1_0.index t (1 : Fin 2) = t.val / 4 :=
  (by decide +kernel : ∀ t : Fin grid1.N, win1_0.index t (0 : Fin 2) = t.val % 4 ∧ win1_0.index t (1 : Fin 2) = t.val / 4)
theorem idxX : ∀ t : Fin cfg1.N, win1_1.index t (0 : Fin 2) = t.val % 4 ∧ win1_1.index t (1 : Fin 2) = 0 :=
  (by decide +kernel : ∀ t : Fin grid1.N, win1_1.index t (0 : Fin 2) = t.val % 4 ∧ win1_1.index t (1 : Fin 2) = 0)
theorem idxDn : ∀ t : Fin cfg1.N, win1_2.index t (0 : Fin 2) = t.val % 4 ∧ win1_2.index t (1 : Fin 2) = 0 :=
  (by decide +kernel : ∀ t : Fin grid1.N, win1_2.index t (0 : Fin 2) = t.val % 4 ∧ win1_2.index t (1 : Fin 2) = 0)
theorem idxDe : ∀ t : Fin cfg1.N, win1_3.index t (0 : Fin 2) = t.val / 4 ∧ win1_3.index t (1 : Fin 2) = 0 :=
  (by decide +kernel : ∀ t : Fin grid1.N, win1_3.index t (0 : Fin 2) = t.val / 4 ∧ win1_3.index t (1 : Fin 2) = 0)
theorem idxOut : ∀ t : Fin cfg1.N, win1_4.index t (0 : Fin 2) = t.val / 4 ∧ win1_4.index t (1 : Fin 2) = 0 :=
  (by decide +kernel : ∀ t : Fin grid1.N, win1_4.index t (0 : Fin 2) = t.val / 4 ∧ win1_4.index t (1 : Fin 2) = 0)

/-- The H tile of point t: node rows 2048·(t mod 4) + ·, edge columns 1024·(t div 4) + ·. -/
theorem hblk_apply (c : Dev nD) (t : Fin cfg1.N) (y : S2048x1024.Idx) (i : S8192x4096.Idx)
    (h0 : (i 0).val = 2048 * (t.val % 4) + (y 0).val) (h1 : (i 1).val = 1024 * (t.val / 4) + (y 1).val) :
    hblk V c t y = Hm V c i := by
  obtain ⟨e0, e1⟩ := idxH t
  unfold hblk iblk
  rw [View.read_apply]
  show V c main_arg1 (((cfg1.win 0).blk t).view.emb y) = V c main_arg1 i
  congr 1
  funext a
  apply Fin.ext
  match a with
  | ⟨0, _⟩ => show win1_0.index t (0 : Fin 2) * 2048 + 1 * (y 0).val = (i 0).val; rw [e0, h0]; omega
  | ⟨1, _⟩ => show win1_0.index t (1 : Fin 2) * 1024 + 1 * (y 1).val = (i 1).val; rw [e1, h1]; omega

/-- The x tile of point t: node rows 2048·(t mod 4) + ·, every column. -/
theorem xblk_apply (c : Dev nD) (t : Fin cfg1.N) (y : S2048x256.Idx) (i : S8192x256.Idx)
    (h0 : (i 0).val = 2048 * (t.val % 4) + (y 0).val) (h1 : (i 1).val = (y 1).val) :
    xblk V c t y = Xm V c i := by
  obtain ⟨e0, e1⟩ := idxX t
  unfold xblk iblk
  rw [View.read_apply]
  show V c main_arg0 (((cfg1.win 1).blk t).view.emb y) = V c main_arg0 i
  congr 1
  funext a
  apply Fin.ext
  match a with
  | ⟨0, _⟩ => show win1_1.index t (0 : Fin 2) * 2048 + 1 * (y 0).val = (i 0).val; rw [e0, h0]; omega
  | ⟨1, _⟩ => show win1_1.index t (1 : Fin 2) * 256 + 1 * (y 1).val = (i 1).val; rw [e1, h1]; omega

/-- The node-scale tile of point t: rows 2048·(t mod 4) + · of the column. -/
theorem dnblk_apply (c : Dev nD) (t : Fin cfg1.N) (y : S2048x1.Idx) (i : S8192x1.Idx)
    (h0 : (i 0).val = 2048 * (t.val % 4) + (y 0).val) (h1 : (i 1).val = (y 1).val) :
    dnblk V c t y = Dn V c i := by
  obtain ⟨e0, e1⟩ := idxDn t
  unfold dnblk iblk
  rw [View.read_apply]
  show V c main_v7 (((cfg1.win 2).blk t).view.emb y) = V c main_v7 i
  congr 1
  funext a
  apply Fin.ext
  match a with
  | ⟨0, _⟩ => show win1_2.index t (0 : Fin 2) * 2048 + 1 * (y 0).val = (i 0).val; rw [e0, h0]; omega
  | ⟨1, _⟩ => show win1_2.index t (1 : Fin 2) * 1 + 1 * (y 1).val = (i 1).val; rw [e1, h1]; omega

/-- The edge-scale tile of point t: rows 1024·(t div 4) + · of the column. -/
theorem deblk_apply (c : Dev nD) (t : Fin cfg1.N) (y : S1024x1.Idx) (i : S4096x1.Idx)
    (h0 : (i 0).val = 1024 * (t.val / 4) + (y 0).val) (h1 : (i 1).val = (y 1).val) :
    deblk V c t y = De V c i := by
  obtain ⟨e0, e1⟩ := idxDe t
  unfold deblk iblk
  rw [View.read_apply]
  show V c main_v14 (((cfg1.win 3).blk t).view.emb y) = V c main_v14 i
  congr 1
  funext a
  apply Fin.ext
  match a with
  | ⟨0, _⟩ => show win1_3.index t (0 : Fin 2) * 1024 + 1 * (y 0).val = (i 0).val; rw [e0, h0]; omega
  | ⟨1, _⟩ => show win1_3.index t (1 : Fin 2) * 1 + 1 * (y 1).val = (i 1).val; rw [e1, h1]; omega

/-! ## The accumulator over the node tiles of one edge tile -/

/-- Node n's term of edge ε and feature d: H(n, ε) · (x(n, d) · dn(n, 0)); zero past the last node. -/
def term (c : Dev nD) (ε : Fin 4096) (d : Fin 256) (n : ℕ) : EReal :=
  if h : n < 8192 then
    Hm V c (ix2 ⟨n, h⟩ ε) * (Xm V c (ix2 ⟨n, h⟩ d) * Dn V c (ix2 ⟨n, h⟩ (0 : Fin 1)))
  else 0

/-- The product of point n's tiles at (p, q): the terms of the node rows 2048·(n mod 4) + k of edge 1024·(n div 4) + p. -/
theorem tile_sum (c : Dev nD) (n : ℕ) (hn : n < cfg1.N) (p : Fin 1024) (q : Fin 256) (ε : Fin 4096)
    (hε : ε.val = 1024 * (n / 4) + p.val) :
    ∑ k : Fin 2048, hblk V c ⟨n, hn⟩ (ix2 k p) * (xblk V c ⟨n, hn⟩ (ix2 k q) * dnblk V c ⟨n, hn⟩ (ix2 k (0 : Fin 1)))
      = ∑ k : Fin 2048, term V c ε q (2048 * (n % 4) + k.val) := by
  refine Finset.sum_congr rfl fun k _ => ?_
  have hk := k.isLt
  have hb : 2048 * (n % 4) + k.val < 8192 := by omega
  unfold term
  rw [dif_pos hb]
  rw [hblk_apply V c ⟨n, hn⟩ (ix2 k p) (ix2 ⟨_, hb⟩ ε) rfl hε,
    xblk_apply V c ⟨n, hn⟩ (ix2 k q) (ix2 ⟨_, hb⟩ q) rfl rfl,
    dnblk_apply V c ⟨n, hn⟩ (ix2 k (0 : Fin 1)) (ix2 ⟨_, hb⟩ (0 : Fin 1)) rfl rfl]

/-- After point n the accumulator's entry (p, q) is the sum of the terms of the node tiles 0 … n mod 4 of its edge. -/
theorem accAt_apply (c : Dev nD) : ∀ (n : ℕ) (hn : n < cfg1.N) (p : Fin 1024) (q : Fin 256) (ε : Fin 4096),
    ε.val = 1024 * (n / 4) + p.val →
    accAt V c n hn (ix2 p q) = ∑ s ∈ Finset.range (n % 4 + 1), ∑ k : Fin 2048, term V c ε q (2048 * s + k.val) := by
  intro n
  induction n with
  | zero =>
    intro hn p q ε hε
    have e := accAt_first V c ⟨0, hn⟩ rfl
    rw [show accAt V c 0 hn = _ from e, pay2_apply, pay1_apply, zero_add, tile_sum V c 0 hn p q ε hε]
    exact (Finset.sum_range_one (fun s => ∑ k : Fin 2048, term V c ε q (2048 * s + k.val))).symm
  | succ n ih =>
    intro hn p q ε hε
    by_cases h4 : (n + 1) % 4 = 0
    · have e := accAt_first V c ⟨n + 1, hn⟩ h4
      rw [show accAt V c (n + 1) hn = _ from e, pay2_apply, pay1_apply, zero_add, tile_sum V c (n + 1) hn p q ε hε, h4]
      exact (Finset.sum_range_one (fun s => ∑ k : Fin 2048, term V c ε q (2048 * s + k.val))).symm
    · have e := accAt_next V c ⟨n + 1, hn⟩ h4
      rw [show accAt V c (n + 1) hn = _ from e, pay2_apply, tile_sum V c (n + 1) hn p q ε hε, Finset.sum_range_succ]
      refine congrArg (· + _) ?_
      have hi := ih (Nat.lt_of_succ_lt hn) p q ε (by omega)
      rw [show (n + 1) % 4 = n % 4 + 1 by omega]
      exact hi

/-- The four node tiles together are every node. -/
theorem whole_sum (c : Dev nD) (ε : Fin 4096) (d : Fin 256) :
    ∑ s ∈ Finset.range 4, ∑ k : Fin 2048, term V c ε d (2048 * s + k.val)
      = ∑ n : Fin 8192, Hm V c (ix2 n ε) * (Xm V c (ix2 n d) * Dn V c (ix2 n (0 : Fin 1))) := by
  rw [← BlockSum.sum_fin_mul (term V c ε d) 4 2048]
  show ∑ i : Fin 8192, term V c ε d i.val = _
  refine Finset.sum_congr rfl fun n _ => ?_
  unfold term
  rw [dif_pos n.isLt]

/-! ## From the stored tiles to the array -/

/-- The edge features as one array over the result's indices. -/
abbrev G (c : Dev nD) : S4096x256.Idx → EReal := fun i =>
  Cert.Spec.edgeFeat (V c main_arg1) (V c main_arg0) (fun n => (V c main_v7 : S8192x1.Idx → EReal) (ix2 n 0))
    (fun e => (V c main_v14 : S4096x1.Idx → EReal) (ix2 e 0)) (i 0) (i 1)

/-- Entry (p, q) of point t's result tile sits at row 1024·(t div 4) + p, column q of the array. -/
theorem out_emb (t : Fin cfg1.N) (p : Fin 1024) (q : Fin 256) (ε : Fin 4096) (hε : ε.val = 1024 * (t.val / 4) + p.val) :
    ((cfg1.win 4).blk t).view.emb (ix2 p q) = (ix2 ε q : S4096x256.Idx) := by
  obtain ⟨e0, e1⟩ := idxOut t
  funext a
  apply Fin.ext
  match a with
  | ⟨0, _⟩ => show win1_4.index t (0 : Fin 2) * 1024 + 1 * p.val = ε.val; rw [e0, hε]; omega
  | ⟨1, _⟩ => show win1_4.index t (1 : Fin 2) * 256 + 1 * q.val = q.val; rw [e1]; omega

/-- What a last node tile writes back is its block of the edge-feature array. -/
theorem flushed_eq (c : Dev nD) (t : Fin cfg1.N) (hf : (cfg1.win 4).flush t = true) :
    (dat V c).flushed 4 t = ((cfg1.win 4).blk t).view.read (Elt Ideal) (G V c) := by
  have h3 : t.val % 4 = 3 := (flush1_4 t).mp hf
  have hN : t.val < 16 := t.isLt
  show (cfg1.win 4).cut (grid1.coords t) ((dat V c).after 4 t) = _
  rw [after4]
  refine funext fun (j : S1024x256.Idx) => ?_
  obtain ⟨p, q, rfl⟩ : ∃ (p : Fin 1024) (q : Fin 256), j = ix2 p q := ⟨j 0, j 1, eq_ix2 j⟩
  have hp := p.isLt
  have hb : 1024 * (t.val / 4) + p.val < 4096 := by omega
  rw [View.read_apply, out_emb t p q ⟨_, hb⟩ rfl]
  show outAt V c t (ix2 p q)
    = (∑ n : Fin 8192, Hm V c (ix2 n ⟨_, hb⟩) * (Xm V c (ix2 n q) * Dn V c (ix2 n (0 : Fin 1)))) * De V c (ix2 ⟨_, hb⟩ (0 : Fin 1))
  unfold outAt
  rw [pay3_apply, accAt_apply V c t.val t.isLt p q ⟨_, hb⟩ rfl, show t.val % 4 + 1 = 4 by omega, whole_sum,
    deblk_apply V c t (ix2 p (0 : Fin 1)) (ix2 ⟨_, hb⟩ (0 : Fin 1)) rfl rfl]

/-- An index of the array is in point t's result block iff each coordinate is in the block's range on its axis. -/
theorem mem_out (t : Fin cfg1.N) (i : S4096x256.Idx) :
    i ∈ ((cfg1.win 4).blk t).view.set ↔ ∀ a : Fin 2, win1_4.index t a * S1024x256.size a ≤ (i a).val
      ∧ (i a).val < win1_4.index t a * S1024x256.size a + S1024x256.size a := by
  show i ∈ ((View.whole main_v15).slice (win1_4.rect t)).set ↔ _
  rw [View.set_slice_whole, Rect.mem_set_unit]
  exact Iff.rfl

/-- Row r of the array lies in the block written back at the last node tile of edge tile r div 1024. -/
theorem cover (i : S4096x256.Idx) :
    ∃ t : Fin cfg1.N, (cfg1.win 4).flush t = true ∧ i ∈ ((cfg1.win 4).blk t).view.set := by
  have h0 : (i 0).val < 4096 := (i 0).isLt
  have h1 : (i 1).val < 256 := (i 1).isLt
  have ht : 4 * ((i 0).val / 1024) + 3 < cfg1.N := by show _ < 16; omega
  obtain ⟨e0, e1⟩ := idxOut ⟨4 * ((i 0).val / 1024) + 3, ht⟩
  have e0' : win1_4.index ⟨4 * ((i 0).val / 1024) + 3, ht⟩ (0 : Fin 2) = (i 0).val / 1024 :=
    e0.trans (by show (4 * ((i 0).val / 1024) + 3) / 4 = _; omega)
  refine ⟨⟨4 * ((i 0).val / 1024) + 3, ht⟩, (flush1_4 _).mpr (by show (4 * ((i 0).val / 1024) + 3) % 4 = 3; omega), ?_⟩
  rw [mem_out]
  intro a
  match a with
  | ⟨0, _⟩ =>
    show win1_4.index _ (0 : Fin 2) * 1024 ≤ (i 0).val ∧ (i 0).val < win1_4.index _ (0 : Fin 2) * 1024 + 1024
    rw [e0']; omega
  | ⟨1, _⟩ =>
    show win1_4.index _ (1 : Fin 2) * 256 ≤ (i 1).val ∧ (i 1).val < win1_4.index _ (1 : Fin 2) * 256 + 256
    rw [e1]; omega

end EdgeValue

open EdgeValue

/-- The edge-feature array after the region: entry (ε, d) is (Σ_n H(n, ε) · (x(n, d) · dn(n, 0))) · de(ε, 0). -/
theorem final_e (c : Dev nD) :
    ((dat (F := Ideal) V c).arrAt 4 cfg1.N : S4096x256.Idx → EReal) = fun i =>
      Cert.Spec.edgeFeat (V c main_arg1) (V c main_arg0) (fun n => (V c main_v7 : S8192x1.Idx → EReal) (ix2 n 0))
        (fun e => (V c main_v14 : S4096x1.Idx → EReal) (ix2 e 0)) (i 0) (i 1) := by
  exact (dat V c).arrAt_eq_of_cover 4 (G V c) (fun t ht => flushed_eq V c t ht) cover

end Cert.KernelIdeal.R1

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.LibMatmulRows.lean ====
/-
  A matrix product that contracts the LAST axis of both rank-2 operands, read at one entry over the extended reals.

  The dimension numbers are those of `DotDims.transposedRhs M K N`: an M×K left operand against an N×K right operand
  (the right operand is used as it lies, rows against rows), into an M×N result. Started from the zero accumulator,
  entry (p, q) of the product is the plain sum over k of x[p, k] · y[q, k]: addition of extended reals is commutative
  and associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulRows

open Idealize.ShloMosaic Idealize.ShloMosaic.ValueIdx

variable {M K N : Nat}

/-- The left operand is read at row `i 0` of the result index … -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- … and at the contraction position on its last axis. -/
theorem lhs_col (i : (⟨2, ![M, N]⟩ : Shape).Idx) (q : (DotDims.transposedRhs M K N).contr.Idx) :
    ((DotDims.transposedRhs M K N).lhsIdx i q 1).val = (q ⟨0, by rw [DotDims.rank_contr]; exact Nat.one_pos⟩).val :=
  (DotDims.transposedRhs M K N).lhsIdx_val_of_single rfl i q

/-- The right operand is read at row `i 1` of the result index … -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- … and at the same contraction position on its last axis. -/
theorem rhs_col (i : (⟨2, ![M, N]⟩ : Shape).Idx) (q : (DotDims.transposedRhs M K N).contr.Idx) :
    ((DotDims.transposedRhs M K N).rhsIdx i q 1).val = (q ⟨0, by rw [DotDims.rank_contr]; exact Nat.one_pos⟩).val :=
  (DotDims.transposedRhs M K N).rhsIdx_val_of_single rfl i q

/-- Entry (p, q) of x · yᵀ from the zero accumulator: the sum over k of x[p, k] · y[q, k]. -/
theorem matmul_zero_apply {φ₁ φ₂ : FTy} (prec : Option ContractPrecision)
    (x : FVec Ideal ⟨2, ![M, K]⟩ φ₁) (y : FVec Ideal ⟨2, ![N, K]⟩ φ₂) (p : Fin M) (q : Fin N) :
    FloatOps.matmul (DotDims.transposedRhs M K N) prec x y (constant ⟨2, ![M, N]⟩ .f32 0x00000000#32) (ix2 p q)
      = ∑ k : Fin K, x (ix2 p k) * y (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun a => Fin.ext (by
    match a with
    | ⟨0, _⟩ => exact lhs_row _ _
    | ⟨1, _⟩ => exact (lhs_col _ _).trans hk)
  have er : (DotDims.transposedRhs M K N).rhsIdx (ix2 p q) ((contrEquiv1 (DotDims.transposedRhs M K N) K rfl rfl).symm k)
      = ix2 q k := funext fun a => Fin.ext (by
    match a with
    | ⟨0, _⟩ => exact rhs_row _ _
    | ⟨1, _⟩ => exact (rhs_col _ _).trans hk)
  rw [el, er]

end Idealize.ShloMosaic.MatmulRows

end
-- ==== Proof.Val.R2Value.lean ====
/-
  What the third pallas_call leaves in its result array, at the ideal instance: the dense layer of the node features,
  from the arrays the region is entered with (H, the edge features, the node-scale column, W, the bias row).
-/
import proofs.«125814_j23089744183324_1_alg».proof.Proof.KI.R2Data
import proofs.«125814_j23089744183324_1_alg».proof.Proof.Spec
import proofs.«125814_j23089744183324_1_alg».proof.Proof.LibPlainProduct
import proofs.«125814_j23089744183324_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-! ## The body's three payloads, entry by entry -/

/-- The first product's printed dimension record is the plain one: rows of the left operand against columns of the right. -/
theorem dot_he_eq : dot_S2048x1024_S1024x256_S2048x256_1_0_0_1_n_n = DotDims.plain 2048 1024 256 := rfl

/-- The second product's printed record contracts the last axis of both operands. -/
theorem dot_xw_eq : dot_S2048x256_S256x256_S2048x256_1_1_0_0_n_n = DotDims.transposedRhs 2048 256 256 := rfl

/-- The cleared accumulator is zero everywhere. -/
theorem pay1_apply (p : Fin 2048) (q : Fin 256) : (k2_pay1 (F := Ideal)) (ix2 p q) = 0 := by
  unfold k2_pay1
  rw [shapeCast_self]
  exact Ideal.ofBits_zero_f32

/-- One edge tile's step: the accumulator's entry plus the H tile's row against the edge-feature tile's column. -/
theorem pay2_apply (h : Vec Ideal S2048x1024 .f32) (e : Vec Ideal S1024x256 .f32) (acc : Vec Ideal S2048x256 .f32)
    (p : Fin 2048) (q : Fin 256) :
    k2_pay2 h e acc (ix2 p q) = acc (ix2 p q) + ∑ k : Fin 1024, h (ix2 p k) * e (ix2 k q) := by
  unfold k2_pay2
  rw [shapeCast_self, shapeCast_self]
  refine congrArg (acc (ix2 p q) + ·) ?_
  rw [dot_he_eq]
  exact Cert.LibPlainProduct.matmul_zero_plain_apply (M := 2048) (K := 1024) (N := 256) _ _ none p q

/-- A column broadcast along the rows' entries: at (p, d) a [a, 1] array stretched to [a, b] reads its row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (d : Fin b) :
    broadcastTo ⟨2, ![a, b]⟩ v h (ix2 p d) = v (ix2 p (0 : Fin 1)) := by
  refine broadcastTo_apply v h (ix2 p d) (ix2 p (0 : Fin 1)) fun ax => ?_
  match ax with
  | ⟨0, _⟩ =>
    show p.val = if a = 1 then 0 else p.val
    split
    · have := p.isLt; omega
    · rfl
  | ⟨1, _⟩ => rfl

/-- The stored result tile: the accumulator's row scaled by the node scale, against W's row, plus the bias entry. -/
theorem pay3_apply (acc : Vec Ideal S2048x256 .f32) (dn : Vec Ideal S2048x1 .f32) (w : Vec Ideal S256x256 .f32)
    (b : Vec Ideal S1x256 .f32) (p : Fin 2048) (o : Fin 256) :
    k2_pay3 acc dn w b (ix2 p o)
      = (∑ d : Fin 256, (acc (ix2 p d) * dn (ix2 p (0 : Fin 1))) * w (ix2 o d)) + b (ix2 (0 : Fin 1) o) := by
  unfold k2_pay3
  rw [shapeCast_self, shapeCast_self]
  refine (addf_apply _ _ (ix2 p o)).trans ?_
  refine congrArg₂ (· + ·) ?_ (broadcastTo_1b_ab_apply (a := 2048) (b := 256) b _ p o)
  rw [dot_xw_eq]
  refine (Idealize.ShloMosaic.MatmulRows.matmul_zero_apply (M := 2048) (K := 256) (N := 256) none _ _ p o).trans ?_
  refine Finset.sum_congr rfl fun d _ => ?_
  refine congrArg₂ (· * ·) ?_ rfl
  exact congrArg (acc (ix2 p d) * ·) (broadcastTo_a1_ab_apply (a := 2048) (b := 256) dn _ p d)

/-! ## The windows' blocks, read off the arrays

Point t = 4·a + j is node tile a = t / 4, edge tile j = t % 4. A block's entry sits in its array, on each axis, at the
block index times the block's extent plus the entry's own coordinate. -/

/-- The block indices of the six windows at every point of the grid. -/
theorem idx_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 4 ∧ win2_5.index t (1 : Fin 2) = 0 :=
  (by decide +kernel : ∀ t : Fin grid2.N, _)

/-- The H tile: rows 2048·(t / 4) + p, edges 1024·(t % 4) + q. -/
theorem hblk_apply (c : Dev nD) (t : Fin cfg2.N) (p : Fin 2048) (q : Fin 1024) (i : S8192x4096.Idx)
    (h0 : (i 0).val = 2048 * (t.val / 4) + p.val) (h1 : (i 1).val = 1024 * (t.val % 4) + q.val) :
    hblk V c t (ix2 p q) = (V c main_arg1 : S8192x4096.Idx → EReal) i := by
  obtain ⟨e0, e1, -⟩ := idx_facts t
  unfold hblk iblk
  rw [View.read_apply]
  show V c main_arg1 (((cfg2.win 0).blk t).view.emb (ix2 p q)) = V c main_arg1 i
  refine congrArg (V c main_arg1) (funext fun a => Fin.ext ?_)
  match a with
  | ⟨0, _⟩ => show win2_0.index t (0 : Fin 2) * 2048 + 1 * p.val = (i 0).val; rw [e0, h0]; omega
  | ⟨1, _⟩ => show win2_0.index t (1 : Fin 2) * 1024 + 1 * q.val = (i 1).val; rw [e1, h1]; omega

/-- The edge-feature tile: edges 1024·(t % 4) + q, every feature. -/
theorem eblk_apply (c : Dev nD) (t : Fin cfg2.N) (q : Fin 1024) (d : Fin 256) (i : S4096x256.Idx)
    (h0 : (i 0).val = 1024 * (t.val % 4) + q.val) (h1 : (i 1).val = d.val) :
    eblk V c t (ix2 q d) = (V c main_v15 : S4096x256.Idx → EReal) i := by
  obtain ⟨-, -, e0, e1, -⟩ := idx_facts t
  unfold eblk iblk
  rw [View.read_apply]
  show V c main_v15 (((cfg2.win 1).blk t).view.emb (ix2 q d)) = V c main_v15 i
  refine congrArg (V c main_v15) (funext fun a => Fin.ext ?_)
  match a with
  | ⟨0, _⟩ => show win2_1.index t (0 : Fin 2) * 1024 + 1 * q.val = (i 0).val; rw [e0, h0]; omega
  | ⟨1, _⟩ => show win2_1.index t (1 : Fin 2) * 256 + 1 * d.val = (i 1).val; rw [e1, h1]; omega

/-- The node-scale tile: rows 2048·(t / 4) + p of the one column. -/
theorem dnblk_apply (c : Dev nD) (t : Fin cfg2.N) (p : Fin 2048) (i : S8192x1.Idx)
    (h0 : (i 0).val = 2048 * (t.val / 4) + p.val) :
    dnblk V c t (ix2 p (0 : Fin 1)) = (V c main_v7 : S8192x1.Idx → EReal) i := by
  obtain ⟨-, -, -, -, e0, e1, -⟩ := idx_facts t
  unfold dnblk iblk
  rw [View.read_apply]
  show V c main_v7 (((cfg2.win 2).blk t).view.emb (ix2 p (0 : Fin 1))) = V c main_v7 i
  refine congrArg (V c main_v7) (funext fun a => Fin.ext ?_)
  match a with
  | ⟨0, _⟩ => show win2_2.index t (0 : Fin 2) * 2048 + 1 * p.val = (i 0).val; rw [e0, h0]; omega
  | ⟨1, _⟩ =>
    show win2_2.index t (1 : Fin 2) * 1 + 1 * 0 = (i 1).val
    have : (i 1).val < 1 := (i 1).isLt
    rw [e1]; omega

/-- The weight window's block is the whole matrix. -/
theorem wblk_apply (c : Dev nD) (t : Fin cfg2.N) (o : Fin 256) (d : Fin 256) :
    wblk V c t (ix2 o d) = (V c main_arg2 : S256x256.Idx → EReal) (ix2 o d) := by
  obtain ⟨-, -, -, -, -, -, e0, e1, -⟩ := idx_facts t
  unfold wblk iblk
  rw [View.read_apply]
  show V c main_arg2 (((cfg2.win 3).blk t).view.emb (ix2 o d)) = V c main_arg2 (ix2 o d)
  refine congrArg (V c main_arg2) (funext fun a => Fin.ext ?_)
  match a with
  | ⟨0, _⟩ => show win2_3.index t (0 : Fin 2) * 256 + 1 * o.val = o.val; rw [e0]; omega
  | ⟨1, _⟩ => show win2_3.index t (1 : Fin 2) * 256 + 1 * d.val = d.val; rw [e1]; omega

/-- The bias window's block is the whole row. -/
theorem bblk_apply (c : Dev nD) (t : Fin cfg2.N) (o : Fin 256) :
    bblk V c t (ix2 (0 : Fin 1) o) = (V c main_v16 : S1x256.Idx → EReal) (ix2 (0 : Fin 1) o) := by
  obtain ⟨-, -, -, -, -, -, -, -, e0, e1, -⟩ := idx_facts t
  unfold bblk iblk
  rw [View.read_apply]
  show V c main_v16 (((cfg2.win 4).blk t).view.emb (ix2 (0 : Fin 1) o)) = V c main_v16 (ix2 (0 : Fin 1) o)
  refine congrArg (V c main_v16) (funext fun a => Fin.ext ?_)
  match a with
  | ⟨0, _⟩ => show win2_4.index t (0 : Fin 2) * 1 + 1 * 0 = 0; rw [e0]
  | ⟨1, _⟩ => show win2_4.index t (1 : Fin 2) * 256 + 1 * o.val = o.val; rw [e1]; omega

/-! ## The accumulator along the edge tiles of one node tile

After point t = 4·a + j the accumulator's entry (p, d) is the sum, over the edges below 1024·(j + 1), of
H(2048·a + p, ε) · e(ε, d): the first edge tile starts from zero, each later one adds its 1024 edges. The arrays are read
at natural-number coordinates (zero outside their extents), so that a range of edges splits into consecutive tiles. -/

/-- The five arrays the region is entered with, at their literal shapes. -/
abbrev Harr (c : Dev nD) : S8192x4096.Idx → EReal := V c main_arg1
abbrev Earr (c : Dev nD) : S4096x256.Idx → EReal := V c main_v15
abbrev Narr (c : Dev nD) : S8192x1.Idx → EReal := V c main_v7
abbrev Warr (c : Dev nD) : S256x256.Idx → EReal := V c main_arg2
abbrev Barr (c : Dev nD) : S1x256.Idx → EReal := V c main_v16

/-- H at natural-number coordinates, zero outside the array. -/
def Hat (c : Dev nD) (n ε : ℕ) : EReal :=
  if h : n < 8192 ∧ ε < 4096 then (V c main_arg1 : S8192x4096.Idx → EReal) (ix2 ⟨n, h.1⟩ ⟨ε, h.2⟩) else 0

/-- The edge features at natural-number coordinates, zero outside the array. -/
def Eat (c : Dev nD) (ε d : ℕ) : EReal :=
  if h : ε < 4096 ∧ d < 256 then (V c main_v15 : S4096x256.Idx → EReal) (ix2 ⟨ε, h.1⟩ ⟨d, h.2⟩) else 0

theorem Hat_of_lt (c : Dev nD) (n : Fin 8192) (ε : Fin 4096) :
    Hat V c n.val ε.val = (V c main_arg1 : S8192x4096.Idx → EReal) (ix2 n ε) := by
  unfold Hat
  rw [dif_pos ⟨n.isLt, ε.isLt⟩]

theorem Eat_of_lt (c : Dev nD) (ε : Fin 4096) (d : Fin 256) :
    Eat V c ε.val d.val = (V c main_v15 : S4096x256.Idx → EReal) (ix2 ε d) := by
  unfold Eat
  rw [dif_pos ⟨ε.isLt, d.isLt⟩]

theorem val_lt_16 (t : Fin cfg2.N) : t.val < 16 := lt_of_lt_of_eq t.isLt (show cfg2.N = 16 from N_2)

/-- The H tile's entry in natural-number coordinates. -/
theorem hblk_nat (c : Dev nD) (t : Fin cfg2.N) (p : Fin 2048) (q : Fin 1024) :
    hblk V c t (ix2 p q) = Hat V c (2048 * (t.val / 4) + p.val) (1024 * (t.val % 4) + q.val) := by
  have hN := val_lt_16 t
  have hp := p.isLt
  have hq := q.isLt
  have hb : 2048 * (t.val / 4) + p.val < 8192 ∧ 1024 * (t.val % 4) + q.val < 4096 := ⟨by omega, by omega⟩
  unfold Hat
  rw [dif_pos hb]
  exact hblk_apply V c t p q _ rfl rfl

/-- The edge-feature tile's entry in natural-number coordinates. -/
theorem eblk_nat (c : Dev nD) (t : Fin cfg2.N) (q : Fin 1024) (d : Fin 256) :
    eblk V c t (ix2 q d) = Eat V c (1024 * (t.val % 4) + q.val) d.val := by
  have hN := val_lt_16 t
  have hq := q.isLt
  have hb : 1024 * (t.val % 4) + q.val < 4096 ∧ d.val < 256 := ⟨by omega, d.isLt⟩
  unfold Eat
  rw [dif_pos hb]
  exact eblk_apply V c t q d _ rfl rfl

/-- One point's product at (p, d): the 1024 edges of its edge tile. -/
theorem tile_sum (c : Dev nD) (t : Fin cfg2.N) (p : Fin 2048) (d : Fin 256) :
    ∑ k : Fin 1024, hblk V c t (ix2 p k) * eblk V c t (ix2 k d)
      = ∑ k ∈ Finset.range 1024,
          Hat V c (2048 * (t.val / 4) + p.val) (1024 * (t.val % 4) + k) * Eat V c (1024 * (t.val % 4) + k) d.val := by
  rw [← Fin.sum_univ_eq_sum_range
    (fun k => Hat V c (2048 * (t.val / 4) + p.val) (1024 * (t.val % 4) + k) * Eat V c (1024 * (t.val % 4) + k) d.val) 1024]
  exact Finset.sum_congr rfl fun k _ => congrArg₂ (· * ·) (hblk_nat V c t p k) (eblk_nat V c t k d)

/-- At a first edge tile the accumulator is that tile's product alone (zero is neutral). -/
theorem acc_first (c : Dev nD) (t : Fin cfg2.N) (h : t.val % 4 = 0) (p : Fin 2048) (d : Fin 256) :
    accAt V c t.val t.isLt (ix2 p d)
      = ∑ ε ∈ Finset.range (1024 * (t.val % 4 + 1)), Hat V c (2048 * (t.val / 4) + p.val) ε * Eat V c ε d.val := by
  refine (congrFun (accAt_first V c t h) (ix2 p d)).trans ?_
  refine (pay2_apply (hblk V c t) (eblk V c t) (k2_pay1 (F := Ideal)) p d).trans ?_
  rw [pay1_apply, zero_add, tile_sum, h]
  simp only [Nat.mul_zero, Nat.zero_add, Nat.mul_one]

/-- At a later edge tile the accumulator is what the point before left plus this tile's product. -/
theorem acc_next (c : Dev nD) (t : Fin cfg2.N) (h : ¬ t.val % 4 = 0) (p : Fin 2048) (d : Fin 256) :
    accAt V c t.val t.isLt (ix2 p d)
      = accAt V c (t.val - 1) (Nat.lt_of_le_of_lt (Nat.sub_le _ _) t.isLt) (ix2 p d)
        + ∑ k ∈ Finset.range 1024,
            Hat V c (2048 * (t.val / 4) + p.val) (1024 * (t.val % 4) + k) * Eat V c (1024 * (t.val % 4) + k) d.val := by
  refine (congrFun (accAt_next V c t h) (ix2 p d)).trans ?_
  refine (pay2_apply (hblk V c t) (eblk V c t) _ p d).trans ?_
  rw [tile_sum]

/-- The accumulator after point n: every edge below 1024·(n % 4 + 1), against row 2048·(n / 4) + p of H. -/
theorem acc_apply (c : Dev nD) : ∀ (n : ℕ) (hn : n < cfg2.N) (p : Fin 2048) (d : Fin 256),
    accAt V c n hn (ix2 p d)
      = ∑ ε ∈ Finset.range (1024 * (n % 4 + 1)), Hat V c (2048 * (n / 4) + p.val) ε * Eat V c ε d.val := by
  intro n
  induction n with
  | zero => intro hn p d; exact acc_first V c ⟨0, hn⟩ rfl p d
  | succ m ih =>
    intro hn p d
    by_cases h : (m + 1) % 4 = 0
    · exact acc_first V c ⟨m + 1, hn⟩ h p d
    · refine (acc_next V c ⟨m + 1, hn⟩ h p d).trans ?_
      show accAt V c m (Nat.lt_of_succ_lt hn) (ix2 p d)
          + ∑ k ∈ Finset.range 1024,
              Hat V c (2048 * ((m + 1) / 4) + p.val) (1024 * ((m + 1) % 4) + k) * Eat V c (1024 * ((m + 1) % 4) + k) d.val
          = ∑ ε ∈ Finset.range (1024 * ((m + 1) % 4 + 1)), Hat V c (2048 * ((m + 1) / 4) + p.val) ε * Eat V c ε d.val
      have e1 : m / 4 = (m + 1) / 4 := by omega
      have e2 : 1024 * (m % 4 + 1) = 1024 * ((m + 1) % 4) := by omega
      have e3 : 1024 * ((m + 1) % 4 + 1) = 1024 * ((m + 1) % 4) + 1024 := by omega
      rw [ih (Nat.lt_of_succ_lt hn) p d, e1, e2, e3, Finset.sum_range_add]

/-- Over all 4096 edges the natural-number sum is the sum over the edge index. -/
theorem row_sum (c : Dev nD) (n : Fin 8192) (d : Fin 256) :
    ∑ ε ∈ Finset.range 4096, Hat V c n.val ε * Eat V c ε d.val
      = ∑ ε : Fin 4096, Harr V c (ix2 n ε) * Earr V c (ix2 ε d) := by
  rw [← Fin.sum_univ_eq_sum_range (fun ε => Hat V c n.val ε * Eat V c ε d.val) 4096]
  exact Finset.sum_congr rfl fun ε _ => congrArg₂ (· * ·) (Hat_of_lt V c n ε) (Eat_of_lt V c ε d)

/-! ## The stored tile, the write-back, and the whole array -/

/-- The specified result at node n, output feature o. -/
abbrev Gat (c : Dev nD) (n : Fin 8192) (o : Fin 256) : EReal :=
  Cert.Spec.dense (Cert.Spec.nodeFeat (V c main_arg1) (fun ε d => (V c main_v15 : S4096x256.Idx → EReal) (ix2 ε d))
      (fun n => (V c main_v7 : S8192x1.Idx → EReal) (ix2 n 0)))
    (V c main_arg2) (fun o => (V c main_v16 : S1x256.Idx → EReal) (ix2 0 o)) n o

/-- The specification's entry written out over the five arrays. -/
theorem Gat_eq (c : Dev nD) (n : Fin 8192) (o : Fin 256) :
    Gat V c n o
      = (∑ d : Fin 256, ((∑ ε : Fin 4096, Harr V c (ix2 n ε) * Earr V c (ix2 ε d)) * Narr V c (ix2 n (0 : Fin 1)))
            * Warr V c (ix2 o d)) + Barr V c (ix2 (0 : Fin 1) o) := rfl

/-- At a last edge tile the stored tile's entry (p, o) is the specified result at node 2048·(t / 4) + p. -/
theorem out_apply (c : Dev nD) (t : Fin cfg2.N) (ht : t.val % 4 = 3) (p : Fin 2048) (o : Fin 256)
    (hb : 2048 * (t.val / 4) + p.val < 8192) :
    outAt V c t (ix2 p o) = Gat V c ⟨2048 * (t.val / 4) + p.val, hb⟩ o := by
  unfold outAt
  refine (pay3_apply (accAt V c t.val t.isLt) (dnblk V c t) (wblk V c t) (bblk V c t) p o).trans ?_
  rw [Gat_eq]
  refine congrArg₂ (· + ·) (Finset.sum_congr rfl fun d _ => ?_) (bblk_apply V c t o)
  refine congrArg₂ (· * ·) (congrArg₂ (· * ·) ?_ (dnblk_apply V c t p _ rfl)) (wblk_apply V c t o d)
  have e : 1024 * (3 + 1) = 4096 := rfl
  rw [acc_apply V c t.val t.isLt p d, ht, e]
  exact row_sum V c ⟨2048 * (t.val / 4) + p.val, hb⟩ d

/-- What a last edge tile's point writes back is its block of the specified array. -/
theorem flushed_eq (c : Dev nD) (t : Fin cfg2.N) (ht : t.val % 4 = 3) :
    (dat V c).flushed 5 t
      = ((cfg2.win 5).blk t).view.read (Elt Ideal) (fun i : S8192x256.Idx => Gat V c (i 0) (i 1)) := by
  obtain ⟨-, -, -, -, -, -, -, -, -, -, e0, e1⟩ := idx_facts t
  show (cfg2.win 5).cut (grid2.coords t) ((dat V c).after 5 t) = _
  rw [after5]
  funext y
  obtain ⟨p, q, rfl⟩ : ∃ (p : Fin 2048) (q : Fin 256), y = ix2 p q := ⟨y 0, y 1, eq_ix2 y⟩
  have hN := val_lt_16 t
  have hp := p.isLt
  have hb : 2048 * (t.val / 4) + p.val < 8192 := by omega
  have hx : (cfg2.win 5).xinj (grid2.coords t) (ix2 p q) = ix2 p q :=
    funext fun a => by match a with | ⟨0, _⟩ => rfl | ⟨1, _⟩ => rfl
  rw [View.read_apply]
  show outAt V c t ((cfg2.win 5).xinj (grid2.coords t) (ix2 p q))
    = Gat V c ((((cfg2.win 5).blk t).view.emb (ix2 p q)) 0) ((((cfg2.win 5).blk t).view.emb (ix2 p q)) 1)
  rw [hx]
  refine (out_apply V c t ht p q hb).trans (congrArg₂ (Gat V c) (Fin.ext ?_) (Fin.ext ?_))
  · show 2048 * (t.val / 4) + p.val = win2_5.index t (0 : Fin 2) * 2048 + 1 * p.val
    rw [e0]; omega
  · show q.val = win2_5.index t (1 : Fin 2) * 256 + 1 * q.val
    rw [e1]; omega

/-- Every entry of the result array lies in the block of the last edge tile's point of its node tile. -/
theorem cover (i : S8192x256.Idx) :
    ∃ t : Fin cfg2.N, (cfg2.win 5).flush t = true ∧ i ∈ ((cfg2.win 5).blk t).view.set := by
  have h0 : (i 0).val < 8192 := (i 0).isLt
  have h1 : (i 1).val < 256 := (i 1).isLt
  have hN : cfg2.N = 16 := N_2
  have hlt : 4 * ((i 0).val / 2048) + 3 < cfg2.N := by rw [hN]; omega
  obtain ⟨t, hv⟩ : ∃ t : Fin cfg2.N, t.val = 4 * ((i 0).val / 2048) + 3 := ⟨⟨_, hlt⟩, rfl⟩
  obtain ⟨-, -, -, -, -, -, -, -, -, -, e0, e1⟩ := idx_facts t
  refine ⟨t, (flush2_5 t).mpr (by omega), ?_⟩
  show i ∈ ((View.whole main_v17).slice (win2_5.rect t)).set
  rw [View.set_slice_whole, Rect.mem_set_unit]
  intro a
  match a with
  | ⟨0, _⟩ =>
    show win2_5.index t (0 : Fin 2) * 2048 ≤ (i 0).val ∧ (i 0).val < win2_5.index t (0 : Fin 2) * 2048 + 2048
    rw [e0]; omega
  | ⟨1, _⟩ =>
    show win2_5.index t (1 : Fin 2) * 256 ≤ (i 1).val ∧ (i 1).val < win2_5.index t (1 : Fin 2) * 256 + 256
    rw [e1]; omega

/-- The result array after the region: entry (n, o) is (Σ_d ((Σ_ε H(n, ε) · e(ε, d)) · dn(n, 0)) · W(o, d)) + b(0, o). -/
theorem final_out (c : Dev nD) :
    ((dat (F := Ideal) V c).arrAt 5 cfg2.N : S8192x256.Idx → EReal) = fun i =>
      Cert.Spec.dense (Cert.Spec.nodeFeat (V c main_arg1) (fun ε d => (V c main_v15 : S4096x256.Idx → EReal) (ix2 ε d))
          (fun n => (V c main_v7 : S8192x1.Idx → EReal) (ix2 n 0)))
        (V c main_arg2) (fun o => (V c main_v16 : S1x256.Idx → EReal) (ix2 0 o)) (i 0) (i 1) := by
  exact (dat (F := Ideal) V c).arrAt_eq_of_cover 5 (fun i : S8192x256.Idx => Gat V c (i 0) (i 1))
    (fun t hf => flushed_eq V c t ((flush2_5 t).mp hf)) cover

end Cert.KernelIdeal.R2

end
-- ==== Proof.HostGlue.lean ====
/-
  The host lines of the kernel's @main between its three pallas_calls, read at entries at the ideal instance, for any
  contents `outs` the regions leave: the node scale is the scale function of the first region's node degrees, the edge
  scale that of its edge degrees (read through the reshape of the degree row into a column), the bias row is the bias
  vector, and every other buffer a later region reads passes through the lines that do not write it.
-/
import proofs.«125814_j23089744183324_1_alg».proof.Proof.Gen.KernelIdeal.Regions
import proofs.«125814_j23089744183324_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (outs : Gen.Outs (F := Ideal))

/-! ## Buffers that pass through -/

theorem V5_arg0 (c : Dev nD) : Gen.V5 m outs c main_arg0 = m ((c : Thread nD τ).loc main_arg0) := by
  rw [Gen.V5_of m outs c main_arg0 (by decide), Gen.V4_of m outs c main_arg0 (by decide),
    Gen.V3_of m outs c main_arg0 (by decide), Gen.V2_of m outs c main_arg0 (by decide),
    Gen.V1_of m outs c main_arg0 (by decide)]
theorem V5_arg1 (c : Dev nD) : Gen.V5 m outs c main_arg1 = m ((c : Thread nD τ).loc main_arg1) := by
  rw [Gen.V5_of m outs c main_arg1 (by decide), Gen.V4_of m outs c main_arg1 (by decide),
    Gen.V3_of m outs c main_arg1 (by decide), Gen.V2_of m outs c main_arg1 (by decide),
    Gen.V1_of m outs c main_arg1 (by decide)]
theorem V7_arg1 (c : Dev nD) : Gen.V7 m outs c main_arg1 = m ((c : Thread nD τ).loc main_arg1) := by
  rw [Gen.V7_of m outs c main_arg1 (by decide), Gen.V6_of m outs c main_arg1 (by decide)]
  exact V5_arg1 m outs c
theorem V7_arg2 (c : Dev nD) : Gen.V7 m outs c main_arg2 = m ((c : Thread nD τ).loc main_arg2) := by
  rw [Gen.V7_of m outs c main_arg2 (by decide), Gen.V6_of m outs c main_arg2 (by decide),
    Gen.V5_of m outs c main_arg2 (by decide), Gen.V4_of m outs c main_arg2 (by decide),
    Gen.V3_of m outs c main_arg2 (by decide), Gen.V2_of m outs c main_arg2 (by decide),
    Gen.V1_of m outs c main_arg2 (by decide)]
/-- The node scale reaches the third region as the second found it. -/
theorem V7_v7 (c : Dev nD) : Gen.V7 m outs c main_v7 = Gen.V5 m outs c main_v7 := by
  rw [Gen.V7_of m outs c main_v7 (by decide), Gen.V6_of m outs c main_v7 (by decide)]
/-- The edge features reach the third region as the second left them. -/
theorem V7_v15 (c : Dev nD) : Gen.V7 m outs c main_v15 = outs 6 main_v15 c := by
  rw [Gen.V7_of m outs c main_v15 (by decide)]
  show Function.update _ _ _ _ = _
  rw [Function.update_self]
/-- The result buffer ends as the third region left it. -/
theorem V8_v17 (c : Dev nD) : Gen.V8 m outs c main_v17 = outs 8 main_v17 c := by
  show Function.update _ _ _ _ = _
  rw [Function.update_self]

/-! ## The host lines' results as terms

Each host line's result is its operation applied to the contents of its operands' buffers when the line ran; a buffer
the lines in between do not write is read as it was. -/

/-- The first host lines read the node degrees as the first region left them. -/
theorem V1_v0_0 (c : Dev nD) : Gen.V1 m outs c main_v0_0 = outs 1 main_v0_0 c := by
  show Function.update (Function.update _ _ _) _ _ _ = _
  rw [Function.update_of_ne (StableHlo.devRef_ne_of_ne (by decide)), Function.update_self]

/-- And the edge degrees. -/
theorem V1_v0_1 (c : Dev nD) : Gen.V1 m outs c main_v0_1 = outs 1 main_v0_1 c := by
  show Function.update _ _ _ _ = _
  rw [Function.update_self]

/-- "The node degree is positive", as a mask. -/
theorem V2_v3 (c : Dev nD) :
    (Gen.V2 m outs c main_v3 : (⟨S8192x1, .i1⟩ : BufTy).Contents (Elt Ideal))
      = cmpf .ogt (Gen.V1 m outs c main_v0_0 : (⟨S8192x1, .f32⟩ : BufTy).Contents (Elt Ideal))
          (broadcastInDim S8192x1 ![] bcast_S_S8192x1 (constant (F := Ideal) S_ .f32 0x00000000#32)) := by
  show StableHlo.after hostOps1 _ (Proc.devRef .tc main_v3) = _
  after_results

/-- The reciprocal square root of the clamped node degree. -/
theorem V2_v6 (c : Dev nD) :
    (Gen.V2 m outs c main_v6 : (⟨S8192x1, .f32⟩ : BufTy).Contents (Elt Ideal))
      = Host.rsqrt (maximumf (Gen.V1 m outs c main_v0_0 : (⟨S8192x1, .f32⟩ : BufTy).Contents (Elt Ideal))
          (broadcastInDim S8192x1 ![] bcast_S_S8192x1 (constant (F := Ideal) S_ .f32 0x0DA24260#32))) := by
  show StableHlo.after hostOps1 _ (Proc.devRef .tc main_v6) = _
  after_results

/-- The zero word the select falls back to. -/
theorem V2_cst_1 (c : Dev nD) :
    (Gen.V2 m outs c main_cst_1 : (⟨S_, .f32⟩ : BufTy).Contents (Elt Ideal)) = constant (F := Ideal) S_ .f32 0x00000000#32 := by
  show StableHlo.after hostOps1 _ (Proc.devRef .tc main_cst_1) = _
  after_results

/-- The node scale as the select of the three. -/
theorem V3_v7 (c : Dev nD) :
    (Gen.V3 m outs c main_v7 : (⟨S8192x1, .f32⟩ : BufTy).Contents (Elt Ideal))
      = select (Gen.V2 m outs c main_v3 : (⟨S8192x1, .i1⟩ : BufTy).Contents (Elt Ideal))
          (Gen.V2 m outs c main_v6 : (⟨S8192x1, .f32⟩ : BufTy).Contents (Elt Ideal))
          (broadcastInDim S8192x1 ![] bcast_S_S8192x1 (id (Gen.V2 m outs c main_cst_1 : (⟨S_, .f32⟩ : BufTy).Contents (Elt Ideal)))) := by
  show StableHlo.after hostOps1_1 _ (Proc.devRef .tc main_v7) = _
  after_results
  rfl

/-- The edge degrees as a column: the row the first region left, reshaped. -/
theorem V2_v1 (c : Dev nD) :
    (Gen.V2 m outs c main_v1 : (⟨S4096x1, .f32⟩ : BufTy).Contents (Elt Ideal))
      = shapeCast S4096x1 (Gen.V1 m outs c main_v0_1 : (⟨S1x4096, .f32⟩ : BufTy).Contents (Elt Ideal)) shapeCasts_S1x4096_S4096x1 := by
  show StableHlo.after hostOps1 _ (Proc.devRef .tc main_v1) = _
  after_results
  rfl

/-- "The edge degree is positive", as a mask. -/
theorem V4_v9 (c : Dev nD) :
    (Gen.V4 m outs c main_v9 : (⟨S4096x1, .i1⟩ : BufTy).Contents (Elt Ideal))
      = cmpf .ogt (Gen.V3 m outs c main_v1 : (⟨S4096x1, .f32⟩ : BufTy).Contents (Elt Ideal))
          (broadcastInDim S4096x1 ![] bcast_S_S4096x1 (constant (F := Ideal) S_ .f32 0x00000000#32)) := by
  show StableHlo.after hostOps1_2 _ (Proc.devRef .tc main_v9) = _
  after_results

/-- One over the clamped edge degree. -/
theorem V4_v13 (c : Dev nD) :
    (Gen.V4 m outs c main_v13 : (⟨S4096x1, .f32⟩ : BufTy).Contents (Elt Ideal))
      = Host.divf (broadcastInDim S4096x1 ![] bcast_S_S4096x1 (constant (F := Ideal) S_ .f32 0x3F800000#32))
          (maximumf (Gen.V3 m outs c main_v1 : (⟨S4096x1, .f32⟩ : BufTy).Contents (Elt Ideal))
            (broadcastInDim S4096x1 ![] bcast_S_S4096x1 (constant (F := Ideal) S_ .f32 0x0DA24260#32))) := by
  show StableHlo.after hostOps1_2 _ (Proc.devRef .tc main_v13) = _
  after_results

/-- The zero word the second select falls back to. -/
theorem V4_cst_5 (c : Dev nD) :
    (Gen.V4 m outs c main_cst_5 : (⟨S_, .f32⟩ : BufTy).Contents (Elt Ideal)) = constant (F := Ideal) S_ .f32 0x00000000#32 := by
  show StableHlo.after hostOps1_2 _ (Proc.devRef .tc main_cst_5) = _
  after_results

/-- The edge scale as the select of the three. -/
theorem V5_v14 (c : Dev nD) :
    (Gen.V5 m outs c main_v14 : (⟨S4096x1, .f32⟩ : BufTy).Contents (Elt Ideal))
      = select (Gen.V4 m outs c main_v9 : (⟨S4096x1, .i1⟩ : BufTy).Contents (Elt Ideal))
          (Gen.V4 m outs c main_v13 : (⟨S4096x1, .f32⟩ : BufTy).Contents (Elt Ideal))
          (broadcastInDim S4096x1 ![] bcast_S_S4096x1 (id (Gen.V4 m outs c main_cst_5 : (⟨S_, .f32⟩ : BufTy).Contents (Elt Ideal)))) := by
  show StableHlo.after hostOps1_3 _ (Proc.devRef .tc main_v14) = _
  after_results
  rfl

/-- The bias row: the bias vector, reshaped. -/
theorem V7_v16 (c : Dev nD) :
    (Gen.V7 m outs c main_v16 : (⟨S1x256, .f32⟩ : BufTy).Contents (Elt Ideal))
      = shapeCast S1x256 (Gen.V6 m outs c main_arg3 : (⟨S256, .f32⟩ : BufTy).Contents (Elt Ideal)) shapeCasts_S256_S1x256 := by
  show StableHlo.after hostOps2 _ (Proc.devRef .tc main_v16) = _
  after_results
  rfl

/-! ## Reading at an entry -/

/-- A scalar broadcast along the nodes reads the scalar at every index. -/
theorem bcast_node_apply {α : Type} (y : S_.Idx → α) (j : S8192x1.Idx) :
    broadcastInDim S8192x1 ![] bcast_S_S8192x1 y j = y ix0 :=
  broadcastInDim_apply _ bcast_S_S8192x1 y j ix0 (fun a => a.elim0)

/-- A scalar broadcast along the edges reads the scalar at every index. -/
theorem bcast_edge_apply {α : Type} (y : S_.Idx → α) (j : S4096x1.Idx) :
    broadcastInDim S4096x1 ![] bcast_S_S4096x1 y j = y ix0 :=
  broadcastInDim_apply _ bcast_S_S4096x1 y j ix0 (fun a => a.elim0)

/-- The host's division, entry by entry, is the extended reals' quotient. -/
theorem hostDivf_apply {s : Shape} {φ : FTy} (a b : FVec Ideal s φ) (i : s.Idx) :
    Host.divf a b i = Ideal.div (a i) (b i) := rfl

/-- The host's reciprocal square root, entry by entry. -/
theorem hostRsqrt_apply {s : Shape} {φ : FTy} (a : FVec Ideal s φ) (i : s.Idx) :
    Host.rsqrt a i = Ideal.rsqrt (a i) := rfl

/-- A row of length 4096 reshaped into a column reads, at (e, 0), the row at (0, e): both are position e in row-major order. -/
theorem col_of_row_apply {α : Type} (x : S1x4096.Idx → α) (h : S1x4096.ShapeCasts S4096x1) (e : Fin 4096) :
    shapeCast S4096x1 x h (ix2 e 0) = x (ix2 0 e) :=
  shapeCast_apply x h _ _ (by
    rw [Shape.rowMajor_val_two, Shape.rowMajor_val_two]
    show 0 * 4096 + e.val = e.val * 1 + 0
    omega)

/-! ## The scales and the bias row -/

/-- The node scale at node `n` is the scale function of the node degree the first region left. -/
theorem v7_read (c : Dev nD) (n : Fin 8192) :
    (Gen.V5 m outs c main_v7 : S8192x1.Idx → EReal) (ix2 n 0)
      = Cert.Spec.nodeScale ((outs 1 main_v0_0 c : S8192x1.Idx → EReal) (ix2 n 0)) := by
  rw [Gen.V5_of m outs c main_v7 (by decide), Gen.V4_of m outs c main_v7 (by decide), V3_v7, V2_v3, V2_v6, V2_cst_1,
    V1_v0_0]
  simp only [select_apply, cmpf_apply, hostRsqrt_apply, maximumf_apply, bcast_node_apply, constant_apply, id]
  rfl

/-- The edge scale at edge `e` is the scale function of the edge degree the first region left (a row, reshaped into a
    column). -/
theorem v14_read (c : Dev nD) (e : Fin 4096) :
    (Gen.V5 m outs c main_v14 : S4096x1.Idx → EReal) (ix2 e 0)
      = Cert.Spec.edgeScale ((outs 1 main_v0_1 c : S1x4096.Idx → EReal) (ix2 0 e)) := by
  rw [V5_v14, V4_v9, V4_v13, V4_cst_5, Gen.V3_of m outs c main_v1 (by decide), V2_v1, V1_v0_1]
  simp only [select_apply, cmpf_apply, hostDivf_apply, maximumf_apply, bcast_edge_apply, constant_apply, id, col_of_row_apply]
  rfl

/-- The bias row is the bias vector. -/
theorem v16_read (c : Dev nD) (o : Fin 256) :
    (Gen.V7 m outs c main_v16 : S1x256.Idx → EReal) (ix2 0 o) = (m ((c : Thread nD τ).loc main_arg3) : S256.Idx → EReal) (ix1 o) := by
  rw [V7_v16, Gen.V6_of m outs c main_arg3 (by decide), Gen.V5_of m outs c main_arg3 (by decide),
    Gen.V4_of m outs c main_arg3 (by decide), Gen.V3_of m outs c main_arg3 (by decide),
    Gen.V2_of m outs c main_arg3 (by decide), Gen.V1_of m outs c main_arg3 (by decide)]
  exact shapeCast_a_1a_apply _ shapeCasts_S256_S1x256 0 o

end Cert.KernelIdeal.Glue

end
-- ==== Proof.Val.Result.lean ====
/-
  The kernel's result, at the ideal instance, is the specification of the four inputs: the three regions' value legs
  composed through the host lines between them. The first region's degrees feed the two scales; the second region's
  edge features are the specification's at those scales; the third region's result is the dense layer of the node
  features built from them.
-/
import proofs.«125814_j23089744183324_1_alg».proof.Proof.KI.Family
import proofs.«125814_j23089744183324_1_alg».proof.Proof.Val.R0Value
import proofs.«125814_j23089744183324_1_alg».proof.Proof.Val.R1Value
import proofs.«125814_j23089744183324_1_alg».proof.Proof.Val.R2Value
import proofs.«125814_j23089744183324_1_alg».proof.Proof.HostGlue

set_option maxRecDepth 16384

noncomputable section

namespace Cert.KernelIdeal.Fam

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ)

/-- H, x, W, b as launched on core `c`. -/
abbrev Hin (c : Dev nD) : S8192x4096.Idx → EReal := m ((c : Thread nD τ).loc main_arg1)
abbrev xin (c : Dev nD) : S8192x256.Idx → EReal := m ((c : Thread nD τ).loc main_arg0)
abbrev Win (c : Dev nD) : S256x256.Idx → EReal := m ((c : Thread nD τ).loc main_arg2)
abbrev bin (c : Dev nD) : S256.Idx → EReal := m ((c : Thread nD τ).loc main_arg3)

/-- The node degrees the first region leaves. -/
theorem deg_n (c : Dev nD) (n : Fin 8192) :
    (outs1 m 1 main_v0_0 c : S8192x1.Idx → EReal) (ix2 n 0) = Cert.Spec.rowSum (Hin m c) n := by
  have h : (outs1 m 1 main_v0_0 c : S8192x1.Idx → EReal) = (dat0 m c).arrAt 1 cfg0.N :=
    Pipeline.withArrays_arr spec0 launch0.win.arr_inj c (Gen.V0 m c) (fun w => (dat0 m c).arrAt w cfg0.N) 1
  rw [h]
  exact congrFun (R0.final_row (rd (Gen.V0 m)) c) (ix2 n 0)

/-- The edge degrees the first region leaves. -/
theorem deg_e (c : Dev nD) (e : Fin 4096) :
    (outs1 m 1 main_v0_1 c : S1x4096.Idx → EReal) (ix2 0 e) = Cert.Spec.colSum (Hin m c) e := by
  have h : (outs1 m 1 main_v0_1 c : S1x4096.Idx → EReal) = (dat0 m c).arrAt 2 cfg0.N :=
    Pipeline.withArrays_arr spec0 launch0.win.arr_inj c (Gen.V0 m c) (fun w => (dat0 m c).arrAt w cfg0.N) 2
  rw [h]
  exact congrFun (R0.final_col (rd (Gen.V0 m)) c) (ix2 0 e)

/-- The node scale the later regions read. -/
theorem dn_read (c : Dev nD) (n : Fin 8192) :
    (Gen.V5 m (outs1 m) c main_v7 : S8192x1.Idx → EReal) (ix2 n 0) = Cert.Spec.nodeScale (Cert.Spec.rowSum (Hin m c) n) := by
  rw [Glue.v7_read m (outs1 m) c n, deg_n]

/-- The edge scale the second region reads. -/
theorem de_read (c : Dev nD) (e : Fin 4096) :
    (Gen.V5 m (outs1 m) c main_v14 : S4096x1.Idx → EReal) (ix2 e 0) = Cert.Spec.edgeScale (Cert.Spec.colSum (Hin m c) e) := by
  rw [Glue.v14_read m (outs1 m) c e, deg_e]

/-- The edge features the second region leaves. -/
theorem e_read (c : Dev nD) (ε : Fin 4096) (d : Fin 256) :
    (outs2 m 6 main_v15 c : S4096x256.Idx → EReal) (ix2 ε d)
      = Cert.Spec.edgeFeat (Hin m c) (xin m c) (fun n => Cert.Spec.nodeScale (Cert.Spec.rowSum (Hin m c) n))
          (fun e => Cert.Spec.edgeScale (Cert.Spec.colSum (Hin m c) e)) ε d := by
  have h : (outs2 m 6 main_v15 c : S4096x256.Idx → EReal) = (dat1 m c).arrAt 4 cfg1.N :=
    Pipeline.withArrays_arr spec1 launch1.win.arr_inj c (Gen.V5 m (outs1 m) c) (fun w => (dat1 m c).arrAt w cfg1.N) 4
  rw [h, show (dat1 m c).arrAt 4 cfg1.N = _ from R1.final_e (rd (Gen.V5 m (outs1 m))) c]
  show Cert.Spec.edgeFeat (Gen.V5 m (outs1 m) c main_arg1) (Gen.V5 m (outs1 m) c main_arg0) _ _ ε d = _
  rw [Glue.V5_arg1 m (outs1 m) c, Glue.V5_arg0 m (outs1 m) c]
  unfold Cert.Spec.edgeFeat
  dsimp only [rd]
  rw [de_read]
  refine congrArg (· * _) (Finset.sum_congr rfl fun n _ => ?_)
  rw [dn_read]

/-- The result buffer at the end is the specification of the launch contents. -/
theorem result_eq (c : Dev nD) :
    (Gen.V8 m (outs m) c main_v17 : S8192x256.Idx → EReal)
      = fun i => Cert.Spec.out (xin m c) (Hin m c) (Win m c) (bin m c) (i 0) (i 1) := by
  have h : (outs m 8 main_v17 c : S8192x256.Idx → EReal) = (dat2 m c).arrAt 5 cfg2.N :=
    Pipeline.withArrays_arr spec2 launch2.win.arr_inj c (Gen.V7 m (outs2 m) c) (fun w => (dat2 m c).arrAt w cfg2.N) 5
  rw [Glue.V8_v17 m (outs m) c, h, show (dat2 m c).arrAt 5 cfg2.N = _ from R2.final_out (rd (Gen.V7 m (outs2 m))) c]
  refine funext fun (i : S8192x256.Idx) => ?_
  obtain ⟨n, o, rfl⟩ : ∃ (n : Fin 8192) (o : Fin 256), i = ix2 n o := ⟨i 0, i 1, eq_ix2 i⟩
  show Cert.Spec.dense (Cert.Spec.nodeFeat (Gen.V7 m (outs2 m) c main_arg1) _ _) (Gen.V7 m (outs2 m) c main_arg2) _ n o
    = Cert.Spec.out (xin m c) (Hin m c) (Win m c) (bin m c) n o
  rw [Glue.V7_arg1 m (outs2 m) c, Glue.V7_arg2 m (outs2 m) c]
  unfold Cert.Spec.out Cert.Spec.dense
  dsimp only [rd]
  rw [Glue.v16_read m (outs2 m) c o]
  refine congrArg (· + _) (Finset.sum_congr rfl fun d _ => congrArg (· * _) ?_)
  unfold Cert.Spec.nodeFeat
  dsimp only [rd]
  rw [Glue.V7_v7 m (outs2 m) c, V5_eq2 m c, dn_read]
  refine congrArg (· * _) (Finset.sum_congr rfl fun ε _ => ?_)
  rw [Glue.V7_v15 m (outs2 m) c, e_read]

end Cert.KernelIdeal.Fam

end
-- ==== Proof.RefSpec.lean ====
/-
  The reference program's result, read one operation at a time, is the specification: the degrees are the host's row and
  column sums of H, each scale the same pointwise function of its degree, and the three contractions the sums of the
  specification in the same order of factors.
-/
import proofs.«125814_j23089744183324_1_alg».proof.Proof.Gen.ReferenceIdeal.Read
import proofs.«125814_j23089744183324_1_alg».proof.Proof.Spec
import Idealize.ShloMosaic.Lib.ValueLayout

set_option maxRecDepth 16384

noncomputable section

namespace Cert.RefSpec

open Cert.ReferenceIdeal Cert.ReferenceIdeal.Gen Cert.ReferenceIdeal.Read
open Idealize.ShloMosaic Idealize.ShloMosaic.TcCoe Idealize.ShloMosaic.ValueIdx Idealize.SL.Sem
open scoped BigOperators

/-! ## Index equations

Each layout operation of the reference reads its operand at an index composed from the result's; at explicit
coordinates every such composite is an index built from those coordinates. -/

theorem bcol_8192 (n : Fin 8192) (d : Fin 256) : idx_main_v15 (idx_main_v16 (ix2 n d)) = ix1 n :=
  funext fun a => Fin.ext (by match a with | ⟨0, _⟩ => rfl)

theorem bcol_8192' (n : Fin 8192) (d : Fin 256) : idx_main_v24 (idx_main_v25 (ix2 n d)) = ix1 n :=
  funext fun a => Fin.ext (by match a with | ⟨0, _⟩ => rfl)

theorem bcol_4096 (e : Fin 4096) (d : Fin 256) : idx_main_v20 (idx_main_v21 (ix2 e d)) = ix1 e :=
  funext fun a => Fin.ext (by match a with | ⟨0, _⟩ => rfl)

theorem brow_256 (n : Fin 8192) (o : Fin 256) : idx_main_v29 (idx_main_v30 (ix2 n o)) = ix1 o :=
  funext fun a => Fin.ext (by match a with | ⟨0, _⟩ => rfl)

theorem red_row (n : Fin 8192) (k : Fin 4096) : idx_main_v0 (ix1 n) k = ix2 n k :=
  funext fun a => Fin.ext (by match a with | ⟨0, _⟩ => rfl | ⟨1, _⟩ => rfl)

theorem red_col (e : Fin 4096) (k : Fin 8192) : idx_main_v1 (ix1 e) k = ix2 k e :=
  funext fun a => Fin.ext (by match a with | ⟨0, _⟩ => rfl | ⟨1, _⟩ => rfl)

theorem l19 (e : Fin 4096) (d : Fin 256) (k : Fin 8192) : idx_main_v18 (lidx_main_v19 (ix2 e d) k) = ix2 k e :=
  funext fun a => Fin.ext (by match a with | ⟨0, _⟩ => rfl | ⟨1, _⟩ => rfl)

theorem r19 (e : Fin 4096) (d : Fin 256) (k : Fin 8192) : ridx_main_v19 (ix2 e d) k = ix2 k d :=
  funext fun a => Fin.ext (by match a with | ⟨0, _⟩ => rfl | ⟨1, _⟩ => rfl)

theorem l23 (n : Fin 8192) (d : Fin 256) (k : Fin 4096) : lidx_main_v23 (ix2 n d) k = ix2 n k :=
  funext fun a => Fin.ext (by match a with | ⟨0, _⟩ => rfl | ⟨1, _⟩ => rfl)

theorem r23 (n : Fin 8192) (d : Fin 256) (k : Fin 4096) : ridx_main_v23 (ix2 n d) k = ix2 k d :=
  funext fun a => Fin.ext (by match a with | ⟨0, _⟩ => rfl | ⟨1, _⟩ => rfl)

theorem l28 (n : Fin 8192) (o : Fin 256) (k : Fin 256) : lidx_main_v28 (ix2 n o) k = ix2 n k :=
  funext fun a => Fin.ext (by match a with | ⟨0, _⟩ => rfl | ⟨1, _⟩ => rfl)

theorem r28 (n : Fin 8192) (o : Fin 256) (k : Fin 256) : idx_main_v27 (ridx_main_v28 (ix2 n o) k) = ix2 o k :=
  funext fun a => Fin.ext (by match a with | ⟨0, _⟩ => rfl | ⟨1, _⟩ => rfl)

/-! ## The degrees and their scales -/

section
variable (x0 : (⟨S8192x256, .f32⟩ : BufTy).Contents (Elt Ideal)) (x1 : (⟨S8192x4096, .f32⟩ : BufTy).Contents (Elt Ideal))
  (x2 : (⟨S256x256, .f32⟩ : BufTy).Contents (Elt Ideal)) (x3 : (⟨S256, .f32⟩ : BufTy).Contents (Elt Ideal))

/-- The host's sum along a row starts from the zero word, which is 0, so it is the row's sum. -/
theorem v0_at (n : Fin 8192) : val_main_v0 (F := Ideal) x1 (ix1 n) = Cert.Spec.rowSum x1 n := by
  rw [val_main_v0_apply, val_main_cst_apply, Ideal.ofBits_def, Ideal.ofBits_zero_f32, zero_add]
  exact Finset.sum_congr rfl fun k _ => congrArg x1 (red_row n k)

/-- Likewise along a column. -/
theorem v1_at (e : Fin 4096) : val_main_v1 (F := Ideal) x1 (ix1 e) = Cert.Spec.colSum x1 e := by
  rw [val_main_v1_apply, val_main_cst_0_apply, Ideal.ofBits_def, Ideal.ofBits_zero_f32, zero_add]
  exact Finset.sum_congr rfl fun k _ => congrArg x1 (red_col e k)

/-- The node scale: compare with 0, clamp at 1e-30, reciprocal square root, select against 0. -/
theorem v7_at (n : Fin 8192) :
    val_main_v7 (F := Ideal) x1 (ix1 n) = Cert.Spec.nodeScale (Cert.Spec.rowSum x1 n) := by
  rw [val_main_v7_apply, val_main_v3_apply, val_main_v6_apply, val_main_v5_apply, val_main_call0_v1_apply,
    val_main_call0_v0_apply, val_main_cst_3_apply, val_main_v2_apply, val_main_cst_1_apply, val_main_v4_apply,
    val_main_cst_2_apply, v0_at]
  simp only [Ideal.ofBits_def, Ideal.maximumf_def, Ideal.hostUnary_rsqrt_def]
  rfl

/-- The edge scale: compare with 0, clamp at 1e-30, divide 1 by it, select against 0. -/
theorem v14_at (e : Fin 4096) :
    val_main_v14 (F := Ideal) x1 (ix1 e) = Cert.Spec.edgeScale (Cert.Spec.colSum x1 e) := by
  rw [val_main_v14_apply, val_main_v9_apply, val_main_v13_apply, val_main_v11_apply, val_main_v12_apply,
    val_main_cst_6_apply, val_main_call1_v1_apply, val_main_call1_v0_apply, val_main_cst_7_apply, val_main_v8_apply,
    val_main_cst_4_apply, val_main_v10_apply, val_main_cst_5_apply, v1_at]
  simp only [Ideal.ofBits_def, Ideal.maximumf_def, Ideal.hostDivf_def]
  rfl

/-! ## The three contractions -/

/-- The node features scaled by the node scale of their row. -/
theorem v17_at (n : Fin 8192) (d : Fin 256) :
    val_main_v17 (F := Ideal) x0 x1 (ix2 n d) = x0 (ix2 n d) * Cert.Spec.nodeScale (Cert.Spec.rowSum x1 n) := by
  rw [val_main_v17_apply, val_main_v16_apply, val_main_v15_apply, bcol_8192, v7_at, Ideal.mulf_def]

/-- Hᵀ times the scaled node features: the sum over the nodes. -/
theorem v19_at (e : Fin 4096) (d : Fin 256) :
    val_main_v19 (F := Ideal) x0 x1 (ix2 e d)
      = ∑ n : Fin 8192, x1 (ix2 n e) * (x0 (ix2 n d) * Cert.Spec.nodeScale (Cert.Spec.rowSum x1 n)) := by
  rw [val_main_v19_apply]
  refine Finset.sum_congr rfl fun k _ => ?_
  rw [val_main_v18_apply, l19, r19, v17_at]

/-- The edge features. -/
theorem v22_at (e : Fin 4096) (d : Fin 256) :
    val_main_v22 (F := Ideal) x0 x1 (ix2 e d)
      = Cert.Spec.edgeFeat x1 x0 (fun n => Cert.Spec.nodeScale (Cert.Spec.rowSum x1 n))
          (fun e => Cert.Spec.edgeScale (Cert.Spec.colSum x1 e)) e d := by
  rw [val_main_v22_apply, val_main_v21_apply, val_main_v20_apply, bcol_4096, v14_at, v19_at, Ideal.mulf_def]
  rfl

/-- H times the edge features: the sum over the edges. -/
theorem v23_at (n : Fin 8192) (d : Fin 256) :
    val_main_v23 (F := Ideal) x0 x1 (ix2 n d)
      = ∑ e : Fin 4096, x1 (ix2 n e) * Cert.Spec.edgeFeat x1 x0 (fun n => Cert.Spec.nodeScale (Cert.Spec.rowSum x1 n))
          (fun e => Cert.Spec.edgeScale (Cert.Spec.colSum x1 e)) e d := by
  rw [val_main_v23_apply]
  refine Finset.sum_congr rfl fun k _ => ?_
  rw [l23, r23, v22_at]

/-- The node features after the second scaling. -/
theorem v26_at (n : Fin 8192) (d : Fin 256) :
    val_main_v26 (F := Ideal) x0 x1 (ix2 n d)
      = Cert.Spec.nodeFeat x1 (Cert.Spec.edgeFeat x1 x0 (fun n => Cert.Spec.nodeScale (Cert.Spec.rowSum x1 n))
          (fun e => Cert.Spec.edgeScale (Cert.Spec.colSum x1 e))) (fun n => Cert.Spec.nodeScale (Cert.Spec.rowSum x1 n)) n d := by
  rw [val_main_v26_apply, val_main_v25_apply, val_main_v24_apply, bcol_8192', v7_at, v23_at, Ideal.mulf_def]
  rfl

/-- The dense layer's product with Wᵀ: the sum over the feature axis. -/
theorem v28_at (n : Fin 8192) (o : Fin 256) :
    val_main_v28 (F := Ideal) x0 x1 x2 (ix2 n o)
      = ∑ d : Fin 256, Cert.Spec.nodeFeat x1 (Cert.Spec.edgeFeat x1 x0 (fun n => Cert.Spec.nodeScale (Cert.Spec.rowSum x1 n))
          (fun e => Cert.Spec.edgeScale (Cert.Spec.colSum x1 e))) (fun n => Cert.Spec.nodeScale (Cert.Spec.rowSum x1 n)) n d
            * x2 (ix2 o d) := by
  rw [val_main_v28_apply]
  refine Finset.sum_congr rfl fun k _ => ?_
  rw [val_main_v27_apply, l28, r28, v26_at]

/-- The last stage: the bias added along the rows. -/
theorem v31_at (n : Fin 8192) (o : Fin 256) :
    val_main_v31 (F := Ideal) x0 x1 x2 x3 (ix2 n o) = Cert.Spec.out x0 x1 x2 x3 n o := by
  rw [val_main_v31_apply, val_main_v30_apply, val_main_v29_apply, brow_256, v28_at, Ideal.addf_def]
  rfl

end

/-- The reference's last stage, as a function of the four arguments (x, H, W, b), is the specification entry by entry. -/
theorem ref_is_spec (x0 : (⟨S8192x256, .f32⟩ : BufTy).Contents (Elt Ideal)) (x1 : (⟨S8192x4096, .f32⟩ : BufTy).Contents (Elt Ideal))
    (x2 : (⟨S256x256, .f32⟩ : BufTy).Contents (Elt Ideal)) (x3 : (⟨S256, .f32⟩ : BufTy).Contents (Elt Ideal)) :
    (val_main_v31 (F := Ideal) x0 x1 x2 x3 : S8192x256.Idx → EReal) = fun i => Cert.Spec.out x0 x1 x2 x3 (i 0) (i 1) := by
  funext i
  obtain ⟨n, o, rfl⟩ : ∃ (n : Fin 8192) (o : Fin 256), i = ix2 n o := ⟨i 0, i 1, eq_ix2 i⟩
  exact v31_at x0 x1 x2 x3 n o

end Cert.RefSpec

end
-- ==== Proof.lean ====
/-
  The certificate's claims, assembled.

  The kernel runs three pallas_calls over a hypergraph incidence matrix H (8192 nodes × 4096 edges): the degrees (row
  and column sums of H), then the edge features (Σ_n H(n, ε) · (x(n, d) · dn(n))) · de(ε) accumulated over four node
  tiles per edge tile, then the dense layer of the node features (Σ_ε H(n, ε) · e(ε, d)) · dn(n) accumulated over four
  edge tiles per node tile; the reference computes the same with whole-array sums and contractions. Over the extended
  reals both are one function of the inputs (Proof/Spec.lean): a tiled accumulation from zero is the whole sum, a change
  of float format is the identity, and every product is taken in the same order on both sides, so the comparison uses
  only the commutative-monoid laws of finite sums and never opens the precondition.

  Frames: each program's @main runs to the end, faults nowhere and leaves its arguments unchanged — the kernel's from the
  launch of its three regions with their body obligations (Proof/KI, Proof/K for the word-level program), the reference's
  from its run read back. Nothing was rewritten by the ideal pass, so `preserves` has nothing to state.
-/
import proofs.«125814_j23089744183324_1_alg».proof.Defs
import proofs.«125814_j23089744183324_1_alg».proof.Proof.Gen.Kernel
import proofs.«125814_j23089744183324_1_alg».proof.Proof.Gen.KernelIdeal
import proofs.«125814_j23089744183324_1_alg».proof.Proof.Gen.ReferenceIdeal
import proofs.«125814_j23089744183324_1_alg».proof.Proof.Gen.Pre_finite_inputs
import proofs.«125814_j23089744183324_1_alg».proof.Proof.K.Run
import proofs.«125814_j23089744183324_1_alg».proof.Proof.K.R0Body
import proofs.«125814_j23089744183324_1_alg».proof.Proof.K.R1Body
import proofs.«125814_j23089744183324_1_alg».proof.Proof.K.R2Body
import proofs.«125814_j23089744183324_1_alg».proof.Proof.KI.Run
import proofs.«125814_j23089744183324_1_alg».proof.Proof.KI.R0Body
import proofs.«125814_j23089744183324_1_alg».proof.Proof.KI.R1Body
import proofs.«125814_j23089744183324_1_alg».proof.Proof.KI.R2Body
import proofs.«125814_j23089744183324_1_alg».proof.Proof.Val.Result
import proofs.«125814_j23089744183324_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel's frame: the launch of its three regions. -/
theorem frame_k : Cert.frame_Kernel := fun m ρ _ =>
  Cert.Kernel.Fam.frame (F := Bits) m ρ (fun c => Cert.Kernel.R0.body_obligation _ c)
    (fun c => Cert.Kernel.R1.body_obligation _ c) (fun c => Cert.Kernel.R2.body_obligation _ c)

/-- The idealized kernel's frame: the same launch at the ideal instance. -/
theorem frame_ki : Cert.frame_KernelIdeal := fun m ρ _ =>
  Cert.KernelIdeal.Fam.frame (F := Ideal) m ρ (fun c => Cert.KernelIdeal.R0.body_obligation _ c)
    (fun c => Cert.KernelIdeal.R1.body_obligation _ c) (fun c => Cert.KernelIdeal.R2.body_obligation _ c)

/-- The reference's frame: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the four inputs both programs end with the specification of those inputs in their
    result buffer: the kernel by its three value legs composed through its host lines, the reference by its stages
    read one at a time. -/
theorem algebraic : Cert.algebraic_KernelIdeal_ReferenceIdeal := by
  intro m ρ m' ρ' _ hagree
  refine ⟨fun c => Cert.KernelIdeal.Gen.V8 m (Cert.KernelIdeal.Fam.outs m) c Cert.KernelIdeal.main_v17,
    Cert.KernelIdeal.Fam.run_result (F := Ideal) m ρ (fun c => Cert.KernelIdeal.R0.body_obligation _ c)
      (fun c => Cert.KernelIdeal.R1.body_obligation _ c) (fun c => Cert.KernelIdeal.R2.body_obligation _ c), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact ((Cert.ReferenceIdeal.Read.val_main_v31_eq (F := Ideal) _ _ _ _).trans (Cert.RefSpec.ref_is_spec _ _ _ _)).trans
    (Cert.KernelIdeal.Fam.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
